-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v60)) (v1 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_v63) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_v110) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x14 : Shape := ⟨2, ![100000, 14]⟩
abbrev S100000 : Shape := ⟨1, ![100000]⟩
abbrev S1000000 : Shape := ⟨1, ![1000000]⟩
abbrev S8x16 : Shape := ⟨2, ![8, 16]⟩
abbrev S1024x8 : Shape := ⟨2, ![1024, 8]⟩
abbrev S38x128 : Shape := ⟨2, ![38, 128]⟩
abbrev S128 : Shape := ⟨1, ![128]⟩
abbrev S128x128 : Shape := ⟨2, ![128, 128]⟩
abbrev S_ : Shape := ⟨0, ![]⟩

class Facts : Prop where
  bcast_S_S100000x14 : S_.BroadcastsInDim S100000x14 (![] : Fin 0 → Fin S100000x14.rank)
  reducesTo_S100000x14_S_d0_1 : S100000x14.ReducesTo [0, 1] S_
  h_S_ : 0 < S_.numel
  bcast_S_S1000000 : S_.BroadcastsInDim S1000000 (![] : Fin 0 → Fin S1000000.rank)
  reducesTo_S1000000_S_d0 : S1000000.ReducesTo [0] S_
  bcast_S_S8x16 : S_.BroadcastsInDim S8x16 (![] : Fin 0 → Fin S8x16.rank)
  reducesTo_S8x16_S_d0_1 : S8x16.ReducesTo [0, 1] S_
  bcast_S_S1024x8 : S_.BroadcastsInDim S1024x8 (![] : Fin 0 → Fin S1024x8.rank)
  reducesTo_S1024x8_S_d0_1 : S1024x8.ReducesTo [0, 1] S_
  bcast_S_S38x128 : S_.BroadcastsInDim S38x128 (![] : Fin 0 → Fin S38x128.rank)
  reducesTo_S38x128_S_d0_1 : S38x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S100000 : S_.BroadcastsInDim S100000 (![] : Fin 0 → Fin S100000.rank)
  reducesTo_S100000_S_d0 : S100000.ReducesTo [0] S_

variable [Facts]

def fn_part4 {F : FTy → Type} [FloatOps F] (main_arg1 : IVec S100000 32) (main_arg18 : FVec F S128 .f32) (main_v63 : IVec S_ 1) (main_v67 : IVec S_ 1) : IVec S_ 1 :=
  let main_v68 : IVec S_ 1 := andi main_v63 main_v67
  let main_v69 : FVec F S128 .f32 := Host.absf main_arg18
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_c_28 : IVec S_ 32 := constantI S_ 32 0#32
  let main_v74 : IVec S100000 32 := broadcastInDim S100000 ![] bcast_S_S100000 main_c_28
  let main_v75 : IVec S100000 1 := cmpi .sge main_arg1 main_v74
  let main_c_29 : IVec S_ 1 := constantI S_ 1 1#1
  let main_v76 : IVec S_ 1 := (fun x v => Host.reduce IntOp.andi x v reducesTo_S100000_S_d0 h_S_) main_v75 main_c_29
  let main_v77 : IVec S_ 1 := andi main_v73 main_v76
  let main_c_30 : IVec S_ 32 := constantI S_ 32 8#32
  let main_v78 : IVec S100000 32 := broadcastInDim S100000 ![] bcast_S_S100000 main_c_30
  let main_v79 : IVec S100000 1 := cmpi .slt main_arg1 main_v78
  let main_c_31 : IVec S_ 1 := constantI S_ 1 1#1
  let main_v80 : IVec S_ 1 := (fun x v => Host.reduce IntOp.andi x v reducesTo_S100000_S_d0 h_S_) main_v79 main_c_31
  let main_v81 : IVec S_ 1 := andi main_v77 main_v80
  main_v81

def fn_part3 {F : FTy → Type} [FloatOps F] (main_arg1 : IVec S100000 32) (main_arg15 : FVec F S128x128 .f32) (main_arg16 : FVec F S128 .f32) (main_arg17 : FVec F S128 .f32) (main_arg18 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg15
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg16
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg17
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg1 main_arg18 main_v63 main_v67

def fn_part2 {F : FTy → Type} [FloatOps F] (main_arg1 : IVec S100000 32) (main_arg11 : FVec F S128x128 .f32) (main_arg12 : FVec F S128 .f32) (main_arg13 : FVec F S128x128 .f32) (main_arg14 : FVec F S128 .f32) (main_arg15 : FVec F S128x128 .f32) (main_arg16 : FVec F S128 .f32) (main_arg17 : FVec F S128 .f32) (main_arg18 : FVec F S128 .f32) (main_v33 : IVec S_ 1) : IVec S_ 1 :=
  let main_v34 : FVec F S128x128 .f32 := Host.absf main_arg11
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg12
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg13
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg14
  let main_cst_18 : FVec F S_ .f32 := constant S_ .f32 0x7F800000#32
  let main_v50 : FVec F S128 .f32 := broadcastInDim S128 ![] bcast_S_S128 main_cst_18
  fn_part3 (F := F) main_arg1 main_arg15 main_arg16 main_arg17 main_arg18 main_v48 main_v49 main_v50

def fn_part1 {F : FTy → Type} [FloatOps F] (main_arg1 : IVec S100000 32) (main_arg8 : FVec F S1024x8 .f32) (main_arg9 : FVec F S38x128 .f32) (main_arg10 : FVec F S128 .f32) (main_arg11 : FVec F S128x128 .f32) (main_arg12 : FVec F S128 .f32) (main_arg13 : FVec F S128x128 .f32) (main_arg14 : FVec F S128 .f32) (main_arg15 : FVec F S128x128 .f32) (main_arg16 : FVec F S128 .f32) (main_arg17 : FVec F S128 .f32) (main_arg18 : FVec F S128 .f32) (main_v13 : IVec S_ 1) (main_v16 : IVec S8x16 1) : IVec S_ 1 :=
  let main_c_5 : IVec S_ 1 := constantI S_ 1 1#1
  let main_v17 : IVec S_ 1 := (fun x v => Host.reduce IntOp.andi x v reducesTo_S8x16_S_d0_1 h_S_) main_v16 main_c_5
  let main_v18 : IVec S_ 1 := andi main_v13 main_v17
  let main_v19 : FVec F S1024x8 .f32 := Host.absf main_arg8
  let main_cst_6 : FVec F S_ .f32 := constant S_ .f32 0x7F800000#32
  let main_v20 : FVec F S1024x8 .f32 := broadcastInDim S1024x8 ![] bcast_S_S1024x8 main_cst_6
  let main_v21 : IVec S1024x8 1 := cmpf .olt main_v19 main_v20
  let main_c_7 : IVec S_ 1 := constantI S_ 1 1#1
  let main_v22 : IVec S_ 1 := (fun x v => Host.reduce IntOp.andi x v reducesTo_S1024x8_S_d0_1 h_S_) main_v21 main_c_7
  let main_v23 : IVec S_ 1 := andi main_v18 main_v22
  let main_v24 : FVec F S38x128 .f32 := Host.absf main_arg9
  let main_cst_8 : FVec F S_ .f32 := constant S_ .f32 0x7F800000#32
  let main_v25 : FVec F S38x128 .f32 := broadcastInDim S38x128 ![] bcast_S_S38x128 main_cst_8
  let main_v26 : IVec S38x128 1 := cmpf .olt main_v24 main_v25
  let main_c_9 : IVec S_ 1 := constantI S_ 1 1#1
  let main_v27 : IVec S_ 1 := (fun x v => Host.reduce IntOp.andi x v reducesTo_S38x128_S_d0_1 h_S_) main_v26 main_c_9
  let main_v28 : IVec S_ 1 := andi main_v23 main_v27
  let main_v29 : FVec F S128 .f32 := Host.absf main_arg10
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_arg11 main_arg12 main_arg13 main_arg14 main_arg15 main_arg16 main_arg17 main_arg18 main_v33

def fn {F : FTy → Type} [FloatOps F] (main_arg0 : FVec F S100000x14 .f32) (main_arg1 : IVec S100000 32) (main_arg2 : IVec S1000000 32) (main_arg3 : IVec S1000000 32) (main_arg4 : FVec F S1000000 .f32) (main_arg5 : IVec S1000000 32) (main_arg6 : FVec F S1000000 .f32) (main_arg7 : FVec F S8x16 .f32) (main_arg8 : FVec F S1024x8 .f32) (main_arg9 : FVec F S38x128 .f32) (main_arg10 : FVec F S128 .f32) (main_arg11 : FVec F S128x128 .f32) (main_arg12 : FVec F S128 .f32) (main_arg13 : FVec F S128x128 .f32) (main_arg14 : FVec F S128 .f32) (main_arg15 : FVec F S128x128 .f32) (main_arg16 : FVec F S128 .f32) (main_arg17 : FVec F S128 .f32) (main_arg18 : FVec F S128 .f32) : IVec S_ 1 :=
  let main_v0 : FVec F S100000x14 .f32 := Host.absf main_arg0
  let main_cst : FVec F S_ .f32 := constant S_ .f32 0x7F800000#32
  let main_v1 : FVec F S100000x14 .f32 := broadcastInDim S100000x14 ![] bcast_S_S100000x14 main_cst
  let main_v2 : IVec S100000x14 1 := cmpf .olt main_v0 main_v1
  let main_c : IVec S_ 1 := constantI S_ 1 1#1
  let main_v3 : IVec S_ 1 := (fun x v => Host.reduce IntOp.andi x v reducesTo_S100000x14_S_d0_1 h_S_) main_v2 main_c
  let main_v4 : FVec F S1000000 .f32 := Host.absf main_arg4
  let main_cst_0 : FVec F S_ .f32 := constant S_ .f32 0x7F800000#32
  let main_v5 : FVec F S1000000 .f32 := broadcastInDim S1000000 ![] bcast_S_S1000000 main_cst_0
  let main_v6 : IVec S1000000 1 := cmpf .olt main_v4 main_v5
  let main_c_1 : IVec S_ 1 := constantI S_ 1 1#1
  let main_v7 : IVec S_ 1 := (fun x v => Host.reduce IntOp.andi x v reducesTo_S1000000_S_d0 h_S_) main_v6 main_c_1
  let main_v8 : IVec S_ 1 := andi main_v3 main_v7
  let main_v9 : FVec F S1000000 .f32 := Host.absf main_arg6
  let main_cst_2 : FVec F S_ .f32 := constant S_ .f32 0x7F800000#32
  let main_v10 : FVec F S1000000 .f32 := broadcastInDim S1000000 ![] bcast_S_S1000000 main_cst_2
  let main_v11 : IVec S1000000 1 := cmpf .olt main_v9 main_v10
  let main_c_3 : IVec S_ 1 := constantI S_ 1 1#1
  let main_v12 : IVec S_ 1 := (fun x v => Host.reduce IntOp.andi x v reducesTo_S1000000_S_d0 h_S_) main_v11 main_c_3
  let main_v13 : IVec S_ 1 := andi main_v8 main_v12
  let main_v14 : FVec F S8x16 .f32 := Host.absf main_arg7
  let main_cst_4 : FVec F S_ .f32 := constant S_ .f32 0x7F800000#32
  let main_v15 : FVec F S8x16 .f32 := broadcastInDim S8x16 ![] bcast_S_S8x16 main_cst_4
  let main_v16 : IVec S8x16 1 := cmpf .olt main_v14 main_v15
  fn_part1 (F := F) main_arg1 main_arg8 main_arg9 main_arg10 main_arg11 main_arg12 main_arg13 main_arg14 main_arg15 main_arg16 main_arg17 main_arg18 main_v13 main_v16
-- ==== Kernel.lean ====
abbrev S100000x14 : Shape := ⟨2, ![100000, 14]⟩
abbrev S100000 : Shape := ⟨1, ![100000]⟩
abbrev S1000000 : Shape := ⟨1, ![1000000]⟩
abbrev S8x16 : Shape := ⟨2, ![8, 16]⟩
abbrev S1024x8 : Shape := ⟨2, ![1024, 8]⟩
abbrev S38x128 : Shape := ⟨2, ![38, 128]⟩
abbrev S128 : Shape := ⟨1, ![128]⟩
abbrev S128x128 : Shape := ⟨2, ![128, 128]⟩
abbrev S100000x1 : Shape := ⟨2, ![100000, 1]⟩
abbrev S1x1024x1x8 : Shape := ⟨4, ![1, 1024, 1, 8]⟩
abbrev S98x1024x1x8 : Shape := ⟨4, ![98, 1024, 1, 8]⟩
abbrev S100352x8 : Shape := ⟨2, ![100352, 8]⟩
abbrev S100000x8 : Shape := ⟨2, ![100000, 8]⟩
abbrev S14x128 : Shape := ⟨2, ![14, 128]⟩
abbrev S16x128 : Shape := ⟨2, ![16, 128]⟩
abbrev S8x128 : Shape := ⟨2, ![8, 128]⟩
abbrev S1x128 : Shape := ⟨2, ![1, 128]⟩
abbrev S100000x128 : Shape := ⟨2, ![100000, 128]⟩
abbrev S5000x14 : Shape := ⟨2, ![5000, 14]⟩
abbrev S5000x1 : Shape := ⟨2, ![5000, 1]⟩
abbrev S5000x8 : Shape := ⟨2, ![5000, 8]⟩
abbrev S5000x128 : Shape := ⟨2, ![5000, 128]⟩
abbrev S_ : Shape := ⟨0, ![]⟩
abbrev S1000000x1 : Shape := ⟨2, ![1000000, 1]⟩
abbrev S1000000x128 : Shape := ⟨2, ![1000000, 128]⟩
abbrev S5000 : Shape := ⟨1, ![5000]⟩

abbrev nBuf : Space → Nat
  | .hbm => 97
  | .vmem => 28
  | .smem => 0
  | _ => 0

abbrev bufTy : (tb : Table) → Fin (tcTables nBuf tb) → BufTy
  | .hbm, ⟨0, _⟩ => ⟨S100000x14, .f32⟩
  | .hbm, ⟨1, _⟩ => ⟨S100000, .i32⟩
  | .hbm, ⟨2, _⟩ => ⟨S1000000, .i32⟩
  | .hbm, ⟨3, _⟩ => ⟨S1000000, .i32⟩
  | .hbm, ⟨4, _⟩ => ⟨S1000000, .f32⟩
  | .hbm, ⟨5, _⟩ => ⟨S1000000, .i32⟩
  | .hbm, ⟨6, _⟩ => ⟨S1000000, .f32⟩
  | .hbm, ⟨7, _⟩ => ⟨S8x16, .f32⟩
  | .hbm, ⟨8, _⟩ => ⟨S1024x8, .f32⟩
  | .hbm, ⟨9, _⟩ => ⟨S38x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S128x128, .f32⟩
  | .hbm, ⟨16, _⟩ => ⟨S128, .f32⟩
  | .hbm, ⟨17, _⟩ => ⟨S128, .f32⟩
  | .hbm, ⟨18, _⟩ => ⟨S128, .f32⟩
  | .hbm, ⟨19, _⟩ => ⟨S100000x1, .i32⟩
  | .hbm, ⟨20, _⟩ => ⟨S1x1024x1x8, .f32⟩
  | .hbm, ⟨21, _⟩ => ⟨S98x1024x1x8, .f32⟩
  | .hbm, ⟨22, _⟩ => ⟨S100352x8, .f32⟩
  | .hbm, ⟨23, _⟩ => ⟨S100000x8, .f32⟩
  | .hbm, ⟨24, _⟩ => ⟨S14x128, .f32⟩
  | .hbm, ⟨25, _⟩ => ⟨S16x128, .f32⟩
  | .hbm, ⟨26, _⟩ => ⟨S8x128, .f32⟩
  | .hbm, ⟨27, _⟩ => ⟨S8x128, .f32⟩
  | .hbm, ⟨28, _⟩ => ⟨S1x128, .f32⟩
  | .hbm, ⟨29, _⟩ => ⟨S1x128, .f32⟩
  | .hbm, ⟨30, _⟩ => ⟨S1x128, .f32⟩
  | .hbm, ⟨31, _⟩ => ⟨S1x128, .f32⟩
  | .hbm, ⟨32, _⟩ => ⟨S1x128, .f32⟩
  | .hbm, ⟨33, _⟩ => ⟨S1x128, .f32⟩
  | .hbm, ⟨34, _⟩ => ⟨S100000x128, .f32⟩
  | .hbm, ⟨35, _⟩ => ⟨S_, .f32⟩
  | .hbm, ⟨36, _⟩ => ⟨S100000x128, .f32⟩
  | .hbm, ⟨37, _⟩ => ⟨S_, .i32⟩
  | .hbm, ⟨38, _⟩ => ⟨S1000000, .i32⟩
  | .hbm, ⟨39, _⟩ => ⟨S1000000, .i1⟩
  | .hbm, ⟨40, _⟩ => ⟨S_, .i32⟩
  | .hbm, ⟨41, _⟩ => ⟨S1000000, .i32⟩
  | .hbm, ⟨42, _⟩ => ⟨S1000000, .i32⟩
  | .hbm, ⟨43, _⟩ => ⟨S1000000, .i32⟩
  | .hbm, ⟨44, _⟩ => ⟨S1000000x1, .i32⟩
  | .hbm, ⟨45, _⟩ => ⟨S1000000x128, .f32⟩
  | .hbm, ⟨46, _⟩ => ⟨S1000000x1, .f32⟩
  | .hbm, ⟨47, _⟩ => ⟨S1000000x128, .f32⟩
  | .hbm, ⟨48, _⟩ => ⟨S1000000x128, .f32⟩
  | .hbm, ⟨49, _⟩ => ⟨S_, .i32⟩
  | .hbm, ⟨50, _⟩ => ⟨S1000000, .i32⟩
  | .hbm, ⟨51, _⟩ => ⟨S1000000, .i1⟩
  | .hbm, ⟨52, _⟩ => ⟨S_, .i32⟩
  | .hbm, ⟨53, _⟩ => ⟨S1000000, .i32⟩
  | .hbm, ⟨54, _⟩ => ⟨S1000000, .i32⟩
  | .hbm, ⟨55, _⟩ => ⟨S1000000, .i32⟩
  | .hbm, ⟨56, _⟩ => ⟨S1000000x1, .i32⟩
  | .hbm, ⟨57, _⟩ => ⟨S100000x128, .f32⟩
  | .hbm, ⟨58, _⟩ => ⟨S_, .i32⟩
  | .hbm, ⟨59, _⟩ => ⟨S1000000, .i32⟩
  | .hbm, ⟨60, _⟩ => ⟨S1000000, .i1⟩
  | .hbm, ⟨61, _⟩ => ⟨S_, .i32⟩
  | .hbm, ⟨62, _⟩ => ⟨S1000000, .i32⟩
  | .hbm, ⟨63, _⟩ => ⟨S1000000, .i32⟩
  | .hbm, ⟨64, _⟩ => ⟨S1000000, .i32⟩
  | .hbm, ⟨65, _⟩ => ⟨S1000000x1, .i32⟩
  | .hbm, ⟨66, _⟩ => ⟨S1000000x128, .f32⟩
  | .hbm, ⟨67, _⟩ => ⟨S1000000x1, .f32⟩
  | .hbm, ⟨68, _⟩ => ⟨S1000000x128, .f32⟩
  | .hbm, ⟨69, _⟩ => ⟨S1000000x128, .f32⟩
  | .hbm, ⟨70, _⟩ => ⟨S_, .i32⟩
  | .hbm, ⟨71, _⟩ => ⟨S1000000, .i32⟩
  | .hbm, ⟨72, _⟩ => ⟨S1000000, .i1⟩
  | .hbm, ⟨73, _⟩ => ⟨S_, .i32⟩
  | .hbm, ⟨74, _⟩ => ⟨S1000000, .i32⟩
  | .hbm, ⟨75, _⟩ => ⟨S1000000, .i32⟩
  | .hbm, ⟨76, _⟩ => ⟨S1000000, .i32⟩
  | .hbm, ⟨77, _⟩ => ⟨S1000000x1, .i32⟩
  | .hbm, ⟨78, _⟩ => ⟨S100000x128, .f32⟩
  | .hbm, ⟨79, _⟩ => ⟨S_, .f32⟩
  | .hbm, ⟨80, _⟩ => ⟨S100000, .f32⟩
  | .hbm, ⟨81, _⟩ => ⟨S_, .i32⟩
  | .hbm, ⟨82, _⟩ => ⟨S1000000, .i32⟩
  | .hbm, ⟨83, _⟩ => ⟨S1000000, .i1⟩
  | .hbm, ⟨84, _⟩ => ⟨S_, .i32⟩
  | .hbm, ⟨85, _⟩ => ⟨S1000000, .i32⟩
  | .hbm, ⟨86, _⟩ => ⟨S1000000, .i32⟩
  | .hbm, ⟨87, _⟩ => ⟨S1000000, .i32⟩
  | .hbm, ⟨88, _⟩ => ⟨S1000000x1, .i32⟩
  | .hbm, ⟨89, _⟩ => ⟨S100000, .f32⟩
  | .hbm, ⟨90, _⟩ => ⟨S100000x1, .f32⟩
  | .hbm, ⟨91, _⟩ => ⟨S100000x128, .f32⟩
  | .hbm, ⟨92, _⟩ => ⟨S_, .f32⟩
  | .hbm, ⟨93, _⟩ => ⟨S128, .f32⟩
  | .hbm, ⟨94, _⟩ => ⟨S_, .f32⟩
  | .hbm, ⟨95, _⟩ => ⟨S128, .f32⟩
  | .hbm, ⟨96, _⟩ => ⟨S128, .f32⟩
  | .local _ .vmem, ⟨0, _⟩ => ⟨S5000x14, .f32⟩
  | .local _ .vmem, ⟨1, _⟩ => ⟨S5000x14, .f32⟩
  | .local _ .vmem, ⟨2, _⟩ => ⟨S5000x1, .i32⟩
  | .local _ .vmem, ⟨3, _⟩ => ⟨S5000x1, .i32⟩
  | .local _ .vmem, ⟨4, _⟩ => ⟨S5000x8, .f32⟩
  | .local _ .vmem, ⟨5, _⟩ => ⟨S5000x8, .f32⟩
  | .local _ .vmem, ⟨6, _⟩ => ⟨S8x128, .f32⟩
  | .local _ .vmem, ⟨7, _⟩ => ⟨S14x128, .f32⟩
  | .local _ .vmem, ⟨8, _⟩ => ⟨S8x128, .f32⟩
  | .local _ .vmem, ⟨9, _⟩ => ⟨S1x128, .f32⟩
  | .local _ .vmem, ⟨10, _⟩ => ⟨S128x128, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x1, .f32⟩
  | .local _ .vmem, ⟨19, _⟩ => ⟨S5000x1, .f32⟩
  | .local _ .vmem, ⟨20, _⟩ => ⟨S128x128, .f32⟩
  | .local _ .vmem, ⟨21, _⟩ => ⟨S1x128, .f32⟩
  | .local _ .vmem, ⟨22, _⟩ => ⟨S128x128, .f32⟩
  | .local _ .vmem, ⟨23, _⟩ => ⟨S1x128, .f32⟩
  | .local _ .vmem, ⟨24, _⟩ => ⟨S1x128, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | _, _ => ⟨S100000x14, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_cst : Ref sig .tc := ⟨.hbm, 35, rfl⟩
abbrev main_v16 : Ref sig .tc := ⟨.hbm, 36, rfl⟩
abbrev main_c : Ref sig .tc := ⟨.hbm, 37, rfl⟩
abbrev main_v17 : Ref sig .tc := ⟨.hbm, 38, rfl⟩
abbrev main_v18 : Ref sig .tc := ⟨.hbm, 39, rfl⟩
abbrev main_c_0 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_c_1 : Ref sig .tc := ⟨.hbm, 49, rfl⟩
abbrev main_v27 : Ref sig .tc := ⟨.hbm, 50, rfl⟩
abbrev main_v28 : Ref sig .tc := ⟨.hbm, 51, rfl⟩
abbrev main_c_2 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_c_3 : Ref sig .tc := ⟨.hbm, 58, rfl⟩
abbrev main_v34 : Ref sig .tc := ⟨.hbm, 59, rfl⟩
abbrev main_v35 : Ref sig .tc := ⟨.hbm, 60, rfl⟩
abbrev main_c_4 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_c_5 : Ref sig .tc := ⟨.hbm, 70, rfl⟩
abbrev main_v44 : Ref sig .tc := ⟨.hbm, 71, rfl⟩
abbrev main_v45 : Ref sig .tc := ⟨.hbm, 72, rfl⟩
abbrev main_c_6 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_cst_7 : Ref sig .tc := ⟨.hbm, 79, rfl⟩
abbrev main_v51 : Ref sig .tc := ⟨.hbm, 80, rfl⟩
abbrev main_c_8 : Ref sig .tc := ⟨.hbm, 81, rfl⟩
abbrev main_v52 : Ref sig .tc := ⟨.hbm, 82, rfl⟩
abbrev main_v53 : Ref sig .tc := ⟨.hbm, 83, rfl⟩
abbrev main_c_9 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_cst_10 : Ref sig .tc := ⟨.hbm, 92, rfl⟩
abbrev main_v61 : Ref sig .tc := ⟨.hbm, 93, rfl⟩
abbrev main_cst_11 : Ref sig .tc := ⟨.hbm, 94, rfl⟩
abbrev main_v62 : Ref sig .tc := ⟨.hbm, 95, rfl⟩
abbrev main_v63 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg7_0 : Ref sig .tc := ⟨.vmem, 24, rfl⟩
abbrev cc1_stg8_0 : Ref sig .tc := ⟨.vmem, 25, rfl⟩
abbrev cc1_stg9_0 : Ref sig .tc := ⟨.vmem, 26, rfl⟩
abbrev cc1_stg9_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem4_0 : DmaSem sig := 21
abbrev cc1_sem5_0 : DmaSem sig := 22
abbrev cc1_sem6_0 : DmaSem sig := 23
abbrev cc1_sem7_0 : DmaSem sig := 24
abbrev cc1_sem8_0 : DmaSem sig := 25
abbrev cc1_sem9_0 : DmaSem sig := 26
abbrev cc1_sem9_1 : DmaSem sig := 27

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x14 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S14x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S5000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S5000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  shapeCasts_S100000_S100000x1 : S100000.ShapeCasts S100000x1
  shapeCasts_S1024x8_S1x1024x1x8 : S1024x8.ShapeCasts S1x1024x1x8
  bcast_S1x1024x1x8_S98x1024x1x8_0_1_2_3 : S1x1024x1x8.BroadcastsInDim S98x1024x1x8 (![0, 1, 2, 3] : Fin 4 → Fin S98x1024x1x8.rank)
  shapeCasts_S98x1024x1x8_S100352x8 : S98x1024x1x8.ShapeCasts S100352x8
  slices_S100352x8_S100000x8_0_0 : S100352x8.Slices ![0, 0] S100000x8
  slices_S38x128_S14x128_0_0 : S38x128.Slices ![0, 0] S14x128
  slices_S38x128_S16x128_14_0 : S38x128.Slices ![14, 0] S16x128
  slices_S38x128_S8x128_30_0 : S38x128.Slices ![30, 0] S8x128
  shapeCasts_S128_S1x128 : S128.ShapeCasts S1x128
  inb_S5000x14_S5000x14_0_0 : ∀ a, (![0, 0] : Fin 2 → Nat) a + S5000x14.size a ≤ S5000x14.size a
  h_S5000x14 : 0 < S5000x14.numel
  bitsLt_bf16_f32 : FTy.bits .bf16 < FTy.bits .f32
  inb_S5000x8_S5000x8_0_0 : ∀ a, (![0, 0] : Fin 2 → Nat) a + S5000x8.size a ≤ S5000x8.size a
  h_S5000x8 : 0 < S5000x8.numel
  shapeCasts_S5000x8_S5000x8 : S5000x8.ShapeCasts S5000x8
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  iota_S5000x8_d1_w32 : S5000x8.Iotas .tc 32 [1]
  broadcasts_S5000x1_S5000x8 : S5000x1.Broadcasts S5000x8
  natLt_1_32 : 1 < 32
  inb_S14x128_S14x128_0_0 : ∀ a, (![0, 0] : Fin 2 → Nat) a + S14x128.size a ≤ S14x128.size a
  h_S14x128 : 0 < S14x128.numel
  shapeCasts_S14x128_S14x128 : S14x128.ShapeCasts S14x128
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  inb_S5000x128_S5000x128_0_0 : ∀ a, (![0, 0] : Fin 2 → Nat) a + S5000x128.size a ≤ S5000x128.size a
  h_S5000x128 : 0 < S5000x128.numel
  bcast_S_S100000x128 : S_.BroadcastsInDim S100000x128 (![] : Fin 0 → Fin S100000x128.rank)
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S1000000x1_S1000000x128_0_1 : S1000000x1.BroadcastsInDim S1000000x128 (![0, 1] : Fin 2 → Fin S1000000x128.rank)
  bcast_S_S100000 : S_.BroadcastsInDim S100000 (![] : Fin 0 → Fin S100000.rank)
  shapeCasts_S5000x128_S5000x128 : S5000x128.ShapeCasts S5000x128
  broadcasts_S5000x1_S5000x128 : S5000x1.Broadcasts S5000x128
  reduces_S5000x128_S5000 : S5000x128.Reduces [1] S5000
  shapeCasts_S5000_S5000x1 : S5000.ShapeCasts S5000x1
  reducesTo_S100000x128_S128_d0 : S100000x128.ReducesTo [0] S128
  h_S_ : 0 < S_.numel
  bcast_S_S128 : S_.BroadcastsInDim S128 (![] : Fin 0 → Fin S128.rank)
  dot_S8x16_S16x128_S8x128_1_0_0_1_n_n_wf : DotDims.WF S8x16 S16x128 S8x128 [1] [0] [0] [1] [] []
  dot_S5000x14_S14x128_S5000x128_1_0_0_1_n_n_wf : DotDims.WF S5000x14 S14x128 S5000x128 [1] [0] [0] [1] [] []
  dot_S5000x8_S8x128_S5000x128_1_0_0_1_n_n_wf : DotDims.WF S5000x8 S8x128 S5000x128 [1] [0] [0] [1] [] []
  dot_S5000x128_S128x128_S5000x128_1_0_0_1_n_n_wf : DotDims.WF S5000x128 S128x128 S5000x128 [1] [0] [0] [1] [] []
  gather_S100000x128_S1000000x1_S1000000x128_1_0_n_n_0_1_1128_wf : GatherDims.WF S100000x128 S1000000x1 S1000000x128 [1] [0] [] [0] [] 1 ![1, 128]
  scatter_S100000x128_S1000000x1_S1000000x128_1_0_0_1_wf : ScatterDims.WF S100000x128 S1000000x1 S1000000x128 [1] [0] [0] 1
  scatter_S100000_S1000000x1_S1000000_n_0_0_1_wf : ScatterDims.WF S100000 S1000000x1 S1000000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x14.size a ≤ S100000x14.size a
  hwx0_0 : ∀ i : grid0.Coords, EltTy.bits .f32 = 32 ∨ (Rect.block (s := S100000x14) S5000x14.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .i32 = 32 ∨ (Rect.block (s := S100000x1) S5000x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x8.size a ≤ S100000x8.size a
  hwx0_2 : ∀ i : grid0.Coords, EltTy.bits .f32 = 32 ∨ (Rect.block (s := S100000x8) S5000x8.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x128.size a ≤ S8x128.size a
  hwx0_3 : ∀ i : grid0.Coords, EltTy.bits .f32 = 32 ∨ (Rect.block (s := S8x128) S8x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S14x128.size a ≤ S14x128.size a
  hwx0_4 : ∀ i : grid0.Coords, EltTy.bits .f32 = 32 ∨ (Rect.block (s := S14x128) S14x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S8x128.size a ≤ S8x128.size a
  hwx0_5 : ∀ i : grid0.Coords, EltTy.bits .f32 = 32 ∨ (Rect.block (s := S8x128) S8x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S5000x128.size a ≤ S100000x128.size a
  hwx0_9 : ∀ i : grid0.Coords, EltTy.bits .f32 = 32 ∨ (Rect.block (s := S100000x128) S5000x128.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S5000x128.size a ≤ S100000x128.size a
  hwx1_9 : ∀ i : grid1.Coords, EltTy.bits .f32 = 32 ∨ (Rect.block (s := S100000x128) S5000x128.size (cc1_transform_9 i) (hinb1_9 i)).WholeWords (EltTy.packing .f32)

variable [Facts₀]

def dot_S8x16_S16x128_S8x128_1_0_0_1_n_n : DotDims S8x16 S16x128 S8x128 where
  lhsContracting := [1]
  rhsContracting := [0]
  lhsNonContracting := [0]
  rhsNonContracting := [1]
  lhsBatch := []
  rhsBatch := []
  wf := dot_S8x16_S16x128_S8x128_1_0_0_1_n_n_wf
def dot_S5000x14_S14x128_S5000x128_1_0_0_1_n_n : DotDims S5000x14 S14x128 S5000x128 where
  lhsContracting := [1]
  rhsContracting := [0]
  lhsNonContracting := [0]
  rhsNonContracting := [1]
  lhsBatch := []
  rhsBatch := []
  wf := dot_S5000x14_S14x128_S5000x128_1_0_0_1_n_n_wf
def dot_S5000x8_S8x128_S5000x128_1_0_0_1_n_n : DotDims S5000x8 S8x128 S5000x128 where
  lhsContracting := [1]
  rhsContracting := [0]
  lhsNonContracting := [0]
  rhsNonContracting := [1]
  lhsBatch := []
  rhsBatch := []
  wf := dot_S5000x8_S8x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf

abbrev win0_0 : Pipeline.Window sig grid0 :=
  Pipeline.Window.ofSpec (Memref.whole main_arg0) S5000x14.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S5000x8.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S8x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S14x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S8x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg11) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v10) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v15) S5000x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v15) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v50) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v59) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg13) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v11) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg15) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v12) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v13) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v14) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v60) S5000x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S100000x14 : Shape := ⟨2, ![100000, 14]⟩
abbrev S100000 : Shape := ⟨1, ![100000]⟩
abbrev S1000000 : Shape := ⟨1, ![1000000]⟩
abbrev S8x16 : Shape := ⟨2, ![8, 16]⟩
abbrev S1024x8 : Shape := ⟨2, ![1024, 8]⟩
abbrev S38x128 : Shape := ⟨2, ![38, 128]⟩
abbrev S128 : Shape := ⟨1, ![128]⟩
abbrev S128x128 : Shape := ⟨2, ![128, 128]⟩
abbrev S_ : Shape := ⟨0, ![]⟩
abbrev S100000x1 : Shape := ⟨2, ![100000, 1]⟩
abbrev S100000x16 : Shape := ⟨2, ![100000, 16]⟩
abbrev S100000x8 : Shape := ⟨2, ![100000, 8]⟩
abbrev S100000x38 : Shape := ⟨2, ![100000, 38]⟩
abbrev S100000x128 : Shape := ⟨2, ![100000, 128]⟩
abbrev S1x128 : Shape := ⟨2, ![1, 128]⟩
abbrev S1000000x1 : Shape := ⟨2, ![1000000, 1]⟩
abbrev S1000000x128 : Shape := ⟨2, ![1000000, 128]⟩

abbrev nBuf : Space → Nat
  | .hbm => 180
  | .vmem => 0
  | .smem => 0
  | _ => 0

abbrev hbmTy0_0 (i : Nat) : BufTy := match i % 128 with
  | 0 => ⟨S100000x14, .f32⟩
  | 1 => ⟨S100000, .i32⟩
  | 2 => ⟨S1000000, .i32⟩
  | 3 => ⟨S1000000, .i32⟩
  | 4 => ⟨S1000000, .f32⟩
  | 5 => ⟨S1000000, .i32⟩
  | 6 => ⟨S1000000, .f32⟩
  | 7 => ⟨S8x16, .f32⟩
  | 8 => ⟨S1024x8, .f32⟩
  | 9 => ⟨S38x128, .f32⟩
  | 10 => ⟨S128, .f32⟩
  | 11 => ⟨S128x128, .f32⟩
  | 12 => ⟨S128, .f32⟩
  | 13 => ⟨S128x128, .f32⟩
  | 14 => ⟨S128, .f32⟩
  | 15 => ⟨S128x128, .f32⟩
  | 16 => ⟨S128, .f32⟩
  | 17 => ⟨S128, .f32⟩
  | 18 => ⟨S128, .f32⟩
  | 19 => ⟨S_, .i32⟩
  | 20 => ⟨S100000, .i32⟩
  | 21 => ⟨S100000, .i1⟩
  | 22 => ⟨S_, .i32⟩
  | 23 => ⟨S100000, .i32⟩
  | 24 => ⟨S100000, .i32⟩
  | 25 => ⟨S100000, .i32⟩
  | 26 => ⟨S100000x1, .i32⟩
  | 27 => ⟨S100000x16, .f32⟩
  | 28 => ⟨S100000, .i32⟩
  | 29 => ⟨S_, .i32⟩
  | 30 => ⟨S_, .i32⟩
  | 31 => ⟨S_, .i32⟩
  | 32 => ⟨S_, .i1⟩
  | 33 => ⟨S_, .i32⟩
  | 34 => ⟨S_, .i32⟩
  | 35 => ⟨S100000, .i32⟩
  | 36 => ⟨S100000, .i32⟩
  | 37 => ⟨S_, .i32⟩
  | 38 => ⟨S100000, .i32⟩
  | 39 => ⟨S100000, .i1⟩
  | 40 => ⟨S_, .i32⟩
  | 41 => ⟨S100000, .i32⟩
  | 42 => ⟨S100000, .i1⟩
  | 43 => ⟨S_, .i32⟩
  | 44 => ⟨S_, .i1⟩
  | 45 => ⟨S100000, .i1⟩
  | 46 => ⟨S100000, .i1⟩
  | 47 => ⟨S100000, .i1⟩
  | 48 => ⟨S100000, .i32⟩
  | 49 => ⟨S100000, .i32⟩
  | 50 => ⟨S100000, .i32⟩
  | 51 => ⟨S_, .i32⟩
  | 52 => ⟨S100000, .i32⟩
  | 53 => ⟨S100000, .i1⟩
  | 54 => ⟨S_, .i32⟩
  | 55 => ⟨S100000, .i32⟩
  | 56 => ⟨S100000, .i32⟩
  | 57 => ⟨S100000, .i32⟩
  | 58 => ⟨S100000x1, .i32⟩
  | 59 => ⟨S100000x8, .f32⟩
  | 60 => ⟨S100000x38, .f32⟩
  | 61 => ⟨S100000x128, .f32⟩
  | 62 => ⟨S1x128, .f32⟩
  | 63 => ⟨S100000x128, .f32⟩
  | 64 => ⟨S100000x128, .f32⟩
  | 65 => ⟨S_, .f32⟩
  | 66 => ⟨S100000x128, .f32⟩
  | 67 => ⟨S100000x128, .f32⟩
  | 68 => ⟨S100000x128, .f32⟩
  | 69 => ⟨S1x128, .f32⟩
  | 70 => ⟨S100000x128, .f32⟩
  | 71 => ⟨S100000x128, .f32⟩
  | 72 => ⟨S_, .f32⟩
  | 73 => ⟨S100000x128, .f32⟩
  | 74 => ⟨S100000x128, .f32⟩
  | 75 => ⟨S_, .f32⟩
  | 76 => ⟨S100000x128, .f32⟩
  | 77 => ⟨S_, .i32⟩
  | 78 => ⟨S1000000, .i32⟩
  | 79 => ⟨S1000000, .i1⟩
  | 80 => ⟨S_, .i32⟩
  | 81 => ⟨S1000000, .i32⟩
  | 82 => ⟨S1000000, .i32⟩
  | 83 => ⟨S1000000, .i32⟩
  | 84 => ⟨S1000000x1, .i32⟩
  | 85 => ⟨S1000000x128, .f32⟩
  | 86 => ⟨S1000000x1, .f32⟩
  | 87 => ⟨S1000000x128, .f32⟩
  | 88 => ⟨S1000000x128, .f32⟩
  | 89 => ⟨S_, .i32⟩
  | 90 => ⟨S1000000, .i32⟩
  | 91 => ⟨S1000000, .i1⟩
  | 92 => ⟨S_, .i32⟩
  | 93 => ⟨S1000000, .i32⟩
  | 94 => ⟨S1000000, .i32⟩
  | 95 => ⟨S1000000, .i32⟩
  | 96 => ⟨S1000000x1, .i32⟩
  | 97 => ⟨S100000x128, .f32⟩
  | 98 => ⟨S_, .i32⟩
  | 99 => ⟨S1000000, .i32⟩
  | 100 => ⟨S1000000, .i1⟩
  | 101 => ⟨S_, .i32⟩
  | 102 => ⟨S1000000, .i32⟩
  | 103 => ⟨S1000000, .i32⟩
  | 104 => ⟨S1000000, .i32⟩
  | 105 => ⟨S1000000x1, .i32⟩
  | 106 => ⟨S1000000x128, .f32⟩
  | 107 => ⟨S1000000x1, .f32⟩
  | 108 => ⟨S1000000x128, .f32⟩
  | 109 => ⟨S1000000x128, .f32⟩
  | 110 => ⟨S_, .i32⟩
  | 111 => ⟨S1000000, .i32⟩
  | 112 => ⟨S1000000, .i1⟩
  | 113 => ⟨S_, .i32⟩
  | 114 => ⟨S1000000, .i32⟩
  | 115 => ⟨S1000000, .i32⟩
  | 116 => ⟨S1000000, .i32⟩
  | 117 => ⟨S1000000x1, .i32⟩
  | 118 => ⟨S100000x128, .f32⟩
  | 119 => ⟨S_, .f32⟩
  | 120 => ⟨S100000, .f32⟩
  | 121 => ⟨S_, .i32⟩
  | 122 => ⟨S1000000, .i32⟩
  | 123 => ⟨S1000000, .i1⟩
  | 124 => ⟨S_, .i32⟩
  | 125 => ⟨S1000000, .i32⟩
  | 126 => ⟨S1000000, .i32⟩
  | 127 => ⟨S1000000, .i32⟩
  | _ => ⟨S100000x14, .f32⟩

abbrev hbmTy0_1 (i : Nat) : BufTy := match i % 128 with
  | 0 => ⟨S1000000x1, .i32⟩
  | 1 => ⟨S100000, .f32⟩
  | 2 => ⟨S100000x1, .f32⟩
  | 3 => ⟨S100000x128, .f32⟩
  | 4 => ⟨S100000x128, .f32⟩
  | 5 => ⟨S100000x128, .f32⟩
  | 6 => ⟨S100000x128, .f32⟩
  | 7 => ⟨S1x128, .f32⟩
  | 8 => ⟨S100000x128, .f32⟩
  | 9 => ⟨S100000x128, .f32⟩
  | 10 => ⟨S_, .f32⟩
  | 11 => ⟨S100000x128, .f32⟩
  | 12 => ⟨S100000x128, .f32⟩
  | 13 => ⟨S100000x128, .f32⟩
  | 14 => ⟨S1x128, .f32⟩
  | 15 => ⟨S100000x128, .f32⟩
  | 16 => ⟨S100000x128, .f32⟩
  | 17 => ⟨S100000x128, .f32⟩
  | 18 => ⟨S_, .f32⟩
  | 19 => ⟨S100000, .f32⟩
  | 20 => ⟨S100000x1, .f32⟩
  | 21 => ⟨S_, .f32⟩
  | 22 => ⟨S100000x1, .f32⟩
  | 23 => ⟨S100000x1, .f32⟩
  | 24 => ⟨S100000x128, .f32⟩
  | 25 => ⟨S100000x128, .f32⟩
  | 26 => ⟨S100000x128, .f32⟩
  | 27 => ⟨S_, .f32⟩
  | 28 => ⟨S100000, .f32⟩
  | 29 => ⟨S100000x1, .f32⟩
  | 30 => ⟨S_, .f32⟩
  | 31 => ⟨S100000x1, .f32⟩
  | 32 => ⟨S100000x1, .f32⟩
  | 33 => ⟨S100000x128, .f32⟩
  | 34 => ⟨S100000x128, .f32⟩
  | 35 => ⟨S_, .f32⟩
  | 36 => ⟨S100000x1, .f32⟩
  | 37 => ⟨S100000x1, .f32⟩
  | 38 => ⟨S100000x1, .f32⟩
  | 39 => ⟨S100000x128, .f32⟩
  | 40 => ⟨S100000x128, .f32⟩
  | 41 => ⟨S1x128, .f32⟩
  | 42 => ⟨S100000x128, .f32⟩
  | 43 => ⟨S100000x128, .f32⟩
  | 44 => ⟨S1x128, .f32⟩
  | 45 => ⟨S100000x128, .f32⟩
  | 46 => ⟨S100000x128, .f32⟩
  | 47 => ⟨S_, .f32⟩
  | 48 => ⟨S128, .f32⟩
  | 49 => ⟨S_, .f32⟩
  | 50 => ⟨S128, .f32⟩
  | 51 => ⟨S128, .f32⟩
  | _ => ⟨S100000x14, .f32⟩

abbrev hbmTy (i : Nat) : BufTy := match i / 128 with
  | 0 => hbmTy0_0 i
  | 1 => hbmTy0_1 i
  | _ => ⟨S100000x14, .f32⟩

abbrev bufTy : (tb : Table) → Fin (tcTables nBuf tb) → BufTy
  | .hbm, ⟨i, _⟩ => hbmTy i
  | _, _ => ⟨S100000x14, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_c : Ref sig .tc := ⟨.hbm, 19, rfl⟩
abbrev main_v0 : Ref sig .tc := ⟨.hbm, 20, rfl⟩
abbrev main_v1 : Ref sig .tc := ⟨.hbm, 21, rfl⟩
abbrev main_c_0 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_c_1 : Ref sig .tc := ⟨.hbm, 29, rfl⟩
abbrev main_call0_v0 : Ref sig .tc := ⟨.hbm, 30, rfl⟩
abbrev main_call0_c : Ref sig .tc := ⟨.hbm, 31, rfl⟩
abbrev main_call0_v1 : Ref sig .tc := ⟨.hbm, 32, rfl⟩
abbrev main_call0_c_0 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_call0_c_1 : Ref sig .tc := ⟨.hbm, 37, rfl⟩
abbrev main_call0_v5 : Ref sig .tc := ⟨.hbm, 38, rfl⟩
abbrev main_call0_v6 : Ref sig .tc := ⟨.hbm, 39, rfl⟩
abbrev main_call0_c_2 : Ref sig .tc := ⟨.hbm, 40, rfl⟩
abbrev main_call0_v7 : Ref sig .tc := ⟨.hbm, 41, rfl⟩
abbrev main_call0_v8 : Ref sig .tc := ⟨.hbm, 42, rfl⟩
abbrev main_call0_c_3 : Ref sig .tc := ⟨.hbm, 43, rfl⟩
abbrev main_call0_v9 : Ref sig .tc := ⟨.hbm, 44, rfl⟩
abbrev main_call0_v10 : Ref sig .tc := ⟨.hbm, 45, rfl⟩
abbrev main_call0_v11 : Ref sig .tc := ⟨.hbm, 46, rfl⟩
abbrev main_call0_v12 : Ref sig .tc := ⟨.hbm, 47, rfl⟩
abbrev main_call0_v13 : Ref sig .tc := ⟨.hbm, 48, rfl⟩
abbrev main_call0_v14 : Ref sig .tc := ⟨.hbm, 49, rfl⟩
abbrev main_v8 : Ref sig .tc := ⟨.hbm, 50, rfl⟩
abbrev main_c_2 : Ref sig .tc := ⟨.hbm, 51, rfl⟩
abbrev main_v9 : Ref sig .tc := ⟨.hbm, 52, rfl⟩
abbrev main_v10 : Ref sig .tc := ⟨.hbm, 53, rfl⟩
abbrev main_c_3 : Ref sig .tc := ⟨.hbm, 54, rfl⟩
abbrev main_v11 : Ref sig .tc := ⟨.hbm, 55, rfl⟩
abbrev main_v12 : Ref sig .tc := ⟨.hbm, 56, rfl⟩
abbrev main_v13 : Ref sig .tc := ⟨.hbm, 57, rfl⟩
abbrev main_v14 : Ref sig .tc := ⟨.hbm, 58, rfl⟩
abbrev main_v15 : Ref sig .tc := ⟨.hbm, 59, rfl⟩
abbrev main_v16 : Ref sig .tc := ⟨.hbm, 60, rfl⟩
abbrev main_v17 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_call1_cst : Ref sig .tc := ⟨.hbm, 65, rfl⟩
abbrev main_call1_v0 : Ref sig .tc := ⟨.hbm, 66, rfl⟩
abbrev main_v21 : Ref sig .tc := ⟨.hbm, 67, rfl⟩
abbrev main_v22 : Ref sig .tc := ⟨.hbm, 68, rfl⟩
abbrev main_v23 : Ref sig .tc := ⟨.hbm, 69, rfl⟩
abbrev main_v24 : Ref sig .tc := ⟨.hbm, 70, rfl⟩
abbrev main_v25 : Ref sig .tc := ⟨.hbm, 71, rfl⟩
abbrev main_call2_cst : Ref sig .tc := ⟨.hbm, 72, rfl⟩
abbrev main_call2_v0 : Ref sig .tc := ⟨.hbm, 73, rfl⟩
abbrev main_v26 : Ref sig .tc := ⟨.hbm, 74, rfl⟩
abbrev main_cst : Ref sig .tc := ⟨.hbm, 75, rfl⟩
abbrev main_v27 : Ref sig .tc := ⟨.hbm, 76, rfl⟩
abbrev main_c_4 : Ref sig .tc := ⟨.hbm, 77, rfl⟩
abbrev main_v28 : Ref sig .tc := ⟨.hbm, 78, rfl⟩
abbrev main_v29 : Ref sig .tc := ⟨.hbm, 79, rfl⟩
abbrev main_c_5 : Ref sig .tc := ⟨.hbm, 80, rfl⟩
abbrev main_v30 : Ref sig .tc := ⟨.hbm, 81, rfl⟩
abbrev main_v31 : Ref sig .tc := ⟨.hbm, 82, rfl⟩
abbrev main_v32 : Ref sig .tc := ⟨.hbm, 83, rfl⟩
abbrev main_v33 : Ref sig .tc := ⟨.hbm, 84, rfl⟩
abbrev main_v34 : Ref sig .tc := ⟨.hbm, 85, rfl⟩
abbrev main_v35 : Ref sig .tc := ⟨.hbm, 86, rfl⟩
abbrev main_v36 : Ref sig .tc := ⟨.hbm, 87, rfl⟩
abbrev main_v37 : Ref sig .tc := ⟨.hbm, 88, rfl⟩
abbrev main_c_6 : Ref sig .tc := ⟨.hbm, 89, rfl⟩
abbrev main_v38 : Ref sig .tc := ⟨.hbm, 90, rfl⟩
abbrev main_v39 : Ref sig .tc := ⟨.hbm, 91, rfl⟩
abbrev main_c_7 : Ref sig .tc := ⟨.hbm, 92, rfl⟩
abbrev main_v40 : Ref sig .tc := ⟨.hbm, 93, rfl⟩
abbrev main_v41 : Ref sig .tc := ⟨.hbm, 94, rfl⟩
abbrev main_v42 : Ref sig .tc := ⟨.hbm, 95, rfl⟩
abbrev main_v43 : Ref sig .tc := ⟨.hbm, 96, rfl⟩
abbrev main_v44 : Ref sig .tc := ⟨.hbm, 97, rfl⟩
abbrev main_c_8 : Ref sig .tc := ⟨.hbm, 98, rfl⟩
abbrev main_v45 : Ref sig .tc := ⟨.hbm, 99, rfl⟩
abbrev main_v46 : Ref sig .tc := ⟨.hbm, 100, rfl⟩
abbrev main_c_9 : Ref sig .tc := ⟨.hbm, 101, rfl⟩
abbrev main_v47 : Ref sig .tc := ⟨.hbm, 102, rfl⟩
abbrev main_v48 : Ref sig .tc := ⟨.hbm, 103, rfl⟩
abbrev main_v49 : Ref sig .tc := ⟨.hbm, 104, rfl⟩
abbrev main_v50 : Ref sig .tc := ⟨.hbm, 105, rfl⟩
abbrev main_v51 : Ref sig .tc := ⟨.hbm, 106, rfl⟩
abbrev main_v52 : Ref sig .tc := ⟨.hbm, 107, rfl⟩
abbrev main_v53 : Ref sig .tc := ⟨.hbm, 108, rfl⟩
abbrev main_v54 : Ref sig .tc := ⟨.hbm, 109, rfl⟩
abbrev main_c_10 : Ref sig .tc := ⟨.hbm, 110, rfl⟩
abbrev main_v55 : Ref sig .tc := ⟨.hbm, 111, rfl⟩
abbrev main_v56 : Ref sig .tc := ⟨.hbm, 112, rfl⟩
abbrev main_c_11 : Ref sig .tc := ⟨.hbm, 113, rfl⟩
abbrev main_v57 : Ref sig .tc := ⟨.hbm, 114, rfl⟩
abbrev main_v58 : Ref sig .tc := ⟨.hbm, 115, rfl⟩
abbrev main_v59 : Ref sig .tc := ⟨.hbm, 116, rfl⟩
abbrev main_v60 : Ref sig .tc := ⟨.hbm, 117, rfl⟩
abbrev main_v61 : Ref sig .tc := ⟨.hbm, 118, rfl⟩
abbrev main_cst_12 : Ref sig .tc := ⟨.hbm, 119, rfl⟩
abbrev main_v62 : Ref sig .tc := ⟨.hbm, 120, rfl⟩
abbrev main_c_13 : Ref sig .tc := ⟨.hbm, 121, rfl⟩
abbrev main_v63 : Ref sig .tc := ⟨.hbm, 122, rfl⟩
abbrev main_v64 : Ref sig .tc := ⟨.hbm, 123, rfl⟩
abbrev main_c_14 : Ref sig .tc := ⟨.hbm, 124, rfl⟩
abbrev main_v65 : Ref sig .tc := ⟨.hbm, 125, rfl⟩
abbrev main_v66 : Ref sig .tc := ⟨.hbm, 126, rfl⟩
abbrev main_v67 : Ref sig .tc := ⟨.hbm, 127, rfl⟩
abbrev main_v68 : Ref sig .tc := ⟨.hbm, 128, rfl⟩
abbrev main_v69 : Ref sig .tc := ⟨.hbm, 129, rfl⟩
abbrev main_v70 : Ref sig .tc := ⟨.hbm, 130, rfl⟩
abbrev main_v71 : Ref sig .tc := ⟨.hbm, 131, rfl⟩
abbrev main_v72 : Ref sig .tc := ⟨.hbm, 132, rfl⟩
abbrev main_v73 : Ref sig .tc := ⟨.hbm, 133, rfl⟩
abbrev main_v74 : Ref sig .tc := ⟨.hbm, 134, rfl⟩
abbrev main_v75 : Ref sig .tc := ⟨.hbm, 135, rfl⟩
abbrev main_v76 : Ref sig .tc := ⟨.hbm, 136, rfl⟩
abbrev main_v77 : Ref sig .tc := ⟨.hbm, 137, rfl⟩
abbrev main_call3_cst : Ref sig .tc := ⟨.hbm, 138, rfl⟩
abbrev main_call3_v0 : Ref sig .tc := ⟨.hbm, 139, rfl⟩
abbrev main_v78 : Ref sig .tc := ⟨.hbm, 140, rfl⟩
abbrev main_v79 : Ref sig .tc := ⟨.hbm, 141, rfl⟩
abbrev main_v80 : Ref sig .tc := ⟨.hbm, 142, rfl⟩
abbrev main_v81 : Ref sig .tc := ⟨.hbm, 143, rfl⟩
abbrev main_v82 : Ref sig .tc := ⟨.hbm, 144, rfl⟩
abbrev main_v83 : Ref sig .tc := ⟨.hbm, 145, rfl⟩
abbrev main_cst_15 : Ref sig .tc := ⟨.hbm, 146, rfl⟩
abbrev main_v84 : Ref sig .tc := ⟨.hbm, 147, rfl⟩
abbrev main_v85 : Ref sig .tc := ⟨.hbm, 148, rfl⟩
abbrev main_cst_16 : Ref sig .tc := ⟨.hbm, 149, rfl⟩
abbrev main_v86 : Ref sig .tc := ⟨.hbm, 150, rfl⟩
abbrev main_v87 : Ref sig .tc := ⟨.hbm, 151, rfl⟩
abbrev main_v88 : Ref sig .tc := ⟨.hbm, 152, rfl⟩
abbrev main_v89 : Ref sig .tc := ⟨.hbm, 153, rfl⟩
abbrev main_v90 : Ref sig .tc := ⟨.hbm, 154, rfl⟩
abbrev main_cst_17 : Ref sig .tc := ⟨.hbm, 155, rfl⟩
abbrev main_v91 : Ref sig .tc := ⟨.hbm, 156, rfl⟩
abbrev main_v92 : Ref sig .tc := ⟨.hbm, 157, rfl⟩
abbrev main_cst_18 : Ref sig .tc := ⟨.hbm, 158, rfl⟩
abbrev main_v93 : Ref sig .tc := ⟨.hbm, 159, rfl⟩
abbrev main_v94 : Ref sig .tc := ⟨.hbm, 160, rfl⟩
abbrev main_v95 : Ref sig .tc := ⟨.hbm, 161, rfl⟩
abbrev main_v96 : Ref sig .tc := ⟨.hbm, 162, rfl⟩
abbrev main_cst_19 : Ref sig .tc := ⟨.hbm, 163, rfl⟩
abbrev main_v97 : Ref sig .tc := ⟨.hbm, 164, rfl⟩
abbrev main_v98 : Ref sig .tc := ⟨.hbm, 165, rfl⟩
abbrev main_v99 : Ref sig .tc := ⟨.hbm, 166, rfl⟩
abbrev main_v100 : Ref sig .tc := ⟨.hbm, 167, rfl⟩
abbrev main_v101 : Ref sig .tc := ⟨.hbm, 168, rfl⟩
abbrev main_v102 : Ref sig .tc := ⟨.hbm, 169, rfl⟩
abbrev main_v103 : Ref sig .tc := ⟨.hbm, 170, rfl⟩
abbrev main_v104 : Ref sig .tc := ⟨.hbm, 171, rfl⟩
abbrev main_v105 : Ref sig .tc := ⟨.hbm, 172, rfl⟩
abbrev main_v106 : Ref sig .tc := ⟨.hbm, 173, rfl⟩
abbrev main_v107 : Ref sig .tc := ⟨.hbm, 174, rfl⟩
abbrev main_cst_20 : Ref sig .tc := ⟨.hbm, 175, rfl⟩
abbrev main_v108 : Ref sig .tc := ⟨.hbm, 176, rfl⟩
abbrev main_cst_21 : Ref sig .tc := ⟨.hbm, 177, rfl⟩
abbrev main_v109 : Ref sig .tc := ⟨.hbm, 178, rfl⟩
abbrev main_v110 : Ref sig .tc := ⟨.hbm, 179, rfl⟩

abbrev nD : Nat := 1
abbrev τ : Topo := Topo.v7x

variable {F : FTy → Type} [FloatOps F]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  concatenates_S100000x14_S100000x16_S100000x8_S100000x38_d1 : Shape.Concatenates [S100000x14, S100000x16, S100000x8] S100000x38 1
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S1000000x1_S1000000x128_0_1 : S1000000x1.BroadcastsInDim S1000000x128 (![0, 1] : Fin 2 → Fin S1000000x128.rank)
  bcast_S100000x1_S100000x128_0_1 : S100000x1.BroadcastsInDim S100000x128 (![0, 1] : Fin 2 → Fin S100000x128.rank)
  reducesTo_S100000x128_S100000_d1 : S100000x128.ReducesTo [1] S100000
  h_S_ : 0 < S_.numel
  bcast_S_S100000x1 : S_.BroadcastsInDim S100000x1 (![] : Fin 0 → Fin S100000x1.rank)
  reducesTo_S100000x128_S128_d0 : S100000x128.ReducesTo [0] S128
  bcast_S_S128 : S_.BroadcastsInDim S128 (![] : Fin 0 → Fin S128.rank)
  gather_S8x16_S100000x1_S100000x16_1_0_n_n_0_1_116_wf : GatherDims.WF S8x16 S100000x1 S100000x16 [1] [0] [] [0] [] 1 ![1, 16]
  gather_S1024x8_S100000x1_S100000x8_1_0_n_n_0_1_18_wf : GatherDims.WF S1024x8 S100000x1 S100000x8 [1] [0] [] [0] [] 1 ![1, 8]
  dot_S100000x38_S38x128_S100000x128_1_0_0_1_n_n_wf : DotDims.WF S100000x38 S38x128 S100000x128 [1] [0] [0] [1] [] []
  dot_S100000x128_S128x128_S100000x128_1_0_0_1_n_n_wf : DotDims.WF S100000x128 S128x128 S100000x128 [1] [0] [0] [1] [] []
  gather_S100000x128_S1000000x1_S1000000x128_1_0_n_n_0_1_1128_wf : GatherDims.WF S100000x128 S1000000x1 S1000000x128 [1] [0] [] [0] [] 1 ![1, 128]
  scatter_S100000x128_S1000000x1_S1000000x128_1_0_0_1_wf : ScatterDims.WF S100000x128 S1000000x1 S1000000x128 [1] [0] [0] 1
  scatter_S100000_S1000000x1_S1000000_n_0_0_1_wf : ScatterDims.WF S100000 S1000000x1 S1000000 [] [0] [0] 1

variable [Facts₀]

def gather_S8x16_S100000x1_S100000x16_1_0_n_n_0_1_116 : GatherDims S8x16 S100000x1 S100000x16 where
  offsetDims := [1]
  collapsedSliceDims := [0]
  operandBatchingDims := []
  startIndicesBatchingDims := []
  startIndexMap := [0]
  indexVectorDim := 1
  sliceSizes := ![1, 16]
  wf := gather_S8x16_S100000x1_S100000x16_1_0_n_n_0_1_116_wf
def gather_S1024x8_S100000x1_S100000x8_1_0_n_n_0_1_18 : GatherDims S1024x8 S100000x1 S100000x8 where
  offsetDims := [1]
  collapsedSliceDims := [0]
  operandBatchingDims := []
  startIndicesBatchingDims := []
  startIndexMap := [0]
  indexVectorDim := 1
  sliceSizes := ![1, 8]
  wf := gather_S1024x8_S100000x1_S100000x8_1_0_n_n_0_1_18_wf
def dot_S100000x38_S38x128_S100000x128_1_0_0_1_n_n : DotDims S100000x38 S38x128 S100000x128 where
  lhsContracting := [1]
  rhsContracting := [0]
  lhsNonContracting := [0]
  rhsNonContracting := [1]
  lhsBatch := []
  rhsBatch := []
  wf := dot_S100000x38_S38x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf

class Facts : Prop extends Facts₀ where

variable [Facts]
-- ==== Proof.KHost.lean ====
/- The boundary contents of the idealized kernel program's run, read at the buffers that matter: what the fold through
   @main's segments (`Gen.W0` … `Gen.W5`) holds at the two result buffers, and at the arrays each region reads when it
   is entered, as @main's host operations applied to the launch contents. -/
import proofs.«414917_j51823075393574_1_alg».proof.Proof.Gen.KernelIdeal.Frame
import Idealize.ShloMosaic.Lib.StableHlo.Run

set_option maxRecDepth 16384

noncomputable section

namespace Cert.KernelIdeal.KHost

open Cert.KernelIdeal.Gen
open Idealize.ShloMosaic Idealize.ShloMosaic.TcCoe Idealize.ShloMosaic.Tactic
open Idealize.SL Idealize.SL.Sem
open Idealize.ShloMosaic.Pipeline (Dat Cfg Window cellOf)

variable {F : FTy → Type} [FloatOps F]

/-! ## The results after the last stretch of host operations -/

/-- The mean over the rows: @main's last three host operations (%61 … %63) on region 1's output — the rows summed
    from zero, divided by the row count 100000 broadcast along the columns. -/
def meanK (x : FVec F S100000x128 .f32) : FVec F S128 .f32 :=
  Host.divf (Host.reduceAdd x (constant S_ .f32 0x00000000#32) reducesTo_S100000x128_S128_d0 h_S_)
    (broadcastInDim S128 ![] bcast_S_S128 (constant S_ .f32 0x47C35000#32))

variable (m : (ℓ : Loc nD τ sig) → Buf (Elt F) ℓ) (ρ : Dev nD → PrngReg)

/-- The first result is region 1's output array as its pipeline leaves it: no later host operation writes it. -/
theorem W5_out (c : Dev nD) :
    Gen.W5 m ρ c (Proc.devRef .tc main_v60) = (Gen.dat1 (Gen.V3 m ρ) c).arrAt 9 cfg1.N := by
  show StableHlo.after hostOps2 _ (Proc.devRef .tc main_v60) = _
  after_results
  exact Gen.W4_arr m ρ c 9

/-- The second result is the mean over the rows of region 1's output array. -/
theorem W5_mean (c : Dev nD) :
    Gen.W5 m ρ c (Proc.devRef .tc main_v63) = meanK ((Gen.dat1 (Gen.V3 m ρ) c).arrAt 9 cfg1.N) := by
  show StableHlo.after hostOps2 _ (Proc.devRef .tc main_v63) = _
  after_results
  have e : Gen.W4 m ρ c (Proc.devRef .tc main_v60) = (Gen.dat1 (Gen.V3 m ρ) c).arrAt 9 cfg1.N := Gen.W4_arr m ρ c 9
  rw [e]
  rfl

/-! ## Region 1's inputs at its entry contents

The second stretch of host operations (%16 … %59) builds two of region 1's inputs from region 0's output and the
edge lists; the other seven are as the first stretch or the launch left them. -/

/-- The neighbourhood aggregate, @main's operations %16 … %50 composed as printed: from zeros, the rows of `emb`
    gathered at `dst` and scaled by `w` are added into the rows `src`, then the rows gathered at `src` and scaled by `w`
    into the rows `dst`; every index vector has its negative entries wrapped by the row count 100000. -/
def aggK (emb : FVec F S100000x128 .f32) (src dst : IVec S1000000 32) (w : FVec F S1000000 .f32) : FVec F S100000x128 .f32 :=
  Host.scatterAdd scatter_S100000x128_S1000000x1_S1000000x128_1_0_0_1
    (Host.scatterAdd scatter_S100000x128_S1000000x1_S1000000x128_1_0_0_1
      (broadcastInDim S100000x128 ![] bcast_S_S100000x128 (constant S_ .f32 0x00000000#32))
      (broadcastInDim S1000000x1 ![0] bcast_S1000000_S1000000x1_0
        (select (cmpi .slt src (broadcastInDim S1000000 ![] bcast_S_S1000000 (constantI S_ 32 0#32)))
          (addi src (broadcastInDim S1000000 ![] bcast_S_S1000000 (constantI S_ 32 100000#32))) src))
      (mulf
      (Host.gather gather_S100000x128_S1000000x1_S1000000x128_1_0_n_n_0_1_1128 emb
        (broadcastInDim S1000000x1 ![0] bcast_S1000000_S1000000x1_0
        (select (cmpi .slt dst (broadcastInDim S1000000 ![] bcast_S_S1000000 (constantI S_ 32 0#32)))
          (addi dst (broadcastInDim S1000000 ![] bcast_S_S1000000 (constantI S_ 32 100000#32))) dst)))
      (broadcastInDim S1000000x128 ![0, 1] bcast_S1000000x1_S1000000x128_0_1
        (broadcastInDim S1000000x1 ![0] bcast_S1000000_S1000000x1_0 w))))
    (broadcastInDim S1000000x1 ![0] bcast_S1000000_S1000000x1_0
        (select (cmpi .slt dst (broadcastInDim S1000000 ![] bcast_S_S1000000 (constantI S_ 32 0#32)))
          (addi dst (broadcastInDim S1000000 ![] bcast_S_S1000000 (constantI S_ 32 100000#32))) dst))
    (mulf
      (Host.gather gather_S100000x128_S1000000x1_S1000000x128_1_0_n_n_0_1_1128 emb
        (broadcastInDim S1000000x1 ![0] bcast_S1000000_S1000000x1_0
        (select (cmpi .slt src (broadcastInDim S1000000 ![] bcast_S_S1000000 (constantI S_ 32 0#32)))
          (addi src (broadcastInDim S1000000 ![] bcast_S_S1000000 (constantI S_ 32 100000#32))) src)))
      (broadcastInDim S1000000x128 ![0, 1] bcast_S1000000x1_S1000000x128_0_1
        (broadcastInDim S1000000x1 ![0] bcast_S1000000_S1000000x1_0 w)))

/-- The per-row weight total, @main's operations %51 … %58 composed as printed: from zeros, `w` added into the
    entries `blk` (negative entries wrapped by 100000). -/
def pwK (blk : IVec S1000000 32) (w : FVec F S1000000 .f32) : FVec F S100000 .f32 :=
  Host.scatterAdd scatter_S100000_S1000000x1_S1000000_n_0_0_1
    (broadcastInDim S100000 ![] bcast_S_S100000 (constant S_ .f32 0x00000000#32))
    (broadcastInDim S1000000x1 ![0] bcast_S1000000_S1000000x1_0
        (select (cmpi .slt blk (broadcastInDim S1000000 ![] bcast_S_S1000000 (constantI S_ 32 0#32)))
          (addi blk (broadcastInDim S1000000 ![] bcast_S_S1000000 (constantI S_ 32 100000#32))) blk))
    w

/-! ### The launch contents at region 0's exit: an argument that is no array of region 0 and that the first
    stretch of host operations does not write -/

theorem W2_main_arg2 (c : Dev nD) : Gen.W2 m ρ c (Proc.devRef .tc main_arg2) = m ((c : Thread nD τ).loc main_arg2) :=
  (Gen.W2_of_ne m ρ c main_arg2 (by decide)).trans (by
    show StableHlo.after hostOps0 _ (Proc.devRef .tc main_arg2) = _
    after_results)

theorem W2_main_arg3 (c : Dev nD) : Gen.W2 m ρ c (Proc.devRef .tc main_arg3) = m ((c : Thread nD τ).loc main_arg3) :=
  (Gen.W2_of_ne m ρ c main_arg3 (by decide)).trans (by
    show StableHlo.after hostOps0 _ (Proc.devRef .tc main_arg3) = _
    after_results)

theorem W2_main_arg4 (c : Dev nD) : Gen.W2 m ρ c (Proc.devRef .tc main_arg4) = m ((c : Thread nD τ).loc main_arg4) :=
  (Gen.W2_of_ne m ρ c main_arg4 (by decide)).trans (by
    show StableHlo.after hostOps0 _ (Proc.devRef .tc main_arg4) = _
    after_results)

theorem W2_main_arg5 (c : Dev nD) : Gen.W2 m ρ c (Proc.devRef .tc main_arg5) = m ((c : Thread nD τ).loc main_arg5) :=
  (Gen.W2_of_ne m ρ c main_arg5 (by decide)).trans (by
    show StableHlo.after hostOps0 _ (Proc.devRef .tc main_arg5) = _
    after_results)

theorem W2_main_arg6 (c : Dev nD) : Gen.W2 m ρ c (Proc.devRef .tc main_arg6) = m ((c : Thread nD τ).loc main_arg6) :=
  (Gen.W2_of_ne m ρ c main_arg6 (by decide)).trans (by
    show StableHlo.after hostOps0 _ (Proc.devRef .tc main_arg6) = _
    after_results)

theorem W2_main_arg13 (c : Dev nD) : Gen.W2 m ρ c (Proc.devRef .tc main_arg13) = m ((c : Thread nD τ).loc main_arg13) :=
  (Gen.W2_of_ne m ρ c main_arg13 (by decide)).trans (by
    show StableHlo.after hostOps0 _ (Proc.devRef .tc main_arg13) = _
    after_results)

theorem W2_main_arg15 (c : Dev nD) : Gen.W2 m ρ c (Proc.devRef .tc main_arg15) = m ((c : Thread nD τ).loc main_arg15) :=
  (Gen.W2_of_ne m ρ c main_arg15 (by decide)).trans (by
    show StableHlo.after hostOps0 _ (Proc.devRef .tc main_arg15) = _
    after_results)

/-! ### Region 1's entry contents -/

/-- Region 1's first input is region 0's output array as its pipeline leaves it. -/
theorem V3_emb (c : Dev nD) : Gen.V3 m ρ c main_v15 = (Gen.dat0 (Gen.V1 m ρ) c).arrAt 9 cfg0.N := by
  show StableHlo.after hostOps1 _ (Proc.devRef .tc main_v15) = _
  after_results_simp
  exact Gen.W2_arr m ρ c 9

/-- Region 1's second input is the neighbourhood aggregate of region 0's output over the launched edge lists. -/
theorem V3_agg (c : Dev nD) :
    Gen.V3 m ρ c main_v50 = aggK ((Gen.dat0 (Gen.V1 m ρ) c).arrAt 9 cfg0.N) (m ((c : Thread nD τ).loc main_arg2))
      (m ((c : Thread nD τ).loc main_arg3)) (m ((c : Thread nD τ).loc main_arg4)) := by
  show StableHlo.after hostOps1 _ (Proc.devRef .tc main_v50) = _
  after_results_simp
  have e15 : Gen.W2 m ρ c (Proc.devRef .tc main_v15) = (Gen.dat0 (Gen.V1 m ρ) c).arrAt 9 cfg0.N := Gen.W2_arr m ρ c 9
  rw [e15, W2_main_arg2 m ρ c, W2_main_arg3 m ρ c, W2_main_arg4 m ρ c]
  rfl

/-- Region 1's third input is the per-row weight total of the launched block list, as a column. -/
theorem V3_pw (c : Dev nD) :
    Gen.V3 m ρ c main_v59 = fun i => shapeCast S100000x1
      (pwK (m ((c : Thread nD τ).loc main_arg5)) (m ((c : Thread nD τ).loc main_arg6))) shapeCasts_S100000_S100000x1 i := by
  show StableHlo.after hostOps1 _ (Proc.devRef .tc main_v59) = _
  after_results_simp
  rw [W2_main_arg5 m ρ c, W2_main_arg6 m ρ c]
  rfl

theorem V3_arg13 (c : Dev nD) : Gen.V3 m ρ c main_arg13 = m ((c : Thread nD τ).loc main_arg13) := by
  show StableHlo.after hostOps1 _ (Proc.devRef .tc main_arg13) = _
  after_results_simp
  exact W2_main_arg13 m ρ c

theorem V3_arg15 (c : Dev nD) : Gen.V3 m ρ c main_arg15 = m ((c : Thread nD τ).loc main_arg15) := by
  show StableHlo.after hostOps1 _ (Proc.devRef .tc main_arg15) = _
  after_results_simp
  exact W2_main_arg15 m ρ c

/-! The four row vectors are as the first stretch of host operations left them: region 0 has no such array and the
    second stretch does not write them. -/

theorem V3_v11 (c : Dev nD) : Gen.V3 m ρ c main_v11 = Gen.V1 m ρ c main_v11 := by
  show StableHlo.after hostOps1 _ (Proc.devRef .tc main_v11) = _
  after_results_simp
  exact Gen.W2_of_ne m ρ c main_v11 (by decide)

theorem V3_v12 (c : Dev nD) : Gen.V3 m ρ c main_v12 = Gen.V1 m ρ c main_v12 := by
  show StableHlo.after hostOps1 _ (Proc.devRef .tc main_v12) = _
  after_results_simp
  exact Gen.W2_of_ne m ρ c main_v12 (by decide)

theorem V3_v13 (c : Dev nD) : Gen.V3 m ρ c main_v13 = Gen.V1 m ρ c main_v13 := by
  show StableHlo.after hostOps1 _ (Proc.devRef .tc main_v13) = _
  after_results_simp
  exact Gen.W2_of_ne m ρ c main_v13 (by decide)

theorem V3_v14 (c : Dev nD) : Gen.V3 m ρ c main_v14 = Gen.V1 m ρ c main_v14 := by
  show StableHlo.after hostOps1 _ (Proc.devRef .tc main_v14) = _
  after_results_simp
  exact Gen.W2_of_ne m ρ c main_v14 (by decide)

end Cert.KernelIdeal.KHost

end
-- ==== Proof.Spec.lean ====
/-
  The mathematics of the two programs, one row at a time, over the extended reals.

  Both programs act on a graph of 100000 nodes with 128 hidden features, and every dense stage is
  row-parallel: row `r` of a stage's result depends only on row `r` of its inputs and on the shared weights.

  * ENCODE. A node's 38 input features are its 14 block features, the 16-entry role embedding of its role
    id and an 8-entry index embedding.  One program concatenates them and multiplies by the 38 × 128 first
    weight; the other multiplies the three pieces by the matching row bands of that weight and adds — the role
    piece as a one-hot row times the 8 × 128 table `role_emb · W1[14:30]`.  Then bias, `max · 0`, the second
    128 × 128 layer, bias, `max · 0`.
  * MESSAGE. From the embedding row `e`, the aggregated row `a` and the node's pin weight `p`:
    `x = a + e·p`, a two-layer perceptron with a `max · 0` between, the residual `y = e + m`, and a layer
    norm of `y` over its 128 entries (mean, variance, `rsqrt (var + eps)`, gain, bias).

  The sums are finite sums over `Fin K`; only commutativity and associativity of addition and the
  laws `0 * x = 0`, `1 * x = x` of the extended reals are used to join the two groupings of the encode stage,
  so no input has to be finite for it.
-/
import Idealize.ShloMosaic.PureOps.Ideal
import Mathlib.Algebra.BigOperators.Fin
import Mathlib.Data.Fintype.BigOperators

noncomputable section

namespace Cert.Spec

open Idealize.ShloMosaic

/-- The encode stage in the grouping of the program that splits the first weight into three row bands:
    `bf` the 14 block features, `oh` the one-hot row of the role id, `ie` the 8 index-embedding entries,
    `rt` the role table, `w1f` / `w1i` the feature and index bands, then the second layer. -/
def encK (bf : Fin 14 → EReal) (oh : Fin 8 → EReal) (ie : Fin 8 → EReal) (rt : Fin 8 → Fin 128 → EReal)
    (w1f : Fin 14 → Fin 128 → EReal) (w1i : Fin 8 → Fin 128 → EReal) (b1 : Fin 128 → EReal)
    (w2 : Fin 128 → Fin 128 → EReal) (b2 : Fin 128 → EReal) (j : Fin 128) : EReal :=
  max ((∑ k : Fin 128,
      max ((((∑ q : Fin 14, bf q * w1f q k) + (∑ v : Fin 8, oh v * rt v k)) + (∑ q : Fin 8, ie q * w1i q k)) + b1 k) 0
        * w2 k j) + b2 j) 0

/-- The encode stage in the grouping of the program that multiplies the concatenated 38 features by the whole
    first weight. -/
def encR (x : Fin 38 → EReal) (w1 : Fin 38 → Fin 128 → EReal) (b1 : Fin 128 → EReal)
    (w2 : Fin 128 → Fin 128 → EReal) (b2 : Fin 128 → EReal) (j : Fin 128) : EReal :=
  max ((∑ k : Fin 128, max ((∑ q : Fin 38, x q * w1 q k) + b1 k) 0 * w2 k j) + b2 j) 0

/-- The concatenated feature row: 14 block features, then the 16 role-embedding entries, then the 8
    index-embedding entries. -/
def xrow (bf : Fin 14 → EReal) (re : Fin 16 → EReal) (ie : Fin 8 → EReal) : Fin 38 → EReal := fun q =>
  if h : q.val < 14 then bf ⟨q.val, h⟩
  else if h2 : q.val < 30 then re ⟨q.val - 14, by omega⟩
  else ie ⟨q.val - 30, by omega⟩

/-- The residual row `y = e + (max (x·M1 + mb1) 0 · M2 + mb2)` with `x = a + e·p`. -/
def resid (e a : Fin 128 → EReal) (p : EReal) (m1 : Fin 128 → Fin 128 → EReal) (mb1 : Fin 128 → EReal)
    (m2 : Fin 128 → Fin 128 → EReal) (mb2 : Fin 128 → EReal) (j : Fin 128) : EReal :=
  e j + ((∑ k : Fin 128, max ((∑ q : Fin 128, (a q + e q * p) * m1 q k) + mb1 k) 0 * m2 k j) + mb2 j)

/-- The layer norm of a row `y` at entry `j`: `(y j - μ) · rsqrt (σ² + eps) · g j + b j`, the mean and the
    variance as sums divided by the count `n` (the programs' literal 128, kept as a symbol). -/
def lnorm (y : Fin 128 → EReal) (n eps : EReal) (g b : Fin 128 → EReal) (j : Fin 128) : EReal :=
  ((y j - Ideal.div (∑ k : Fin 128, y k) n)
      * Ideal.rsqrt (Ideal.div (∑ k : Fin 128, (y k - Ideal.div (∑ l : Fin 128, y l) n) * (y k - Ideal.div (∑ l : Fin 128, y l) n)) n + eps))
    * g j + b j

/-- The message stage: the layer norm of the residual row. -/
def msg (e a : Fin 128 → EReal) (p : EReal) (m1 : Fin 128 → Fin 128 → EReal) (mb1 : Fin 128 → EReal)
    (m2 : Fin 128 → Fin 128 → EReal) (mb2 : Fin 128 → EReal) (n eps : EReal) (g b : Fin 128 → EReal) (j : Fin 128) : EReal :=
  lnorm (resid e a p m1 mb1 m2 mb2) n eps g b j

end Cert.Spec

end
-- ==== Proof.Region1Pay.lean ====
/-
  The message kernel's body at an index.  What one grid point stores into its output block is, at row p and
  lane j of the block, the message stage Cert.Spec.msg of row p of its three row-tiled input blocks and of the
  resident weights: the two products read as sums over the 128 contracted lanes, the two lane reductions as sums over
  a row, the keepdims casts and the column and row broadcasts as reads of one entry.
-/
import proofs.«414917_j51823075393574_1_alg».proof.Proof.Gen.KernelIdeal.Skeleton
import proofs.«414917_j51823075393574_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Region1

open Cert.KernelIdeal Cert.KernelIdeal.Gen Idealize.ShloMosaic Idealize.ShloMosaic.ValueIdx

/-! ## The product of a [5000,128] block with a [128,128] weight -/

theorem lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

theorem lhs_lane (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q

theorem rhs_row (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q

theorem rhs_lane (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- The product into the zero splat, at row p and lane j: the sum over the contracted lane k of the left
    operand's row p times the right operand's column j. -/
theorem prod_apply {φ₁ φ₂ : FTy} (l : FVec Ideal S5000x128 φ₁) (r : FVec Ideal S128x128 φ₂) (p : Fin 5000) (j : Fin 128) :
    matmul dot_S5000x128_S128x128_S5000x128_1_0_0_1_n_n none l r (constant (F := Ideal) S5000x128 .f32 0x00000000#32) (ix2 p j)
      = ∑ k : Fin 128, l (ix2 p k) * r (ix2 k j) := by
  simp only [matmul]
  rw [Ideal.matmul_constant_zero_apply,
    ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p j)
      ((ValueIdx.contrEquiv1 dot_S5000x128_S128x128_S5000x128_1_0_0_1_n_n 128 rfl rfl).symm k) = ix2 p k :=
    funext fun a => Fin.ext (by
      match a with
      | ⟨0, _⟩ => exact lhs_row _ _
      | ⟨1, _⟩ => exact (lhs_lane _ _).trans hk)
  have er : dot_S5000x128_S128x128_S5000x128_1_0_0_1_n_n.rhsIdx (ix2 p j)
      ((ValueIdx.contrEquiv1 dot_S5000x128_S128x128_S5000x128_1_0_0_1_n_n 128 rfl rfl).symm k) = ix2 k j :=
    funext fun a => Fin.ext (by
      match a with
      | ⟨0, _⟩ => exact (rhs_row _ _).trans hk
      | ⟨1, _⟩ => exact rhs_lane _ _)
  rw [el, er]

/-! ## The lane sum, the keepdims cast and the two broadcasts -/

/-- The sum over the 128 lanes of a [5000,128] block, at row p. -/
theorem lanesum_apply (src : FVec Ideal S5000x128 .f32) (h : S5000x128.Reduces [1] S5000) (hφ : FKind.Formats .f32)
    (hacc : (0x00000000#32 : BitVec 32) = 0x00000000#32) (p : Fin 5000) :
    multiReduction (F := Ideal) .add [1] S5000 src 0x00000000#32 h hφ hacc (ix1 p) = ∑ k : Fin 128, src (ix2 p k) := by
  refine (Ideal.multiReduction_add_single src 0x00000000#32 h hφ hacc (ix1 p)).trans ?_
  refine Finset.sum_congr rfl fun k _ => congrArg src (funext fun a => Fin.ext ?_)
  match a with
  | ⟨0, _⟩ => rfl
  | ⟨1, _⟩ => rfl

/-- A [5000] vector cast to the column [5000,1] reads, at (p, u), the vector at p. -/
theorem column_apply {α : Type} (x : S5000.Idx → α) (h : S5000.ShapeCasts S5000x1) (p : Fin 5000) (u : Fin 1) :
    shapeCast S5000x1 x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column [5000,1] broadcast over the 128 lanes reads, at (p, j), the column's entry of row p. -/
theorem lanes_apply {α : Type} (v : S5000x1.Idx → α) (h : S5000x1.Broadcasts S5000x128) (p : Fin 5000) (j : Fin 128) :
    broadcastTo S5000x128 v h (ix2 p j) = v (ix2 p (0 : Fin 1)) := by
  refine broadcastTo_apply v h (ix2 p j) (ix2 p (0 : Fin 1)) fun ax => ?_
  match ax with
  | ⟨0, _⟩ => rfl
  | ⟨1, _⟩ => rfl

/-- A row [1,128] broadcast over the 5000 rows reads, at (p, j), the row's entry of lane j. -/
theorem rows_apply {α : Type} (v : S1x128.Idx → α) (h : S1x128.Broadcasts S5000x128) (p : Fin 5000) (j : Fin 128) :
    broadcastTo S5000x128 v h (ix2 p j) = v (ix2 (0 : Fin 1) j) :=
  broadcastTo_1b_ab_apply v h p j

/-! ## The body's five payloads at an index -/

theorem word_apply (φ : FTy) (b : BitVec φ.bits) : Scalar.ofBits (F := Ideal) φ b = Ideal.ofBits φ b := rfl

theorem rsqrt_apply {s : Shape} {φ : FTy} (x : FVec Ideal s φ) (i : s.Idx) : rsqrt x i = Ideal.rsqrt (x i) := rfl

/-- The residual row y = e + (max (x·M1 + mb1) 0 · M2 + mb2), x = a + e·p, at row p and lane j of the block. -/
theorem resid_apply (v0 v2 : FVec Ideal S5000x128 .f32) (v4 : FVec Ideal S5000x1 .f32) (v10 : FVec Ideal S128x128 .f32)
    (v13 : FVec Ideal S1x128 .f32) (v20 : FVec Ideal S128x128 .f32) (v23 : FVec Ideal S1x128 .f32) (p : Fin 5000) (j : Fin 128) :
    k1_pay2 (F := Ideal) v0 v2 v4 v10 v13 v20 v23 (ix2 p j)
      = Cert.Spec.resid (fun q => v0 (ix2 p q)) (fun q => v2 (ix2 p q)) (v4 (ix2 p (0 : Fin 1))) (fun q k => v10 (ix2 q k))
          (fun k => v13 (ix2 (0 : Fin 1) k)) (fun q k => v20 (ix2 q k)) (fun k => v23 (ix2 (0 : Fin 1) k)) j := by
  unfold k1_pay2 Cert.Spec.resid
  simp only [addf_apply, mulf_apply, maximumf_apply, truncf_apply, broadcast_apply, shapeCast_self, prod_apply, lanes_apply,
    rows_apply, word_apply, Ideal.ofBits_zero_f32]

/-- The row's mean, the lane sum of the residual row divided by the 128.0 splat, at row p of the keepdims column. -/
theorem mean_apply (v0 v2 : FVec Ideal S5000x128 .f32) (v4 : FVec Ideal S5000x1 .f32) (v10 : FVec Ideal S128x128 .f32)
    (v13 : FVec Ideal S1x128 .f32) (v20 : FVec Ideal S128x128 .f32) (v23 : FVec Ideal S1x128 .f32) (p : Fin 5000) (u : Fin 1) :
    k1_pay3 (F := Ideal) v0 v2 v4 v10 v13 v20 v23 (ix2 p u)
      = Ideal.div (∑ k : Fin 128, k1_pay2 (F := Ideal) v0 v2 v4 v10 v13 v20 v23 (ix2 p k)) (Ideal.ofBits .f32 0x43000000#32) := by
  unfold k1_pay3
  simp only [divf_apply, broadcast_apply, column_apply, word_apply]
  exact congrArg (fun s => Ideal.div s _) (lanesum_apply _ _ _ _ p)

/-- The sum over the row's lanes of the squared deviations from the mean, at row p of the keepdims column. -/
theorem sumsq_apply (v0 v2 : FVec Ideal S5000x128 .f32) (v4 : FVec Ideal S5000x1 .f32) (v10 : FVec Ideal S128x128 .f32)
    (v13 : FVec Ideal S1x128 .f32) (v20 : FVec Ideal S128x128 .f32) (v23 : FVec Ideal S1x128 .f32) (p : Fin 5000) (u : Fin 1) :
    k1_pay4 (F := Ideal) v0 v2 v4 v10 v13 v20 v23 (ix2 p u)
      = ∑ k : Fin 128, (k1_pay2 (F := Ideal) v0 v2 v4 v10 v13 v20 v23 (ix2 p k) - k1_pay3 (F := Ideal) v0 v2 v4 v10 v13 v20 v23 (ix2 p (0 : Fin 1)))
          * (k1_pay2 (F := Ideal) v0 v2 v4 v10 v13 v20 v23 (ix2 p k) - k1_pay3 (F := Ideal) v0 v2 v4 v10 v13 v20 v23 (ix2 p (0 : Fin 1))) := by
  unfold k1_pay4
  simp only [column_apply]
  refine (lanesum_apply _ _ _ _ p).trans ?_
  simp only [mulf_apply, subf_apply, lanes_apply]

/-- THE BODY'S STORE at row p and lane j of the block: the message stage of row p of the three row-tiled blocks. -/
theorem store_apply (v0 v2 : FVec Ideal S5000x128 .f32) (v4 : FVec Ideal S5000x1 .f32) (v10 : FVec Ideal S128x128 .f32)
    (v13 : FVec Ideal S1x128 .f32) (v20 : FVec Ideal S128x128 .f32) (v23 v46 v50 : FVec Ideal S1x128 .f32) (p : Fin 5000) (j : Fin 128) :
    k1_pay1 (F := Ideal) (k1_pay2 (F := Ideal) v0 v2 v4 v10 v13 v20 v23) (k1_pay3 (F := Ideal) v0 v2 v4 v10 v13 v20 v23)
        (k1_pay4 (F := Ideal) v0 v2 v4 v10 v13 v20 v23) (k1_pay5 (F := Ideal)) v46 v50 (ix2 p j)
      = Cert.Spec.msg (fun q => v0 (ix2 p q)) (fun q => v2 (ix2 p q)) (v4 (ix2 p (0 : Fin 1))) (fun q k => v10 (ix2 q k))
          (fun k => v13 (ix2 (0 : Fin 1) k)) (fun q k => v20 (ix2 q k)) (fun k => v23 (ix2 (0 : Fin 1) k))
          (Ideal.ofBits .f32 0x43000000#32) (Ideal.ofBits .f32 0x3727C5AC#32)
          (fun k => v46 (ix2 (0 : Fin 1) k)) (fun k => v50 (ix2 (0 : Fin 1) k)) j := by
  unfold k1_pay1 k1_pay5 Cert.Spec.msg Cert.Spec.lnorm
  simp only [addf_apply, mulf_apply, subf_apply, divf_apply, rsqrt_apply, broadcast_apply, shapeCast_self, lanes_apply, rows_apply,
    word_apply, sumsq_apply, mean_apply, resid_apply]

/-! ## The block of a grid point as rows of the arrays -/

/-- Row p of grid point T's block is row 5000·T + p of the array. -/
def rowOf (T : Fin 20) (p : Fin 5000) : Fin 100000 := ⟨5000 * T.val + p.val, by omega⟩

/-- Grid point T's block of a row-tiled array: its rows 5000·T … 5000·T + 4999. -/
def rowsBlk {n : Nat} (x : (⟨2, ![100000, n]⟩ : Shape).Idx → EReal) (T : Fin 20) : (⟨2, ![5000, n]⟩ : Shape).Idx → EReal :=
  fun a => x (ix2 (rowOf T ⟨(a 0).val, idx2_lt0 a⟩) (⟨(a 1).val, idx2_lt1 a⟩ : Fin n))

theorem rowsBlk_apply {n : Nat} (x : (⟨2, ![100000, n]⟩ : Shape).Idx → EReal) (T : Fin 20) (p : Fin 5000) (q : Fin n) :
    rowsBlk x T (ix2 p q) = x (ix2 (rowOf T p) q) := rfl

/-- The message stage as ONE function of the nine arrays, index by index: at (r, j), the message stage of row r of the
    embedding, of the aggregate and of the pin weight, under the resident weights, biases, gain and bias. -/
def msgArr (x0 x1 : FVec Ideal S100000x128 .f32) (x2 : FVec Ideal S100000x1 .f32) (x3 : FVec Ideal S128x128 .f32)
    (x4 : FVec Ideal S1x128 .f32) (x5 : FVec Ideal S128x128 .f32) (x6 x7 x8 : FVec Ideal S1x128 .f32) : S100000x128.Idx → EReal :=
  fun i => Cert.Spec.msg (fun q => x0 (ix2 (⟨(i 0).val, idx2_lt0 i⟩ : Fin 100000) q)) (fun q => x1 (ix2 (⟨(i 0).val, idx2_lt0 i⟩ : Fin 100000) q))
    (x2 (ix2 (⟨(i 0).val, idx2_lt0 i⟩ : Fin 100000) (0 : Fin 1))) (fun q k => x3 (ix2 q k))
    (fun k => x4 (ix2 (0 : Fin 1) k)) (fun q k => x5 (ix2 q k)) (fun k => x6 (ix2 (0 : Fin 1) k))
    (Ideal.ofBits .f32 0x43000000#32) (Ideal.ofBits .f32 0x3727C5AC#32)
    (fun k => x7 (ix2 (0 : Fin 1) k)) (fun k => x8 (ix2 (0 : Fin 1) k)) (⟨(i 1).val, idx2_lt1 i⟩ : Fin 128)

theorem msgArr_apply (x0 x1 : FVec Ideal S100000x128 .f32) (x2 : FVec Ideal S100000x1 .f32) (x3 : FVec Ideal S128x128 .f32)
    (x4 : FVec Ideal S1x128 .f32) (x5 : FVec Ideal S128x128 .f32) (x6 x7 x8 : FVec Ideal S1x128 .f32) (r : Fin 100000) (j : Fin 128) :
    msgArr x0 x1 x2 x3 x4 x5 x6 x7 x8 (ix2 r j)
      = Cert.Spec.msg (fun q => x0 (ix2 r q)) (fun q => x1 (ix2 r q)) (x2 (ix2 r (0 : Fin 1))) (fun q k => x3 (ix2 q k))
          (fun k => x4 (ix2 (0 : Fin 1) k)) (fun q k => x5 (ix2 q k)) (fun k => x6 (ix2 (0 : Fin 1) k))
          (Ideal.ofBits .f32 0x43000000#32) (Ideal.ofBits .f32 0x3727C5AC#32)
          (fun k => x7 (ix2 (0 : Fin 1) k)) (fun k => x8 (ix2 (0 : Fin 1) k)) j := rfl

/-- WHAT GRID POINT T STORES, as a block: rows 5000·T … 5000·T + 4999 of the whole-array message stage. -/
theorem store_eq (x0 x1 : FVec Ideal S100000x128 .f32) (x2 : FVec Ideal S100000x1 .f32) (x3 : FVec Ideal S128x128 .f32)
    (x4 : FVec Ideal S1x128 .f32) (x5 : FVec Ideal S128x128 .f32) (x6 x7 x8 : FVec Ideal S1x128 .f32) (T : Fin 20) :
    k1_pay1 (F := Ideal) (k1_pay2 (F := Ideal) (rowsBlk x0 T) (rowsBlk x1 T) (rowsBlk x2 T) x3 x4 x5 x6)
        (k1_pay3 (F := Ideal) (rowsBlk x0 T) (rowsBlk x1 T) (rowsBlk x2 T) x3 x4 x5 x6)
        (k1_pay4 (F := Ideal) (rowsBlk x0 T) (rowsBlk x1 T) (rowsBlk x2 T) x3 x4 x5 x6) (k1_pay5 (F := Ideal)) x7 x8
      = rowsBlk (msgArr x0 x1 x2 x3 x4 x5 x6 x7 x8) T := by
  funext y
  obtain ⟨p, q, rfl⟩ : ∃ (p : Fin 5000) (q : Fin 128), y = ix2 p q := ⟨y 0, y 1, eq_ix2 y⟩
  rw [store_apply]
  simp only [rowsBlk_apply, msgArr_apply]

end Cert.KernelIdeal.Region1

end
-- ==== Proof.Region1.lean ====
/-
  The message kernel's output array after its region, as ONE function of the nine arrays the region finds.  Grid point
  t reads rows 5000·t … 5000·t + 4999 of the three row-tiled arrays and the six resident arrays whole, and writes back
  the same rows of the whole-array message stage; the twenty blocks cover the array, row r in the block of point
  r / 5000.
-/
import proofs.«414917_j51823075393574_1_alg».proof.Proof.Gen.KernelIdeal.Frame
import proofs.«414917_j51823075393574_1_alg».proof.Proof.Region1Pay
import Idealize.ShloMosaic.Lib.Pipeline.Value
import Idealize.ShloMosaic.Lib.Tactic

set_option maxRecDepth 16384

noncomputable section

namespace Cert.KernelIdeal.Region1

open Cert.KernelIdeal Cert.KernelIdeal.Gen Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

theorem zeros : (![0, 0] : Fin 2 → Nat) = fun _ => 0 := funext fun a => by fin_cases a <;> rfl

/-- The printed index maps, decided over the grid: the row-tiled windows (the three inputs and the output) sit at block
    (t, 0), the six resident windows at block (0, 0). -/
theorem index_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = 0 ∧ win1_8.index t (1 : Fin 2) = 0)
    ∧ (win1_9.index t (0 : Fin 2) = t.val ∧ win1_9.index t (1 : Fin 2) = 0) :=
  (by decide +kernel : ∀ t : Fin grid1.N, _)

/-- A grid point as a number below twenty. -/
def pt (t : Fin cfg1.N) : Fin 20 := ⟨t.val, lt_of_lt_of_eq t.isLt N_1⟩

/-! ## The input blocks at a point -/

theorem blk0_eq (c : Dev nD) (t : Fin cfg1.N) : iblk1 V c 0 t = rowsBlk (V c main_v15) (pt t) := by
  obtain ⟨⟨e0, e1⟩, -⟩ := index_facts t
  funext y
  unfold iblk1
  rw [View.read_apply]
  show V c main_v15 (((cfg1.win 0).blk t).view.emb y) = V c main_v15 _
  refine congrArg _ (funext fun a => Fin.ext ?_)
  match a with
  | ⟨0, _⟩ => show win1_0.index t (0 : Fin 2) * 5000 + 1 * (y 0).val = 5000 * t.val + (y 0).val; rw [e0]; omega
  | ⟨1, _⟩ => show win1_0.index t (1 : Fin 2) * 128 + 1 * (y 1).val = (y 1).val; rw [e1]; omega

theorem blk1_eq (c : Dev nD) (t : Fin cfg1.N) : iblk1 V c 1 t = rowsBlk (V c main_v50) (pt t) := by
  obtain ⟨-, ⟨e0, e1⟩, -⟩ := index_facts t
  funext y
  unfold iblk1
  rw [View.read_apply]
  show V c main_v50 (((cfg1.win 1).blk t).view.emb y) = V c main_v50 _
  refine congrArg _ (funext fun a => Fin.ext ?_)
  match a with
  | ⟨0, _⟩ => show win1_1.index t (0 : Fin 2) * 5000 + 1 * (y 0).val = 5000 * t.val + (y 0).val; rw [e0]; omega
  | ⟨1, _⟩ => show win1_1.index t (1 : Fin 2) * 128 + 1 * (y 1).val = (y 1).val; rw [e1]; omega

theorem blk2_eq (c : Dev nD) (t : Fin cfg1.N) : iblk1 V c 2 t = rowsBlk (V c main_v59) (pt t) := by
  obtain ⟨-, -, ⟨e0, e1⟩, -⟩ := index_facts t
  funext y
  unfold iblk1
  rw [View.read_apply]
  show V c main_v59 (((cfg1.win 2).blk t).view.emb y) = V c main_v59 _
  refine congrArg _ (funext fun a => Fin.ext ?_)
  match a with
  | ⟨0, _⟩ => show win1_2.index t (0 : Fin 2) * 5000 + 1 * (y 0).val = 5000 * t.val + (y 0).val; rw [e0]; omega
  | ⟨1, _⟩ => show win1_2.index t (1 : Fin 2) * 1 + 1 * (y 1).val = (y 1).val; rw [e1]; omega

/-- A resident window's block is its whole array at every point. -/
theorem blk3_eq (c : Dev nD) (t : Fin cfg1.N) : iblk1 V c 3 t = V c main_arg13 := by
  obtain ⟨-, -, -, ⟨e0, e1⟩, -⟩ := index_facts t
  funext y
  unfold iblk1
  rw [View.read_apply]
  show V c main_arg13 (((cfg1.win 3).blk t).view.emb y) = V c main_arg13 y
  refine congrArg _ (funext fun a => Fin.ext ?_)
  match a with
  | ⟨0, _⟩ => show win1_3.index t (0 : Fin 2) * 128 + 1 * (y 0).val = (y 0).val; rw [e0]; omega
  | ⟨1, _⟩ => show win1_3.index t (1 : Fin 2) * 128 + 1 * (y 1).val = (y 1).val; rw [e1]; omega

theorem blk4_eq (c : Dev nD) (t : Fin cfg1.N) : iblk1 V c 4 t = V c main_v11 := by
  obtain ⟨-, -, -, -, ⟨e0, e1⟩, -⟩ := index_facts t
  funext y
  unfold iblk1
  rw [View.read_apply]
  show V c main_v11 (((cfg1.win 4).blk t).view.emb y) = V c main_v11 y
  refine congrArg _ (funext fun a => Fin.ext ?_)
  match a with
  | ⟨0, _⟩ => show win1_4.index t (0 : Fin 2) * 1 + 1 * (y 0).val = (y 0).val; rw [e0]; omega
  | ⟨1, _⟩ => show win1_4.index t (1 : Fin 2) * 128 + 1 * (y 1).val = (y 1).val; rw [e1]; omega

theorem blk5_eq (c : Dev nD) (t : Fin cfg1.N) : iblk1 V c 5 t = V c main_arg15 := by
  obtain ⟨-, -, -, -, -, ⟨e0, e1⟩, -⟩ := index_facts t
  funext y
  unfold iblk1
  rw [View.read_apply]
  show V c main_arg15 (((cfg1.win 5).blk t).view.emb y) = V c main_arg15 y
  refine congrArg _ (funext fun a => Fin.ext ?_)
  match a with
  | ⟨0, _⟩ => show win1_5.index t (0 : Fin 2) * 128 + 1 * (y 0).val = (y 0).val; rw [e0]; omega
  | ⟨1, _⟩ => show win1_5.index t (1 : Fin 2) * 128 + 1 * (y 1).val = (y 1).val; rw [e1]; omega

theorem blk6_eq (c : Dev nD) (t : Fin cfg1.N) : iblk1 V c 6 t = V c main_v12 := by
  obtain ⟨-, -, -, -, -, -, ⟨e0, e1⟩, -⟩ := index_facts t
  funext y
  unfold iblk1
  rw [View.read_apply]
  show V c main_v12 (((cfg1.win 6).blk t).view.emb y) = V c main_v12 y
  refine congrArg _ (funext fun a => Fin.ext ?_)
  match a with
  | ⟨0, _⟩ => show win1_6.index t (0 : Fin 2) * 1 + 1 * (y 0).val = (y 0).val; rw [e0]; omega
  | ⟨1, _⟩ => show win1_6.index t (1 : Fin 2) * 128 + 1 * (y 1).val = (y 1).val; rw [e1]; omega

theorem blk7_eq (c : Dev nD) (t : Fin cfg1.N) : iblk1 V c 7 t = V c main_v13 := by
  obtain ⟨-, -, -, -, -, -, -, ⟨e0, e1⟩, -⟩ := index_facts t
  funext y
  unfold iblk1
  rw [View.read_apply]
  show V c main_v13 (((cfg1.win 7).blk t).view.emb y) = V c main_v13 y
  refine congrArg _ (funext fun a => Fin.ext ?_)
  match a with
  | ⟨0, _⟩ => show win1_7.index t (0 : Fin 2) * 1 + 1 * (y 0).val = (y 0).val; rw [e0]; omega
  | ⟨1, _⟩ => show win1_7.index t (1 : Fin 2) * 128 + 1 * (y 1).val = (y 1).val; rw [e1]; omega

theorem blk8_eq (c : Dev nD) (t : Fin cfg1.N) : iblk1 V c 8 t = V c main_v14 := by
  obtain ⟨-, -, -, -, -, -, -, -, ⟨e0, e1⟩, -⟩ := index_facts t
  funext y
  unfold iblk1
  rw [View.read_apply]
  show V c main_v14 (((cfg1.win 8).blk t).view.emb y) = V c main_v14 y
  refine congrArg _ (funext fun a => Fin.ext ?_)
  match a with
  | ⟨0, _⟩ => show win1_8.index t (0 : Fin 2) * 1 + 1 * (y 0).val = (y 0).val; rw [e0]; omega
  | ⟨1, _⟩ => show win1_8.index t (1 : Fin 2) * 128 + 1 * (y 1).val = (y 1).val; rw [e1]; omega

/-! ## What a point writes back, the cover, the array -/

/-- A block's entry is the array's entry 5000·T rows further down. -/
theorem rowsBlk_eq_of {n : Nat} (x : (⟨2, ![100000, n]⟩ : Shape).Idx → EReal) (T : Fin 20) (y : (⟨2, ![5000, n]⟩ : Shape).Idx)
    (i : (⟨2, ![100000, n]⟩ : Shape).Idx) (h0 : (i 0).val = 5000 * T.val + (y 0).val) (h1 : (i 1).val = (y 1).val) :
    rowsBlk x T y = x i :=
  congrArg x (funext fun a => Fin.ext (match a with | ⟨0, _⟩ => h0.symm | ⟨1, _⟩ => h1.symm))

/-- WHAT POINT t WRITES BACK is block t of the whole-array message stage of the arrays as the region finds them. -/
theorem flushed_eq (c : Dev nD) (t : Fin cfg1.N) :
    (dat1 (F := Ideal) V c).flushed 9 t
      = ((cfg1.win 9).blk t).view.read (Elt Ideal)
          (msgArr (V c main_v15) (V c main_v50) (V c main_v59) (V c main_arg13) (V c main_v11) (V c main_arg15)
            (V c main_v12) (V c main_v13) (V c main_v14)) := by
  show (cfg1.win 9).cut (grid1.coords t) ((dat1 V c).after 9 t) = _
  rw [after1_9]
  unfold out1_9
  rw [View.canon_unit_zero zeros]
  simp only [View.ld_unit_zero (S := S5000x128) zeros, View.ld_unit_zero (S := S5000x1) zeros,
    View.ld_unit_zero (S := S128x128) zeros, View.ld_unit_zero (S := S1x128) zeros]
  rw [blk0_eq, blk1_eq, blk2_eq, blk3_eq, blk4_eq, blk5_eq, blk6_eq, blk7_eq, blk8_eq, store_eq]
  obtain ⟨-, -, -, -, -, -, -, -, -, ⟨e0, e1⟩⟩ := index_facts t
  funext y
  show rowsBlk _ (pt t) y = msgArr _ _ _ _ _ _ _ _ _ (((cfg1.win 9).blk t).view.emb y)
  refine rowsBlk_eq_of _ _ y _ ?_ ?_
  · show win1_9.index t (0 : Fin 2) * 5000 + 1 * (y 0).val = 5000 * t.val + (y 0).val
    rw [e0]; omega
  · show win1_9.index t (1 : Fin 2) * 128 + 1 * (y 1).val = (y 1).val
    rw [e1]; omega

/-- An index of the array is in point t's block iff each coordinate is in the block's range on its axis. -/
theorem mem_blk (t : Fin cfg1.N) (i : S100000x128.Idx) :
    i ∈ ((cfg1.win 9).blk t).view.set
      ↔ ∀ a : Fin 2, win1_9.index t a * S5000x128.size a ≤ (i a).val ∧ (i a).val < win1_9.index t a * S5000x128.size a + S5000x128.size a := by
  show i ∈ ((View.whole main_v60).slice (win1_9.rect t)).set ↔ _
  rw [View.set_slice_whole, Rect.mem_set_unit]
  exact Iff.rfl

/-- Row r of the array is in the block of point r / 5000, which writes back. -/
theorem cover (i : S100000x128.Idx) :
    ∃ t : Fin cfg1.N, (cfg1.win 9).flush t = true ∧ i ∈ ((cfg1.win 9).blk t).view.set := by
  have hi0 : (i 0).val < 100000 := (i 0).isLt
  have hi1 : (i 1).val < 128 := (i 1).isLt
  have hN : cfg1.N = 20 := N_1
  have hlt : (i 0).val / 5000 < cfg1.N := by rw [hN]; omega
  obtain ⟨-, -, -, -, -, -, -, -, -, ⟨e0, e1⟩⟩ := index_facts ⟨(i 0).val / 5000, hlt⟩
  refine ⟨⟨(i 0).val / 5000, hlt⟩, flush1_9 _, ?_⟩
  rw [mem_blk]
  intro a
  match a with
  | ⟨0, _⟩ =>
    show win1_9.index ⟨(i 0).val / 5000, hlt⟩ (0 : Fin 2) * 5000 ≤ (i 0).val
      ∧ (i 0).val < win1_9.index ⟨(i 0).val / 5000, hlt⟩ (0 : Fin 2) * 5000 + 5000
    rw [e0]
    show (i 0).val / 5000 * 5000 ≤ (i 0).val ∧ (i 0).val < (i 0).val / 5000 * 5000 + 5000
    omega
  | ⟨1, _⟩ =>
    show win1_9.index ⟨(i 0).val / 5000, hlt⟩ (1 : Fin 2) * 128 ≤ (i 1).val
      ∧ (i 1).val < win1_9.index ⟨(i 0).val / 5000, hlt⟩ (1 : Fin 2) * 128 + 128
    rw [e1]; omega

/-- THE OUTPUT ARRAY after the region: the whole-array message stage of the arrays as the region finds them. -/
theorem final (c : Dev nD) :
    (dat1 (F := Ideal) V c).arrAt 9 cfg1.N
      = msgArr (V c main_v15) (V c main_v50) (V c main_v59) (V c main_arg13) (V c main_v11) (V c main_arg15)
          (V c main_v12) (V c main_v13) (V c main_v14) :=
  (dat1 (F := Ideal) V c).arrAt_eq_of_cover 9 _ (fun t _ => flushed_eq V c t) cover

/-- The output array at row r and lane j: the message stage of row r of the embedding, the aggregate and the pin
    weight under the resident weights. -/
theorem out_at (c : Dev nD)
    (x0 x1 : FVec Ideal S100000x128 .f32) (x2 : FVec Ideal S100000x1 .f32) (x3 : FVec Ideal S128x128 .f32)
    (x4 : FVec Ideal S1x128 .f32) (x5 : FVec Ideal S128x128 .f32) (x6 x7 x8 : FVec Ideal S1x128 .f32)
    (h0 : V c main_v15 = x0) (h1 : V c main_v50 = x1) (h2 : V c main_v59 = x2) (h3 : V c main_arg13 = x3)
    (h4 : V c main_v11 = x4) (h5 : V c main_arg15 = x5) (h6 : V c main_v12 = x6) (h7 : V c main_v13 = x7)
    (h8 : V c main_v14 = x8) (r : Fin 100000) (j : Fin 128) :
    (dat1 (F := Ideal) V c).arrAt 9 cfg1.N (ix2 r j)
      = Cert.Spec.msg (fun q => x0 (ix2 r q)) (fun q => x1 (ix2 r q)) (x2 (ix2 r 0)) (fun q k => x3 (ix2 q k))
          (fun k => x4 (ix2 0 k)) (fun q k => x5 (ix2 q k)) (fun k => x6 (ix2 0 k))
          (Ideal.ofBits .f32 0x43000000#32) (Ideal.ofBits .f32 0x3727C5AC#32)
          (fun k => x7 (ix2 0 k)) (fun k => x8 (ix2 0 k)) j := by
  rw [final V c, h0, h1, h2, h3, h4, h5, h6, h7, h8]
  exact msgArr_apply x0 x1 x2 x3 x4 x5 x6 x7 x8 r j

end Cert.KernelIdeal.Region1

end
-- ==== Proof.KIn0.lean ====
/- What the host operations before the first kernel put into the buffers its windows read, entry by entry: the role
   ids as a column, the index embedding tiled down the rows (row r holds table row r mod 1024), the three row bands of
   the first-layer weights, the role table (role embedding times rows 14 to 29 of the weights), and the bias vectors
   as rows; each read at an index is an entry, or a sum of products of entries, of the arrays as launched. -/
import proofs.«414917_j51823075393574_1_alg».proof.Proof.Gen.KernelIdeal.Frame
import Idealize.ShloMosaic.Lib.ValueIdx
import Idealize.ShloMosaic.Lib.Pipeline.Value
import Idealize.ShloMosaic.Lib.ValueLayout
import Idealize.ShloMosaic.Lib.StableHlo.Run
import Idealize.ShloMosaic.PureOps.Ideal.Laws

set_option maxRecDepth 16384

noncomputable section

namespace Cert.KernelIdeal.KIn0

open Cert.KernelIdeal Cert.KernelIdeal.Gen
open Idealize.ShloMosaic Idealize.ShloMosaic.TcCoe Idealize.ShloMosaic.Tactic Idealize.ShloMosaic.ValueIdx

variable (m : (ℓ : Loc nD τ sig) → Buf (Elt Ideal) ℓ) (ρ : Dev nD → PrngReg) (c : Dev nD)

/-- The role embedding table and the first-layer weights as launched, at their literal types (so that products and
    sums of their entries are the extended reals'). -/
abbrev arg7 : S8x16.Idx → EReal := m ((c.tc : Thread nD τ).loc main_arg7)
abbrev arg9 : S38x128.Idx → EReal := m ((c.tc : Thread nD τ).loc main_arg9)

/-! ## The host terms: each buffer the operations before the first kernel write, as a term over the launch contents -/

theorem in0 : Gen.V1 m ρ c main_arg0 = m ((c.tc : Thread nD τ).loc main_arg0) := by
  show StableHlo.after hostOps0 _ (Proc.devRef .tc main_arg0) = _
  after_results

theorem in7 : Gen.V1 m ρ c main_arg11 = m ((c.tc : Thread nD τ).loc main_arg11) := by
  show StableHlo.after hostOps0 _ (Proc.devRef .tc main_arg11) = _
  after_results

theorem e_v0 : (Gen.V1 m ρ c main_v0 : S100000x1.Idx → BitVec 32)
    = shapeCast S100000x1 (m ((c.tc : Thread nD τ).loc main_arg1) : S100000.Idx → BitVec 32) shapeCasts_S100000_S100000x1 := by
  show StableHlo.after hostOps0 _ (Proc.devRef .tc main_v0) = _
  after_results
  all_goals rfl

theorem e_v4 : (Gen.V1 m ρ c main_v4 : S100000x8.Idx → EReal)
    = extractStridedSlice S100000x8 ![0, 0]
        (shapeCast S100352x8
          (broadcastInDim S98x1024x1x8 ![0, 1, 2, 3] bcast_S1x1024x1x8_S98x1024x1x8_0_1_2_3
            (shapeCast S1x1024x1x8 (m ((c.tc : Thread nD τ).loc main_arg8) : S1024x8.Idx → EReal) shapeCasts_S1024x8_S1x1024x1x8))
          shapeCasts_S98x1024x1x8_S100352x8)
        slices_S100352x8_S100000x8_0_0 := by
  show StableHlo.after hostOps0 _ (Proc.devRef .tc main_v4) = _
  after_results
  all_goals rfl

theorem e_v5 : (Gen.V1 m ρ c main_v5 : S14x128.Idx → EReal)
    = extractStridedSlice S14x128 ![0, 0] (m ((c.tc : Thread nD τ).loc main_arg9) : S38x128.Idx → EReal) slices_S38x128_S14x128_0_0 := by
  show StableHlo.after hostOps0 _ (Proc.devRef .tc main_v5) = _
  after_results
  all_goals rfl

theorem e_v7 : (Gen.V1 m ρ c main_v7 : S8x128.Idx → EReal)
    = extractStridedSlice S8x128 ![30, 0] (m ((c.tc : Thread nD τ).loc main_arg9) : S38x128.Idx → EReal) slices_S38x128_S8x128_30_0 := by
  show StableHlo.after hostOps0 _ (Proc.devRef .tc main_v7) = _
  after_results
  all_goals rfl

theorem e_v8 : (Gen.V1 m ρ c main_v8 : S8x128.Idx → EReal)
    = Host.dotGeneral (F := Ideal) (φ₁ := .f32) (φ₂ := .f32) dot_S8x16_S16x128_S8x128_1_0_0_1_n_n none (arg7 m c)
        (extractStridedSlice S16x128 ![14, 0] (arg9 m c) slices_S38x128_S16x128_14_0) := by
  show StableHlo.after hostOps0 _ (Proc.devRef .tc main_v8) = _
  after_results
  all_goals rfl

theorem e_v9 : (Gen.V1 m ρ c main_v9 : S1x128.Idx → EReal)
    = shapeCast S1x128 (m ((c.tc : Thread nD τ).loc main_arg10) : S128.Idx → EReal) shapeCasts_S128_S1x128 := by
  show StableHlo.after hostOps0 _ (Proc.devRef .tc main_v9) = _
  after_results
  all_goals rfl

theorem e_v10 : (Gen.V1 m ρ c main_v10 : S1x128.Idx → EReal)
    = shapeCast S1x128 (m ((c.tc : Thread nD τ).loc main_arg12) : S128.Idx → EReal) shapeCasts_S128_S1x128 := by
  show StableHlo.after hostOps0 _ (Proc.devRef .tc main_v10) = _
  after_results
  all_goals rfl

theorem e_v11 : (Gen.V1 m ρ c main_v11 : S1x128.Idx → EReal)
    = shapeCast S1x128 (m ((c.tc : Thread nD τ).loc main_arg14) : S128.Idx → EReal) shapeCasts_S128_S1x128 := by
  show StableHlo.after hostOps0 _ (Proc.devRef .tc main_v11) = _
  after_results
  all_goals rfl

theorem e_v12 : (Gen.V1 m ρ c main_v12 : S1x128.Idx → EReal)
    = shapeCast S1x128 (m ((c.tc : Thread nD τ).loc main_arg16) : S128.Idx → EReal) shapeCasts_S128_S1x128 := by
  show StableHlo.after hostOps0 _ (Proc.devRef .tc main_v12) = _
  after_results
  all_goals rfl

theorem e_v13 : (Gen.V1 m ρ c main_v13 : S1x128.Idx → EReal)
    = shapeCast S1x128 (m ((c.tc : Thread nD τ).loc main_arg17) : S128.Idx → EReal) shapeCasts_S128_S1x128 := by
  show StableHlo.after hostOps0 _ (Proc.devRef .tc main_v13) = _
  after_results
  all_goals rfl

theorem e_v14 : (Gen.V1 m ρ c main_v14 : S1x128.Idx → EReal)
    = shapeCast S1x128 (m ((c.tc : Thread nD τ).loc main_arg18) : S128.Idx → EReal) shapeCasts_S128_S1x128 := by
  show StableHlo.after hostOps0 _ (Proc.devRef .tc main_v14) = _
  after_results
  all_goals rfl

/-! ## Read at an index -/

/-- The role ids as a column: entry (r, 0) is id r. -/
theorem in1 (r : Fin 100000) :
    (Gen.V1 m ρ c main_v0 : S100000x1.Idx → BitVec 32) (ix2 r 0) = (m ((c.tc : Thread nD τ).loc main_arg1) : S100000.Idx → BitVec 32) (ix1 r) := by
  rw [e_v0]
  refine shapeCast_apply (s := S100000) (t := S100000x1) _ _ _ _ ?_
  rw [Shape.rowMajor_val_two, Shape.rowMajor_val_one]
  show r.val = r.val * 1 + 0
  omega

/-- The index embedding tiled down the rows: row r holds table row r mod 1024. -/
theorem in2 (r : Fin 100000) (q : Fin 8) :
    (Gen.V1 m ρ c main_v4 : S100000x8.Idx → EReal) (ix2 r q)
      = (m ((c.tc : Thread nD τ).loc main_arg8) : S1024x8.Idx → EReal) (ix2 (⟨r.val % 1024, Nat.mod_lt _ (by decide)⟩ : Fin 1024) q) := by
  rw [e_v4]
  have hr := r.isLt
  -- the slice keeps the first 100000 rows
  refine (slice2_axis0_apply (n0 := 100352) 0 _ _ r q (⟨r.val, by omega⟩ : Fin 100352) (Nat.zero_add _).symm).trans ?_
  -- row r of the [100352, 8] tile is (r / 1024, r % 1024) of the [98, 1024, 1, 8] broadcast
  refine (shapeCast_apply (s := S98x1024x1x8) (t := S100352x8) _ _ _
    (ix4 (⟨r.val / 1024, by omega⟩ : Fin 98) (⟨r.val % 1024, Nat.mod_lt _ (by decide)⟩ : Fin 1024) (0 : Fin 1) q) ?_).trans ?_
  · rw [Shape.rowMajor_val_four, Shape.rowMajor_val_two]
    show ((r.val / 1024 * 1024 + r.val % 1024) * 1 + 0) * 8 + q.val = r.val * 8 + q.val
    omega
  -- the broadcast repeats the one [1024, 1, 8] table
  refine (broadcastInDim_apply (s := S1x1024x1x8) (t := S98x1024x1x8) _ _ _ _
    (ix4 (0 : Fin 1) (⟨r.val % 1024, Nat.mod_lt _ (by decide)⟩ : Fin 1024) (0 : Fin 1) q) fun a => ?_).trans ?_
  · match a with
    | ⟨0, _⟩ => rfl
    | ⟨1, _⟩ => rfl
    | ⟨2, _⟩ => rfl
    | ⟨3, _⟩ => rfl
  refine shapeCast_apply (s := S1024x8) (t := S1x1024x1x8) _ _ _ _ ?_
  rw [Shape.rowMajor_val_four, Shape.rowMajor_val_two]
  show r.val % 1024 * 8 + q.val = ((0 * 1024 + r.val % 1024) * 1 + 0) * 8 + q.val
  omega

/-- The first row band of the first-layer weights: rows 0 to 13. -/
theorem in4 (q : Fin 14) (k : Fin 128) :
    (Gen.V1 m ρ c main_v5 : S14x128.Idx → EReal) (ix2 q k)
      = (m ((c.tc : Thread nD τ).loc main_arg9) : S38x128.Idx → EReal) (ix2 (⟨q.val, by omega⟩ : Fin 38) k) := by
  rw [e_v5]
  exact slice2_axis0_apply (n0 := 38) 0 _ _ q k (⟨q.val, by omega⟩ : Fin 38) (Nat.zero_add _).symm

/-- The third row band: rows 30 to 37. -/
theorem in5 (q : Fin 8) (k : Fin 128) :
    (Gen.V1 m ρ c main_v7 : S8x128.Idx → EReal) (ix2 q k)
      = (m ((c.tc : Thread nD τ).loc main_arg9) : S38x128.Idx → EReal) (ix2 (⟨30 + q.val, by omega⟩ : Fin 38) k) := by
  rw [e_v7]
  exact slice2_axis0_apply (n0 := 38) 30 _ _ q k (⟨30 + q.val, by omega⟩ : Fin 38) rfl

/-! ### The role table: role embedding times the middle row band, rows 14 to 29 -/

theorem lhs_role_0 (j : S8x128.Idx) (k : dot_S8x16_S16x128_S8x128_1_0_0_1_n_n.contr.Idx) :
    (dot_S8x16_S16x128_S8x128_1_0_0_1_n_n.lhsIdx j k 0).val = (j 0).val := by
  simp [DotDims.lhsIdx, dot_S8x16_S16x128_S8x128_1_0_0_1_n_n]
  rfl
theorem lhs_role_1 (j : S8x128.Idx) (k : dot_S8x16_S16x128_S8x128_1_0_0_1_n_n.contr.Idx) :
    (dot_S8x16_S16x128_S8x128_1_0_0_1_n_n.lhsIdx j k 1).val = (k ⟨0, by decide⟩).val :=
  dot_S8x16_S16x128_S8x128_1_0_0_1_n_n.lhsIdx_val_of_single rfl j k
theorem rhs_role_0 (j : S8x128.Idx) (k : dot_S8x16_S16x128_S8x128_1_0_0_1_n_n.contr.Idx) :
    (dot_S8x16_S16x128_S8x128_1_0_0_1_n_n.rhsIdx j k 0).val = (k ⟨0, by decide⟩).val :=
  dot_S8x16_S16x128_S8x128_1_0_0_1_n_n.rhsIdx_val_of_single rfl j k
theorem rhs_role_1 (j : S8x128.Idx) (k : dot_S8x16_S16x128_S8x128_1_0_0_1_n_n.contr.Idx) :
    (dot_S8x16_S16x128_S8x128_1_0_0_1_n_n.rhsIdx j k 1).val = (j 1).val := by
  simp [DotDims.rhsIdx, dot_S8x16_S16x128_S8x128_1_0_0_1_n_n]
  rfl

theorem in3 (v : Fin 8) (k : Fin 128) :
    (Gen.V1 m ρ c main_v8 : S8x128.Idx → EReal) (ix2 v k)
      = ∑ q : Fin 16, arg7 m c (ix2 v q) * arg9 m c (ix2 (⟨14 + q.val, by omega⟩ : Fin 38) k) := by
  rw [e_v8]
  show (_ : EReal) = _
  simp only [Host.dotGeneral]
  rw [Ideal.dotGeneral_apply, ← Equiv.sum_comp (contrEquiv1 dot_S8x16_S16x128_S8x128_1_0_0_1_n_n 16 rfl rfl).symm]
  refine Finset.sum_congr rfl fun q _ => ?_
  have cq := contrEquiv1_symm_val dot_S8x16_S16x128_S8x128_1_0_0_1_n_n 16 rfl rfl q
  have hl : dot_S8x16_S16x128_S8x128_1_0_0_1_n_n.lhsIdx (ix2 v k)
      ((contrEquiv1 dot_S8x16_S16x128_S8x128_1_0_0_1_n_n 16 rfl rfl).symm q) = ix2 v q := by
    funext ax; apply Fin.ext
    match ax with
    | ⟨0, _⟩ => exact lhs_role_0 _ _
    | ⟨1, _⟩ => exact (lhs_role_1 _ _).trans cq
  have hr : dot_S8x16_S16x128_S8x128_1_0_0_1_n_n.rhsIdx (ix2 v k)
      ((contrEquiv1 dot_S8x16_S16x128_S8x128_1_0_0_1_n_n 16 rfl rfl).symm q) = ix2 q k := by
    funext ax; apply Fin.ext
    match ax with
    | ⟨0, _⟩ => exact (rhs_role_0 _ _).trans cq
    | ⟨1, _⟩ => exact rhs_role_1 _ _
  rw [hl, hr]
  exact congrArg _ (slice2_axis0_apply (n0 := 38) 14 _ _ q k (⟨14 + q.val, by omega⟩ : Fin 38) rfl)

/-! ### The bias rows: a [128] vector as a [1, 128] row -/

theorem in6 (k : Fin 128) :
    (Gen.V1 m ρ c main_v9 : S1x128.Idx → EReal) (ix2 0 k) = (m ((c.tc : Thread nD τ).loc main_arg10) : S128.Idx → EReal) (ix1 k) := by
  rw [e_v9]; exact shapeCast_a_1a_apply _ _ 0 k

theorem in8 (k : Fin 128) :
    (Gen.V1 m ρ c main_v10 : S1x128.Idx → EReal) (ix2 0 k) = (m ((c.tc : Thread nD τ).loc main_arg12) : S128.Idx → EReal) (ix1 k) := by
  rw [e_v10]; exact shapeCast_a_1a_apply _ _ 0 k

theorem row11 (k : Fin 128) :
    (Gen.V1 m ρ c main_v11 : S1x128.Idx → EReal) (ix2 0 k) = (m ((c.tc : Thread nD τ).loc main_arg14) : S128.Idx → EReal) (ix1 k) := by
  rw [e_v11]; exact shapeCast_a_1a_apply _ _ 0 k

theorem row12 (k : Fin 128) :
    (Gen.V1 m ρ c main_v12 : S1x128.Idx → EReal) (ix2 0 k) = (m ((c.tc : Thread nD τ).loc main_arg16) : S128.Idx → EReal) (ix1 k) := by
  rw [e_v12]; exact shapeCast_a_1a_apply _ _ 0 k

theorem row13 (k : Fin 128) :
    (Gen.V1 m ρ c main_v13 : S1x128.Idx → EReal) (ix2 0 k) = (m ((c.tc : Thread nD τ).loc main_arg17) : S128.Idx → EReal) (ix1 k) := by
  rw [e_v13]; exact shapeCast_a_1a_apply _ _ 0 k

theorem row14 (k : Fin 128) :
    (Gen.V1 m ρ c main_v14 : S1x128.Idx → EReal) (ix2 0 k) = (m ((c.tc : Thread nD τ).loc main_arg18) : S128.Idx → EReal) (ix1 k) := by
  rw [e_v14]; exact shapeCast_a_1a_apply _ _ 0 k

end Cert.KernelIdeal.KIn0
-- ==== Proof.OutK.lean ====
/-
  The kernel program's output array at entry (r, j), over the launch contents.

  The second dense stage reads, when it is entered, the node embedding the first stage left, the aggregate and the
  pin-weight column the host operations between the two stages made from it and from the edge arguments, and the
  message parameters (the two weight matrices as launched, the four vectors as rows [1, 128]).  Its output row r is the
  message stage's row function of row r of those arrays; a column [100000, 1] cast from a vector [100000] reads the vector
  at the row number, and a row [1, 128] cast from a vector [128] reads it at the lane number.
-/
import proofs.«414917_j51823075393574_1_alg».proof.Proof.Region1
import proofs.«414917_j51823075393574_1_alg».proof.Proof.KHost
import proofs.«414917_j51823075393574_1_alg».proof.Proof.KIn0
import Idealize.ShloMosaic.Lib.Pipeline.Value

set_option maxRecDepth 16384

noncomputable section

namespace Cert.KernelIdeal.OutK

open Cert.KernelIdeal Cert.KernelIdeal.Gen Idealize.ShloMosaic Idealize.ShloMosaic.TcCoe Idealize.ShloMosaic.ValueIdx

/-- A vector [a] cast to a column [a, 1] reads, at (i, u), the vector at i. -/
theorem col_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

variable (m : (ℓ : Loc nD τ sig) → Buf (Elt Ideal) ℓ) (ρ : Dev nD → PrngReg) (c : Dev nD)

/-- The node embedding as the first dense stage leaves it. -/
abbrev embArr : FVec Ideal S100000x128 .f32 := (dat0 (F := Ideal) (V1 m ρ) c).arrAt 9 cfg0.N

theorem out_eq (r : Fin 100000) (j : Fin 128) :
    ((dat1 (F := Ideal) (V3 m ρ) c).arrAt 9 cfg1.N : S100000x128.Idx → EReal) (ix2 r j)
      = Cert.Spec.msg (fun q => embArr m ρ c (ix2 r q))
          (fun q => KHost.aggK (embArr m ρ c) (m ((c.tc : Thread nD τ).loc main_arg2)) (m ((c.tc : Thread nD τ).loc main_arg3)) (m ((c.tc : Thread nD τ).loc main_arg4)) (ix2 r q))
          (KHost.pwK (F := Ideal) (m ((c.tc : Thread nD τ).loc main_arg5)) (m ((c.tc : Thread nD τ).loc main_arg6)) (ix1 r))
          (fun q k => (m ((c.tc : Thread nD τ).loc main_arg13) : S128x128.Idx → EReal) (ix2 q k))
          (fun k => (m ((c.tc : Thread nD τ).loc main_arg14) : S128.Idx → EReal) (ix1 k))
          (fun q k => (m ((c.tc : Thread nD τ).loc main_arg15) : S128x128.Idx → EReal) (ix2 q k))
          (fun k => (m ((c.tc : Thread nD τ).loc main_arg16) : S128.Idx → EReal) (ix1 k))
          (Ideal.ofBits .f32 0x43000000#32) (Ideal.ofBits .f32 0x3727C5AC#32)
          (fun k => (m ((c.tc : Thread nD τ).loc main_arg17) : S128.Idx → EReal) (ix1 k))
          (fun k => (m ((c.tc : Thread nD τ).loc main_arg18) : S128.Idx → EReal) (ix1 k)) j := by
  rw [Region1.out_at (V3 m ρ) c _ _ _ _ _ _ _ _ _ (KHost.V3_emb m ρ c) (KHost.V3_agg m ρ c) (KHost.V3_pw m ρ c)
    (KHost.V3_arg13 m ρ c) (KHost.V3_v11 m ρ c) (KHost.V3_arg15 m ρ c) (KHost.V3_v12 m ρ c) (KHost.V3_v13 m ρ c)
    (KHost.V3_v14 m ρ c) r j]
  have hp : shapeCast S100000x1 (KHost.pwK (F := Ideal) (m ((c.tc : Thread nD τ).loc main_arg5)) (m ((c.tc : Thread nD τ).loc main_arg6))) shapeCasts_S100000_S100000x1 (ix2 r 0)
      = KHost.pwK (F := Ideal) (m ((c.tc : Thread nD τ).loc main_arg5)) (m ((c.tc : Thread nD τ).loc main_arg6)) (ix1 r) :=
    col_apply _ _ r 0
  have h4 : (fun k : Fin 128 => (V1 m ρ c main_v11 : S1x128.Idx → EReal) (ix2 0 k)) = fun k => (m ((c.tc : Thread nD τ).loc main_arg14) : S128.Idx → EReal) (ix1 k) :=
    funext fun k => KIn0.row11 m ρ c k
  have h6 : (fun k : Fin 128 => (V1 m ρ c main_v12 : S1x128.Idx → EReal) (ix2 0 k)) = fun k => (m ((c.tc : Thread nD τ).loc main_arg16) : S128.Idx → EReal) (ix1 k) :=
    funext fun k => KIn0.row12 m ρ c k
  have h7 : (fun k : Fin 128 => (V1 m ρ c main_v13 : S1x128.Idx → EReal) (ix2 0 k)) = fun k => (m ((c.tc : Thread nD τ).loc main_arg17) : S128.Idx → EReal) (ix1 k) :=
    funext fun k => KIn0.row13 m ρ c k
  have h8 : (fun k : Fin 128 => (V1 m ρ c main_v14 : S1x128.Idx → EReal) (ix2 0 k)) = fun k => (m ((c.tc : Thread nD τ).loc main_arg18) : S128.Idx → EReal) (ix1 k) :=
    funext fun k => KIn0.row14 m ρ c k
  rw [hp, h4, h6, h7, h8]

end Cert.KernelIdeal.OutK

end
-- ==== Proof.Region0.lean ====
/-
  The encode kernel's result array as one function of the arrays it reads.

  First the body at one entry of its block; then the blocks put together: point `t` of the 20 writes back rows
  `5000 t … 5000 t + 4999`, computed from the same rows of the three node arrays and from the whole of the six
  weight arrays, so the array ends holding, at row `r`, the encode stage of row `r`.

  The body multiplies the 14 block features by their band of the first weight, the one-hot row of the role id
  by the 8 × 128 role table and the 8 index-embedding entries by their band, adds the three products and the
  bias, takes `max · 0`, multiplies by the second weight, adds its bias and takes `max · 0` again.  Every one
  of these steps is row-parallel, so entry `(p, j)` of the result is the encode stage of row `p` of the three
  row blocks against the weights.  A product into the zero accumulator is read as the finite sum over its one
  contracted axis; the narrowing of the operands is the identity on extended reals.
-/
import proofs.«414917_j51823075393574_1_alg».proof.Proof.Gen.KernelIdeal.Skeleton
import proofs.«414917_j51823075393574_1_alg».proof.Proof.Spec
import Idealize.ShloMosaic.Lib.ValueIdx
import Idealize.ShloMosaic.Lib.ValueLayout
import Idealize.ShloMosaic.Lib.Pipeline.Value
import Idealize.ShloMosaic.PureOps.Ideal.Laws
import proofs.«414917_j51823075393574_1_alg».proof.Proof.Gen.KernelIdeal.Frame
import Idealize.ShloMosaic.Lib.Tactic

set_option maxRecDepth 16384

noncomputable section

namespace Cert.KernelIdeal.Region0

open Cert.KernelIdeal Cert.KernelIdeal.Gen Idealize.ShloMosaic Idealize.ShloMosaic.ValueIdx

/-! ## A row-by-column product with one contracted axis, read at an entry -/

section Dot
variable {m k n : Nat} (d : DotDims ⟨2, ![m, k]⟩ ⟨2, ![k, n]⟩ ⟨2, ![m, n]⟩)
  (hlc : d.lhsContracting = [1]) (hrc : d.rhsContracting = [0])
  (hln : d.lhsNonContracting = [0]) (hrn : d.rhsNonContracting = [1])
  (hlb : d.lhsBatch = []) (hrb : d.rhsBatch = [])

include hln hlb in
/-- The left operand is read on the result's row. -/
theorem lhs_row (j : (⟨2, ![m, n]⟩ : Shape).Idx) (κ : d.contr.Idx) : (d.lhsIdx j κ 0).val = (j 0).val := by
  unfold DotDims.lhsIdx
  rw [dif_neg (by rw [hlb]; exact List.not_mem_nil), dif_pos (by rw [hln]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

include hln hlb hrn hrb in
/-- The right operand is read on the result's column. -/
theorem rhs_col (j : (⟨2, ![m, n]⟩ : Shape).Idx) (κ : d.contr.Idx) : (d.rhsIdx j κ 1).val = (j 1).val := by
  unfold DotDims.rhsIdx
  rw [dif_neg (by rw [hrb]; exact List.not_mem_nil), dif_pos (by rw [hrn]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

include hlc hrc hln hrn hlb hrb in
/-- A row-by-column product into the zero accumulator, read at row `p` and column `j`: the sum over the one
    contracted axis of the row's entries times the column's. -/
theorem matmul_zero_at (hr : d.contr.rank = 1) (hs : d.contr.size ⟨0, by omega⟩ = k) {φ₁ φ₂ : FTy}
    (prec : Option ContractPrecision) (lhs : FVec Ideal ⟨2, ![m, k]⟩ φ₁) (rhs : FVec Ideal ⟨2, ![k, n]⟩ φ₂)
    (p : Fin m) (j : Fin n) :
    FloatOps.matmul d prec lhs rhs (constant (F := Ideal) ⟨2, ![m, n]⟩ .f32 0x00000000#32) (ix2 p j)
      = ∑ q : Fin k, lhs (ix2 p q) * rhs (ix2 q j) := by
  rw [Ideal.matmul_constant_zero_apply, ← Equiv.sum_comp (contrEquiv1 d k hr hs).symm]
  refine Finset.sum_congr rfl fun q _ => ?_
  have hl : d.lhsIdx (ix2 p j) ((contrEquiv1 d k hr hs).symm q) = ix2 p q := by
    funext a; apply Fin.ext
    match a with
    | ⟨0, _⟩ => exact lhs_row d hln hlb _ _
    | ⟨1, _⟩ => exact (d.lhsIdx_val_of_single hlc _ _).trans (contrEquiv1_symm_val d k hr hs q)
  have hrr : d.rhsIdx (ix2 p j) ((contrEquiv1 d k hr hs).symm q) = ix2 q j := by
    funext a; apply Fin.ext
    match a with
    | ⟨0, _⟩ => exact (d.rhsIdx_val_of_single hrc _ _).trans (contrEquiv1_symm_val d k hr hs q)
    | ⟨1, _⟩ => exact rhs_col d hln hrn hlb hrb _ _
  rw [hl, hrr]

end Dot

/-- The product with the 14-row band of the first weight, at a row and a column. -/
theorem feat_at (l : FVec Ideal S5000x14 .bf16) (r : FVec Ideal S14x128 .bf16) (p : Fin 5000) (j : Fin 128) :
    matmul dot_S5000x14_S14x128_S5000x128_1_0_0_1_n_n none l r (constant (F := Ideal) S5000x128 .f32 0x00000000#32) (ix2 p j)
      = ∑ q : Fin 14, l (ix2 p q) * r (ix2 q j) :=
  matmul_zero_at dot_S5000x14_S14x128_S5000x128_1_0_0_1_n_n rfl rfl rfl rfl rfl rfl rfl rfl none l r p j

/-- A product with an 8-row table or band, at a row and a column. -/
theorem eight_at (l : FVec Ideal S5000x8 .bf16) (r : FVec Ideal S8x128 .bf16) (p : Fin 5000) (j : Fin 128) :
    matmul dot_S5000x8_S8x128_S5000x128_1_0_0_1_n_n none l r (constant (F := Ideal) S5000x128 .f32 0x00000000#32) (ix2 p j)
      = ∑ q : Fin 8, l (ix2 p q) * r (ix2 q j) :=
  matmul_zero_at dot_S5000x8_S8x128_S5000x128_1_0_0_1_n_n rfl rfl rfl rfl rfl rfl rfl rfl none l r p j

/-- The product with the second weight, at a row and a column. -/
theorem second_at (l : FVec Ideal S5000x128 .bf16) (r : FVec Ideal S128x128 .bf16) (p : Fin 5000) (j : Fin 128) :
    matmul dot_S5000x128_S128x128_S5000x128_1_0_0_1_n_n none l r (constant (F := Ideal) S5000x128 .f32 0x00000000#32) (ix2 p j)
      = ∑ q : Fin 128, l (ix2 p q) * r (ix2 q j) :=
  matmul_zero_at dot_S5000x128_S128x128_S5000x128_1_0_0_1_n_n rfl rfl rfl rfl rfl rfl rfl rfl none l r p j

/-! ## The one-hot row of a role id -/

/-- A column `[a, 1]` broadcast to `[a, b]` reads, at `(p, c)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Entry `v` of the one-hot row of row `p`'s role id is one when the id's word is `v` and zero otherwise. -/
theorem onehot_at (x1 : IVec S5000x1 32) (p : Fin 5000) (v : Fin 8) :
    (sitofp .f32 (extui 32 (cmpi .eq (iota .tc S5000x8 32 [1] iota_S5000x8_d1_w32)
        (broadcastTo S5000x8 x1 broadcasts_S5000x1_S5000x8)) natLt_1_32) : FVec Ideal S5000x8 .f32) (ix2 p v)
      = if x1 (ix2 p 0) = BitVec.ofNat 32 v.val then (1 : EReal) else 0 := by
  rw [sitofp_apply, extui_apply]
  show FloatOps.sitofp .f32 ((IntOp.cmpi .eq (iota .tc S5000x8 32 [1] iota_S5000x8_d1_w32 (ix2 p v))
      (broadcastTo S5000x8 x1 broadcasts_S5000x1_S5000x8 (ix2 p v))).setWidth 32) = _
  rw [iota_single_apply, broadcastTo_a1_ab_apply]
  show (((((IntOp.cmpi .eq (BitVec.ofNat 32 v.val) (x1 (ix2 p 0))).setWidth 32).toInt : ℝ)) : EReal) = _
  by_cases h : x1 (ix2 p 0) = BitVec.ofNat 32 v.val
  · have e : IntOp.cmpi .eq (BitVec.ofNat 32 v.val) (x1 (ix2 p 0)) = 1#1 := by
      rw [h]; simp [IntOp.cmpi]
    have o : ((1#1 : BitVec 1).setWidth 32).toInt = 1 := by decide
    rw [if_pos h, e, o]; simp
  · have e : IntOp.cmpi .eq (BitVec.ofNat 32 v.val) (x1 (ix2 p 0)) = 0#1 := by
      show BitVec.ofBool (BitVec.ofNat 32 v.val == x1 (ix2 p 0)) = 0#1
      cases hb : (BitVec.ofNat 32 v.val == x1 (ix2 p 0))
      · rfl
      · exact absurd (eq_of_beq hb).symm h
    have o : ((0#1 : BitVec 1).setWidth 32).toInt = 0 := by decide
    rw [if_neg h, e, o]; simp

/-! ## The body's result at an entry -/

/-- The body's result at row `p` and column `j` of the block: the encode stage of row `p` of the row-tiled
    blocks against the resident weights. -/
theorem pay_at (x0 : FVec Ideal S5000x14 .f32) (x1 : IVec S5000x1 32) (x2 : FVec Ideal S5000x8 .f32)
    (x3 : FVec Ideal S8x128 .f32) (x4 : FVec Ideal S14x128 .f32) (x5 : FVec Ideal S8x128 .f32)
    (x6 : FVec Ideal S1x128 .f32) (x7 : FVec Ideal S128x128 .f32) (x8 : FVec Ideal S1x128 .f32)
    (p : Fin 5000) (j : Fin 128) :
    k0_pay1 (F := Ideal) (k0_pay2 (F := Ideal) x0 x2 x1 x4 x3 x5 x6 x7) x8 (ix2 p j)
      = Cert.Spec.encK (fun q => x0 (ix2 p q)) (fun v => if x1 (ix2 p 0) = BitVec.ofNat 32 v.val then (1 : EReal) else 0)
          (fun q => x2 (ix2 p q)) (fun v k => x3 (ix2 v k)) (fun q k => x4 (ix2 q k)) (fun q k => x5 (ix2 q k))
          (fun k => x6 (ix2 0 k)) (fun k j => x7 (ix2 k j)) (fun k => x8 (ix2 0 k)) j := by
  unfold k0_pay1 k0_pay2 Cert.Spec.encK
  simp only [maximumf_apply, addf_apply, broadcast_apply, truncf_apply, shapeCast_self, broadcastTo_1b_ab_apply,
    second_at, feat_at, eight_at, Ideal.ofBits_def, Ideal.ofBits_zero_f32]
  refine congrArg (fun z => max (z + x8 (ix2 0 j)) 0) (Finset.sum_congr rfl fun k _ => ?_)
  refine congrArg (fun z => max ((((∑ q : Fin 14, x0 (ix2 p q) * x4 (ix2 q k)) + z)
    + ∑ q : Fin 8, x2 (ix2 p q) * x5 (ix2 q k)) + x6 (ix2 0 k)) 0 * x7 (ix2 k j)) (Finset.sum_congr rfl fun v _ => ?_)
  exact congrArg (· * x3 (ix2 v k)) (onehot_at x1 p v)

/-- The same at any index of the block, by its two coordinates. -/
theorem pay_idx (x0 : FVec Ideal S5000x14 .f32) (x1 : IVec S5000x1 32) (x2 : FVec Ideal S5000x8 .f32)
    (x3 : FVec Ideal S8x128 .f32) (x4 : FVec Ideal S14x128 .f32) (x5 : FVec Ideal S8x128 .f32)
    (x6 : FVec Ideal S1x128 .f32) (x7 : FVec Ideal S128x128 .f32) (x8 : FVec Ideal S1x128 .f32)
    (y : S5000x128.Idx) :
    k0_pay1 (F := Ideal) (k0_pay2 (F := Ideal) x0 x2 x1 x4 x3 x5 x6 x7) x8 y
      = Cert.Spec.encK (fun q => x0 (ix2 (y 0) q)) (fun v => if x1 (ix2 (y 0) 0) = BitVec.ofNat 32 v.val then (1 : EReal) else 0)
          (fun q => x2 (ix2 (y 0) q)) (fun v k => x3 (ix2 v k)) (fun q k => x4 (ix2 q k)) (fun q k => x5 (ix2 q k))
          (fun k => x6 (ix2 0 k)) (fun k j => x7 (ix2 k j)) (fun k => x8 (ix2 0 k)) (y 1) := by
  obtain ⟨p, j, rfl⟩ : ∃ (p : Fin 5000) (j : Fin 128), y = ix2 p j := ⟨y 0, y 1, eq_ix2 y⟩
  exact pay_at x0 x1 x2 x3 x4 x5 x6 x7 x8 p j

/-! ## From the blocks to the array -/

section Blocks

open Idealize.ShloMosaic.TcCoe Idealize.SL.Sem
open Idealize.ShloMosaic.Pipeline (Dat)

variable (V : (c : Dev nD) → (b : Ref sig .tc) → Buf (Elt Ideal) ((c : Thread nD τ).loc b)) (c : Dev nD)

/-- The body's accesses start at the block's origin. -/
theorem zero_off : (![0, 0] : Fin 2 → Nat) = fun _ => 0 := funext fun a => by fin_cases a <;> rfl

/-- The printed index maps, decided over the 20 points: the three row-tiled inputs and the output sit at block
    row `t`, the six weight windows at the origin. -/
theorem block_index : ∀ t : Fin cfg0.N,
    win0_0.index t (0 : Fin 2) = t.val
    ∧ win0_0.index t (1 : Fin 2) = 0
    ∧ win0_1.index t (0 : Fin 2) = t.val
    ∧ win0_1.index t (1 : Fin 2) = 0
    ∧ win0_2.index t (0 : Fin 2) = t.val
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = t.val
    ∧ win0_9.index t (1 : Fin 2) = 0 :=
  (by decide +kernel : ∀ t : Fin grid0.N, _)

/-- Row `p` of window 0's block at point `t` is row `5000 t + p` of its array. -/
theorem feat_rows (x : FVec Ideal S100000x14 .f32) (hx : V c main_arg0 = x) (t : Fin cfg0.N) (p : Fin 5000) (q : Fin 14)
    (r : Fin 100000) (hr : r.val = 5000 * t.val + p.val) :
    (iblk0 V c 0 t : Vec Ideal S5000x14 .f32) (ix2 p q) = x (ix2 r q) := by
  subst hx
  obtain ⟨f00, f01, f10, f11, f20, f21, f30, f31, f40, f41, f50, f51, f60, f61, f70, f71, f80, f81, f90, f91⟩ := block_index t
  unfold iblk0
  show V c main_arg0 (((cfg0.win 0).blk t).view.emb (ix2 p q)) = V c main_arg0 (ix2 r q)
  congr 1
  funext a
  apply Fin.ext
  match a with
  | ⟨0, _⟩ => show win0_0.index t (0 : Fin 2) * 5000 + 1 * p.val = r.val; rw [f00, hr]; omega
  | ⟨1, _⟩ => show win0_0.index t (1 : Fin 2) * 14 + 1 * q.val = q.val; rw [f01]; omega

/-- Row `p` of window 1's block at point `t` is row `5000 t + p` of its array. -/
theorem role_rows (x : IVec S100000x1 32) (hx : V c main_v0 = x) (t : Fin cfg0.N) (p : Fin 5000) (q : Fin 1)
    (r : Fin 100000) (hr : r.val = 5000 * t.val + p.val) :
    (iblk0 V c 1 t : IVec S5000x1 32) (ix2 p q) = x (ix2 r q) := by
  subst hx
  obtain ⟨f00, f01, f10, f11, f20, f21, f30, f31, f40, f41, f50, f51, f60, f61, f70, f71, f80, f81, f90, f91⟩ := block_index t
  unfold iblk0
  show V c main_v0 (((cfg0.win 1).blk t).view.emb (ix2 p q)) = V c main_v0 (ix2 r q)
  congr 1
  funext a
  apply Fin.ext
  match a with
  | ⟨0, _⟩ => show win0_1.index t (0 : Fin 2) * 5000 + 1 * p.val = r.val; rw [f10, hr]; omega
  | ⟨1, _⟩ => show win0_1.index t (1 : Fin 2) * 1 + 1 * q.val = q.val; rw [f11]; omega

/-- Row `p` of window 2's block at point `t` is row `5000 t + p` of its array. -/
theorem idx_rows (x : FVec Ideal S100000x8 .f32) (hx : V c main_v4 = x) (t : Fin cfg0.N) (p : Fin 5000) (q : Fin 8)
    (r : Fin 100000) (hr : r.val = 5000 * t.val + p.val) :
    (iblk0 V c 2 t : Vec Ideal S5000x8 .f32) (ix2 p q) = x (ix2 r q) := by
  subst hx
  obtain ⟨f00, f01, f10, f11, f20, f21, f30, f31, f40, f41, f50, f51, f60, f61, f70, f71, f80, f81, f90, f91⟩ := block_index t
  unfold iblk0
  show V c main_v4 (((cfg0.win 2).blk t).view.emb (ix2 p q)) = V c main_v4 (ix2 r q)
  congr 1
  funext a
  apply Fin.ext
  match a with
  | ⟨0, _⟩ => show win0_2.index t (0 : Fin 2) * 5000 + 1 * p.val = r.val; rw [f20, hr]; omega
  | ⟨1, _⟩ => show win0_2.index t (1 : Fin 2) * 8 + 1 * q.val = q.val; rw [f21]; omega

/-- Window 3's block at every point is its whole array. -/
theorem role_table_whole (x : FVec Ideal S8x128 .f32) (hx : V c main_v8 = x) (t : Fin cfg0.N) (p : Fin 8) (q : Fin 128) :
    (iblk0 V c 3 t : Vec Ideal S8x128 .f32) (ix2 p q) = x (ix2 p q) := by
  subst hx
  obtain ⟨f00, f01, f10, f11, f20, f21, f30, f31, f40, f41, f50, f51, f60, f61, f70, f71, f80, f81, f90, f91⟩ := block_index t
  unfold iblk0
  show V c main_v8 (((cfg0.win 3).blk t).view.emb (ix2 p q)) = V c main_v8 (ix2 p q)
  congr 1
  funext a
  apply Fin.ext
  match a with
  | ⟨0, _⟩ => show win0_3.index t (0 : Fin 2) * 8 + 1 * p.val = p.val; rw [f30]; omega
  | ⟨1, _⟩ => show win0_3.index t (1 : Fin 2) * 128 + 1 * q.val = q.val; rw [f31]; omega

/-- Window 4's block at every point is its whole array. -/
theorem feat_band_whole (x : FVec Ideal S14x128 .f32) (hx : V c main_v5 = x) (t : Fin cfg0.N) (p : Fin 14) (q : Fin 128) :
    (iblk0 V c 4 t : Vec Ideal S14x128 .f32) (ix2 p q) = x (ix2 p q) := by
  subst hx
  obtain ⟨f00, f01, f10, f11, f20, f21, f30, f31, f40, f41, f50, f51, f60, f61, f70, f71, f80, f81, f90, f91⟩ := block_index t
  unfold iblk0
  show V c main_v5 (((cfg0.win 4).blk t).view.emb (ix2 p q)) = V c main_v5 (ix2 p q)
  congr 1
  funext a
  apply Fin.ext
  match a with
  | ⟨0, _⟩ => show win0_4.index t (0 : Fin 2) * 14 + 1 * p.val = p.val; rw [f40]; omega
  | ⟨1, _⟩ => show win0_4.index t (1 : Fin 2) * 128 + 1 * q.val = q.val; rw [f41]; omega

/-- Window 5's block at every point is its whole array. -/
theorem idx_band_whole (x : FVec Ideal S8x128 .f32) (hx : V c main_v7 = x) (t : Fin cfg0.N) (p : Fin 8) (q : Fin 128) :
    (iblk0 V c 5 t : Vec Ideal S8x128 .f32) (ix2 p q) = x (ix2 p q) := by
  subst hx
  obtain ⟨f00, f01, f10, f11, f20, f21, f30, f31, f40, f41, f50, f51, f60, f61, f70, f71, f80, f81, f90, f91⟩ := block_index t
  unfold iblk0
  show V c main_v7 (((cfg0.win 5).blk t).view.emb (ix2 p q)) = V c main_v7 (ix2 p q)
  congr 1
  funext a
  apply Fin.ext
  match a with
  | ⟨0, _⟩ => show win0_5.index t (0 : Fin 2) * 8 + 1 * p.val = p.val; rw [f50]; omega
  | ⟨1, _⟩ => show win0_5.index t (1 : Fin 2) * 128 + 1 * q.val = q.val; rw [f51]; omega

/-- Window 6's block at every point is its whole array. -/
theorem bias1_whole (x : FVec Ideal S1x128 .f32) (hx : V c main_v9 = x) (t : Fin cfg0.N) (p : Fin 1) (q : Fin 128) :
    (iblk0 V c 6 t : Vec Ideal S1x128 .f32) (ix2 p q) = x (ix2 p q) := by
  subst hx
  obtain ⟨f00, f01, f10, f11, f20, f21, f30, f31, f40, f41, f50, f51, f60, f61, f70, f71, f80, f81, f90, f91⟩ := block_index t
  unfold iblk0
  show V c main_v9 (((cfg0.win 6).blk t).view.emb (ix2 p q)) = V c main_v9 (ix2 p q)
  congr 1
  funext a
  apply Fin.ext
  match a with
  | ⟨0, _⟩ => show win0_6.index t (0 : Fin 2) * 1 + 1 * p.val = p.val; rw [f60]; omega
  | ⟨1, _⟩ => show win0_6.index t (1 : Fin 2) * 128 + 1 * q.val = q.val; rw [f61]; omega

/-- Window 7's block at every point is its whole array. -/
theorem second_whole (x : FVec Ideal S128x128 .f32) (hx : V c main_arg11 = x) (t : Fin cfg0.N) (p : Fin 128) (q : Fin 128) :
    (iblk0 V c 7 t : Vec Ideal S128x128 .f32) (ix2 p q) = x (ix2 p q) := by
  subst hx
  obtain ⟨f00, f01, f10, f11, f20, f21, f30, f31, f40, f41, f50, f51, f60, f61, f70, f71, f80, f81, f90, f91⟩ := block_index t
  unfold iblk0
  show V c main_arg11 (((cfg0.win 7).blk t).view.emb (ix2 p q)) = V c main_arg11 (ix2 p q)
  congr 1
  funext a
  apply Fin.ext
  match a with
  | ⟨0, _⟩ => show win0_7.index t (0 : Fin 2) * 128 + 1 * p.val = p.val; rw [f70]; omega
  | ⟨1, _⟩ => show win0_7.index t (1 : Fin 2) * 128 + 1 * q.val = q.val; rw [f71]; omega

/-- Window 8's block at every point is its whole array. -/
theorem bias2_whole (x : FVec Ideal S1x128 .f32) (hx : V c main_v10 = x) (t : Fin cfg0.N) (p : Fin 1) (q : Fin 128) :
    (iblk0 V c 8 t : Vec Ideal S1x128 .f32) (ix2 p q) = x (ix2 p q) := by
  subst hx
  obtain ⟨f00, f01, f10, f11, f20, f21, f30, f31, f40, f41, f50, f51, f60, f61, f70, f71, f80, f81, f90, f91⟩ := block_index t
  unfold iblk0
  show V c main_v10 (((cfg0.win 8).blk t).view.emb (ix2 p q)) = V c main_v10 (ix2 p q)
  congr 1
  funext a
  apply Fin.ext
  match a with
  | ⟨0, _⟩ => show win0_8.index t (0 : Fin 2) * 1 + 1 * p.val = p.val; rw [f80]; omega
  | ⟨1, _⟩ => show win0_8.index t (1 : Fin 2) * 128 + 1 * q.val = q.val; rw [f81]; omega

/-- The embedding array as one function of the nine arrays the region reads: row `r` is the encode stage of
    row `r` of the three node arrays against the weights. -/
def embArr (x0 : FVec Ideal S100000x14 .f32) (x1 : IVec S100000x1 32) (x2 : FVec Ideal S100000x8 .f32)
    (x3 : FVec Ideal S8x128 .f32) (x4 : FVec Ideal S14x128 .f32) (x5 : FVec Ideal S8x128 .f32)
    (x6 : FVec Ideal S1x128 .f32) (x7 : FVec Ideal S128x128 .f32) (x8 : FVec Ideal S1x128 .f32) : S100000x128.Idx → EReal := fun i =>
  Cert.Spec.encK (fun q => x0 (ix2 (i 0) q)) (fun v => if x1 (ix2 (i 0) 0) = BitVec.ofNat 32 v.val then (1 : EReal) else 0)
    (fun q => x2 (ix2 (i 0) q)) (fun v k => x3 (ix2 v k)) (fun q k => x4 (ix2 q k)) (fun q k => x5 (ix2 q k))
    (fun k => x6 (ix2 0 k)) (fun k j => x7 (ix2 k j)) (fun k => x8 (ix2 0 k)) (i 1)

/-- The encode stage depends on its arguments only. -/
theorem encK_congr {bf bf' : Fin 14 → EReal} {oh oh' ie ie' : Fin 8 → EReal} {rt rt' : Fin 8 → Fin 128 → EReal}
    {w1f w1f' : Fin 14 → Fin 128 → EReal} {w1i w1i' : Fin 8 → Fin 128 → EReal} {b1 b1' : Fin 128 → EReal}
    {w2 w2' : Fin 128 → Fin 128 → EReal} {b2 b2' : Fin 128 → EReal} {j j' : Fin 128}
    (e0 : bf = bf') (e1 : oh = oh') (e2 : ie = ie') (e3 : rt = rt') (e4 : w1f = w1f') (e5 : w1i = w1i')
    (e6 : b1 = b1') (e7 : w2 = w2') (e8 : b2 = b2') (ej : j = j') :
    Cert.Spec.encK bf oh ie rt w1f w1i b1 w2 b2 j = Cert.Spec.encK bf' oh' ie' rt' w1f' w1i' b1' w2' b2' j' := by
  subst e0 e1 e2 e3 e4 e5 e6 e7 e8 ej; rfl

/-- What point `t` writes back is block `t` of the embedding array. -/
theorem flushed_eq (x0 : FVec Ideal S100000x14 .f32) (x1 : IVec S100000x1 32) (x2 : FVec Ideal S100000x8 .f32)
    (x3 : FVec Ideal S8x128 .f32) (x4 : FVec Ideal S14x128 .f32) (x5 : FVec Ideal S8x128 .f32)
    (x6 : FVec Ideal S1x128 .f32) (x7 : FVec Ideal S128x128 .f32) (x8 : FVec Ideal S1x128 .f32)
    (h0 : V c main_arg0 = x0) (h1 : V c main_v0 = x1) (h2 : V c main_v4 = x2) (h3 : V c main_v8 = x3)
    (h4 : V c main_v5 = x4) (h5 : V c main_v7 = x5) (h6 : V c main_v9 = x6) (h7 : V c main_arg11 = x7)
    (h8 : V c main_v10 = x8) (t : Fin cfg0.N) :
    (dat0 (F := Ideal) V c).flushed 9 t
      = ((cfg0.win 9).blk t).view.read (Elt Ideal) (embArr x0 x1 x2 x3 x4 x5 x6 x7 x8) := by
  show (cfg0.win 9).cut (grid0.coords t) ((dat0 (F := Ideal) V c).after 9 t) = _
  rw [after0_9]
  unfold out0_9
  rw [View.canon_unit_zero zero_off]
  simp only [View.ld_unit_zero (S := S5000x14) zero_off, View.ld_unit_zero (S := S5000x1) zero_off,
    View.ld_unit_zero (S := S5000x8) zero_off, View.ld_unit_zero (S := S8x128) zero_off,
    View.ld_unit_zero (S := S14x128) zero_off, View.ld_unit_zero (S := S1x128) zero_off,
    View.ld_unit_zero (S := S128x128) zero_off]
  obtain ⟨f00, f01, f10, f11, f20, f21, f30, f31, f40, f41, f50, f51, f60, f61, f70, f71, f80, f81, f90, f91⟩ := block_index t
  funext y
  refine (pay_idx _ _ _ _ _ _ _ _ _ y).trans ?_
  show _ = embArr x0 x1 x2 x3 x4 x5 x6 x7 x8 (((cfg0.win 9).blk t).view.emb y)
  have hy : (y 0).val < 5000 := (y 0).isLt
  have er : ((((cfg0.win 9).blk t).view.emb y) 0).val = 5000 * t.val + (y 0).val := by
    show win0_9.index t (0 : Fin 2) * 5000 + 1 * (y 0).val = _
    rw [f90]; omega
  have ej : (y 1).val = ((((cfg0.win 9).blk t).view.emb y) 1).val := by
    show _ = win0_9.index t (1 : Fin 2) * 128 + 1 * (y 1).val
    rw [f91]; omega
  unfold embArr
  refine encK_congr
    (funext fun q => feat_rows V c x0 h0 t (y 0) q _ er)
    (funext fun v => congrArg (fun w => if w = BitVec.ofNat 32 v.val then (1 : EReal) else 0)
      (role_rows V c x1 h1 t (y 0) 0 _ er))
    (funext fun q => idx_rows V c x2 h2 t (y 0) q _ er)
    (funext fun v => funext fun k => role_table_whole V c x3 h3 t v k)
    (funext fun q => funext fun k => feat_band_whole V c x4 h4 t q k)
    (funext fun q => funext fun k => idx_band_whole V c x5 h5 t q k)
    (funext fun k => bias1_whole V c x6 h6 t 0 k)
    (funext fun k => funext fun j => second_whole V c x7 h7 t k j)
    (funext fun k => bias2_whole V c x8 h8 t 0 k)
    (Fin.ext ej)

/-- An index of the array is in point `t`'s block iff each coordinate is in the block's range on its axis. -/
theorem mem_block (t : Fin cfg0.N) (i : S100000x128.Idx) :
    i ∈ ((cfg0.win 9).blk t).view.set ↔ ∀ a : Fin 2, win0_9.index t a * S5000x128.size a ≤ (i a).val
      ∧ (i a).val < win0_9.index t a * S5000x128.size a + S5000x128.size a := by
  show i ∈ ((View.whole main_v15).slice (win0_9.rect t)).set ↔ _
  rw [View.set_slice_whole, Rect.mem_set_unit]
  exact Iff.rfl

/-- Row `r` of the array is in the block of point `r / 5000`, which writes back. -/
theorem covered (i : S100000x128.Idx) :
    ∃ t : Fin cfg0.N, (cfg0.win 9).flush t = true ∧ i ∈ ((cfg0.win 9).blk t).view.set := by
  have hi0 : (i 0).val < 100000 := (i 0).isLt
  have hi1 : (i 1).val < 128 := (i 1).isLt
  have hN : cfg0.N = 20 := N_0
  have ht : (i 0).val / 5000 < cfg0.N := by rw [hN]; omega
  obtain ⟨f00, f01, f10, f11, f20, f21, f30, f31, f40, f41, f50, f51, f60, f61, f70, f71, f80, f81, f90, f91⟩ := block_index ⟨(i 0).val / 5000, ht⟩
  refine ⟨⟨(i 0).val / 5000, ht⟩, flush0_9 _, ?_⟩
  rw [mem_block]
  intro a
  match a with
  | ⟨0, _⟩ =>
    show win0_9.index ⟨(i 0).val / 5000, ht⟩ (0 : Fin 2) * 5000 ≤ (i 0).val
      ∧ (i 0).val < win0_9.index ⟨(i 0).val / 5000, ht⟩ (0 : Fin 2) * 5000 + 5000
    rw [f90]; show (i 0).val / 5000 * 5000 ≤ (i 0).val ∧ (i 0).val < (i 0).val / 5000 * 5000 + 5000; omega
  | ⟨1, _⟩ =>
    show win0_9.index ⟨(i 0).val / 5000, ht⟩ (1 : Fin 2) * 128 ≤ (i 1).val
      ∧ (i 1).val < win0_9.index ⟨(i 0).val / 5000, ht⟩ (1 : Fin 2) * 128 + 128
    rw [f91]; omega

/-- THE EMBEDDING ARRAY after the region: entry `(r, j)` is the encode stage of row `r` at `j`. -/
theorem emb_at (x0 : FVec Ideal S100000x14 .f32) (x1 : IVec S100000x1 32) (x2 : FVec Ideal S100000x8 .f32)
    (x3 : FVec Ideal S8x128 .f32) (x4 : FVec Ideal S14x128 .f32) (x5 : FVec Ideal S8x128 .f32)
    (x6 : FVec Ideal S1x128 .f32) (x7 : FVec Ideal S128x128 .f32) (x8 : FVec Ideal S1x128 .f32)
    (h0 : V c main_arg0 = x0) (h1 : V c main_v0 = x1) (h2 : V c main_v4 = x2) (h3 : V c main_v8 = x3)
    (h4 : V c main_v5 = x4) (h5 : V c main_v7 = x5) (h6 : V c main_v9 = x6) (h7 : V c main_arg11 = x7)
    (h8 : V c main_v10 = x8) (r : Fin 100000) (j : Fin 128) :
    (dat0 (F := Ideal) V c).arrAt 9 cfg0.N (ix2 r j)
      = Cert.Spec.encK (fun q => x0 (ix2 r q)) (fun v => if x1 (ix2 r 0) = BitVec.ofNat 32 v.val then (1 : EReal) else 0)
          (fun q => x2 (ix2 r q)) (fun v k => x3 (ix2 v k)) (fun q k => x4 (ix2 q k)) (fun q k => x5 (ix2 q k))
          (fun k => x6 (ix2 0 k)) (fun k j => x7 (ix2 k j)) (fun k => x8 (ix2 0 k)) j := by
  rw [(dat0 (F := Ideal) V c).arrAt_eq_of_cover 9 (embArr x0 x1 x2 x3 x4 x5 x6 x7 x8)
    (fun t _ => flushed_eq V c x0 x1 x2 x3 x4 x5 x6 x7 x8 h0 h1 h2 h3 h4 h5 h6 h7 h8 t) (covered)]
  rfl

end Blocks

end Cert.KernelIdeal.Region0

end
-- ==== Proof.SpecMath.lean ====
/-
  The two groupings of the encode stage are one function.

  With the one-hot row `oh v = if v = ρ then 1 else 0` of the role index `ρ`, the role table
  `rt v k = ∑ q, roleE v q * w1 (14 + q) k`, and the feature and index bands of the first weight, the three
  partial products add up to the product of the concatenated row with the whole weight:
  `∑ v, oh v * rt v k = rt ρ k` (every other term is `0 * _ = 0`), and a sum over `Fin 38` splits as the sums
  over its first 14, next 16 and last 8 indices.
-/
import proofs.«414917_j51823075393574_1_alg».proof.Proof.Spec
import Mathlib.Algebra.BigOperators.Fin
import Mathlib.Algebra.BigOperators.Group.Finset.Piecewise
import Mathlib.Data.EReal.Basic

noncomputable section

namespace Cert.Spec

/-- A one-hot row picks one entry: every other term of the sum is `0 * _ = 0`. -/
theorem sum_onehot_mul (ρ : Fin 8) (f : Fin 8 → EReal) :
    ∑ v : Fin 8, (if v = ρ then (1 : EReal) else 0) * f v = f ρ := by
  simp only [ite_mul, one_mul, zero_mul, Finset.sum_ite_eq', Finset.mem_univ, if_true]

/-- A sum over `Fin 38` is the sum over its first 14 indices, its next 16 and its last 8. -/
theorem sum_fin38_split (g : Fin 38 → EReal) :
    ∑ q : Fin 38, g q
      = ((∑ q : Fin 14, g ⟨q.val, by omega⟩) + (∑ q : Fin 16, g ⟨14 + q.val, by omega⟩))
        + (∑ q : Fin 8, g ⟨30 + q.val, by omega⟩) := by
  have h1 : ∑ q : Fin 38, g q
      = (∑ i : Fin 14, g (Fin.castAdd 24 i)) + ∑ i : Fin 24, g (Fin.natAdd 14 i) :=
    Fin.sum_univ_add (a := 14) (b := 24) g
  have h2 : ∑ i : Fin 24, g (Fin.natAdd 14 i)
      = (∑ i : Fin 16, g (Fin.natAdd 14 (Fin.castAdd 8 i)))
        + ∑ i : Fin 8, g (Fin.natAdd 14 (Fin.natAdd 16 i)) :=
    Fin.sum_univ_add (a := 16) (b := 8) (fun i => g (Fin.natAdd 14 i))
  have h3 : ∑ i : Fin 8, g (Fin.natAdd 14 (Fin.natAdd 16 i)) = ∑ q : Fin 8, g ⟨30 + q.val, by omega⟩ := by
    refine Finset.sum_congr rfl fun q _ => congrArg g (Fin.ext ?_)
    show 14 + (16 + q.val) = 30 + q.val
    omega
  rw [h1, h2, h3, ← add_assoc]
  rfl

/-- The concatenated row on its first 14 indices. -/
theorem xrow_lo (bf : Fin 14 → EReal) (re : Fin 16 → EReal) (ie : Fin 8 → EReal) (q : Fin 14) :
    xrow bf re ie ⟨q.val, by omega⟩ = bf q := by
  unfold xrow
  exact dif_pos q.isLt

/-- The concatenated row on its next 16 indices. -/
theorem xrow_mid (bf : Fin 14 → EReal) (re : Fin 16 → EReal) (ie : Fin 8 → EReal) (q : Fin 16) :
    xrow bf re ie ⟨14 + q.val, by omega⟩ = re q := by
  have h1 : ¬ (14 + q.val < 14) := by omega
  have h2 : 14 + q.val < 30 := by omega
  unfold xrow
  show (if h : 14 + q.val < 14 then bf ⟨14 + q.val, h⟩
    else if h2 : 14 + q.val < 30 then re ⟨14 + q.val - 14, by omega⟩ else ie ⟨14 + q.val - 30, by omega⟩) = re q
  rw [dif_neg h1, dif_pos h2]
  exact congrArg re (Fin.ext (by show 14 + q.val - 14 = q.val; omega))

/-- The concatenated row on its last 8 indices. -/
theorem xrow_hi (bf : Fin 14 → EReal) (re : Fin 16 → EReal) (ie : Fin 8 → EReal) (q : Fin 8) :
    xrow bf re ie ⟨30 + q.val, by omega⟩ = ie q := by
  have h1 : ¬ (30 + q.val < 14) := by omega
  have h2 : ¬ (30 + q.val < 30) := by omega
  unfold xrow
  show (if h : 30 + q.val < 14 then bf ⟨30 + q.val, h⟩
    else if h2 : 30 + q.val < 30 then re ⟨30 + q.val - 14, by omega⟩ else ie ⟨30 + q.val - 30, by omega⟩) = ie q
  rw [dif_neg h1, dif_neg h2]
  exact congrArg ie (Fin.ext (by show 30 + q.val - 30 = q.val; omega))

theorem encK_eq_encR (bf : Fin 14 → EReal) (ie : Fin 8 → EReal) (roleE : Fin 8 → Fin 16 → EReal) (ρ : Fin 8)
    (w1 : Fin 38 → Fin 128 → EReal) (b1 : Fin 128 → EReal) (w2 : Fin 128 → Fin 128 → EReal) (b2 : Fin 128 → EReal) (j : Fin 128) :
    encK bf (fun v => if v = ρ then 1 else 0) ie
        (fun v k => ∑ q : Fin 16, roleE v q * w1 ⟨14 + q.val, by omega⟩ k)
        (fun q k => w1 ⟨q.val, by omega⟩ k) (fun q k => w1 ⟨30 + q.val, by omega⟩ k) b1 w2 b2 j
      = encR (xrow bf (roleE ρ) ie) w1 b1 w2 b2 j := by
  unfold encK encR
  congr 1
  congr 1
  refine Finset.sum_congr rfl fun k _ => ?_
  congr 1
  congr 1
  congr 1
  rw [sum_fin38_split (fun q => xrow bf (roleE ρ) ie q * w1 q k),
    sum_onehot_mul ρ (fun v => ∑ q : Fin 16, roleE v q * w1 ⟨14 + q.val, by omega⟩ k)]
  simp only [xrow_lo, xrow_mid, xrow_hi]

end Cert.Spec

end
-- ==== Proof.Glue.lean ====
/-
  Small facts about a role id word in range: a 32-bit word whose signed value lies in [0, 8) is the word of its own
  natural value, that value is below 8, and comparing it with the word of a lane number `v < 8` is comparing `v`
  with that value.
-/
import Mathlib.Data.EReal.Basic

namespace Cert.Glue

theorem toNat_lt_of_range (w : BitVec 32) (h0 : 0 ≤ w.toInt) (h8 : w.toInt < 8) : w.toNat < 8 := by
  have := BitVec.toInt_eq_toNat_cond w
  split at this <;> omega

theorem onehot_eq (w : BitVec 32) (h0 : 0 ≤ w.toInt) (h8 : w.toInt < 8) (v : Fin 8) :
    (if w = BitVec.ofNat 32 v.val then (1 : EReal) else 0)
      = if v = (⟨w.toNat % 8, Nat.mod_lt _ (by decide)⟩ : Fin 8) then 1 else 0 := by
  have hw := toNat_lt_of_range w h0 h8
  have hv := v.isLt
  congr 1
  apply propext
  constructor
  · intro h
    apply Fin.ext
    have : w.toNat = v.val := by
      rw [h, BitVec.toNat_ofNat]; omega
    show v.val = w.toNat % 8
    omega
  · intro h
    have h' : v.val = w.toNat % 8 := congrArg Fin.val h
    apply BitVec.eq_of_toNat_eq
    rw [BitVec.toNat_ofNat]; omega

end Cert.Glue
-- ==== Proof.EmbK.lean ====
/-
  The kernel program's node embedding at entry (r, j), over the launch contents, in the reference's grouping.

  The first dense stage reads the block features, the role id column, the tiled index embedding, the role table
  `role_emb · W1[14:30]`, the feature and index row bands of the first weight, and the second layer's parameters.  Read at
  row r these are: the block features' row, the one-hot row of the role id (a role id in [0, 8) is the word of one lane
  number), row `r mod 1024` of the index embedding, and the bands of the first weight; the row function in the
  three-band grouping is then the row function of the concatenated 38 features against the whole first weight.
-/
import proofs.«414917_j51823075393574_1_alg».proof.Proof.Region0
import proofs.«414917_j51823075393574_1_alg».proof.Proof.KIn0
import proofs.«414917_j51823075393574_1_alg».proof.Proof.SpecMath
import proofs.«414917_j51823075393574_1_alg».proof.Proof.Glue

set_option maxRecDepth 16384

noncomputable section

namespace Cert.KernelIdeal.EmbK

open Cert.KernelIdeal Cert.KernelIdeal.Gen Idealize.ShloMosaic Idealize.ShloMosaic.TcCoe Idealize.ShloMosaic.ValueIdx

variable (m : (ℓ : Loc nD τ sig) → Buf (Elt Ideal) ℓ) (ρ : Dev nD → PrngReg) (c : Dev nD)

theorem emb_eq
    (hr : ∀ r : Fin 100000, 0 ≤ ((m ((c.tc : Thread nD τ).loc main_arg1) : S100000.Idx → BitVec 32) (ix1 r)).toInt ∧ ((m ((c.tc : Thread nD τ).loc main_arg1) : S100000.Idx → BitVec 32) (ix1 r)).toInt < 8)
    (r : Fin 100000) (j : Fin 128) :
    ((dat0 (F := Ideal) (V1 m ρ) c).arrAt 9 cfg0.N : S100000x128.Idx → EReal) (ix2 r j)
      = Cert.Spec.encR
          (Cert.Spec.xrow (fun q => (m ((c.tc : Thread nD τ).loc main_arg0) : S100000x14.Idx → EReal) (ix2 r q))
            (fun q => (m ((c.tc : Thread nD τ).loc main_arg7) : S8x16.Idx → EReal) (ix2 (⟨((m ((c.tc : Thread nD τ).loc main_arg1) : S100000.Idx → BitVec 32) (ix1 r)).toNat % 8, Nat.mod_lt _ (by decide)⟩ : Fin 8) q))
            (fun q => (m ((c.tc : Thread nD τ).loc main_arg8) : S1024x8.Idx → EReal) (ix2 (⟨r.val % 1024, Nat.mod_lt _ (by decide)⟩ : Fin 1024) q)))
          (fun q k => (m ((c.tc : Thread nD τ).loc main_arg9) : S38x128.Idx → EReal) (ix2 q k)) (fun k => (m ((c.tc : Thread nD τ).loc main_arg10) : S128.Idx → EReal) (ix1 k))
          (fun k j => (m ((c.tc : Thread nD τ).loc main_arg11) : S128x128.Idx → EReal) (ix2 k j)) (fun k => (m ((c.tc : Thread nD τ).loc main_arg12) : S128.Idx → EReal) (ix1 k)) j := by
  rw [Region0.emb_at (V1 m ρ) c _ _ _ _ _ _ _ _ _ rfl rfl rfl rfl rfl rfl rfl rfl rfl r j]
  simp only [KIn0.in0 m ρ c, KIn0.in1 m ρ c, KIn0.in2 m ρ c, KIn0.in3 m ρ c, KIn0.in4 m ρ c, KIn0.in5 m ρ c, KIn0.in6 m ρ c,
    KIn0.in7 m ρ c, KIn0.in8 m ρ c, Cert.Glue.onehot_eq _ (hr r).1 (hr r).2]
  exact Cert.Spec.encK_eq_encR (fun q => (m ((c.tc : Thread nD τ).loc main_arg0) : S100000x14.Idx → EReal) (ix2 r q))
    (fun q => (m ((c.tc : Thread nD τ).loc main_arg8) : S1024x8.Idx → EReal) (ix2 (⟨r.val % 1024, Nat.mod_lt _ (by decide)⟩ : Fin 1024) q))
    (fun v q => KIn0.arg7 m c (ix2 v q))
    (⟨((m ((c.tc : Thread nD τ).loc main_arg1) : S100000.Idx → BitVec 32) (ix1 r)).toNat % 8, Nat.mod_lt _ (by decide)⟩ : Fin 8)
    (fun q k => KIn0.arg9 m c (ix2 q k)) (fun k => (m ((c.tc : Thread nD τ).loc main_arg10) : S128.Idx → EReal) (ix1 k))
    (fun k j => (m ((c.tc : Thread nD τ).loc main_arg11) : S128x128.Idx → EReal) (ix2 k j)) (fun k => (m ((c.tc : Thread nD τ).loc main_arg12) : S128.Idx → EReal) (ix1 k)) j

end Cert.KernelIdeal.EmbK

end
-- ==== Proof.RefOps.lean ====
import proofs.«414917_j51823075393574_1_alg».proof.Proof.Gen.ReferenceIdeal
import Idealize.ShloMosaic.Lib.StableHlo.Run

/-! The reference program's @main as four consecutive lists of its host operations, cut where a later reading of the
    result wants an intermediate value: each operation as the program prints it, the operations of a function it calls
    listed at the call over that call's buffers. With each list, that its operations touch TensorCore references only. -/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- 56 operations: the index arithmetic, the two table look-ups, the concatenation and the two dense layers with their rectifiers: everything up to the node embedding (the second rectifier's result). -/
abbrev ops_emb : List (HloOp τ sig (Elt F)) :=
  [ StableHlo.nullary main_c (constantI S_ 32 0#32),
    StableHlo.unary main_c main_v0 (broadcastInDim S100000 ![] bcast_S_S100000 : (⟨S_, .i32⟩ : BufTy).Contents (Elt F) → (⟨S100000, .i32⟩ : BufTy).Contents (Elt F)),
    StableHlo.binary main_arg1 main_v0 main_v1 (cmpi .slt : (⟨S100000, .i32⟩ : BufTy).Contents (Elt F) → (⟨S100000, .i32⟩ : BufTy).Contents (Elt F) → (⟨S100000, .i1⟩ : BufTy).Contents (Elt F)),
    StableHlo.nullary main_c_0 (constantI S_ 32 8#32),
    StableHlo.unary main_c_0 main_v2 (broadcastInDim S100000 ![] bcast_S_S100000 : (⟨S_, .i32⟩ : BufTy).Contents (Elt F) → (⟨S100000, .i32⟩ : BufTy).Contents (Elt F)),
    StableHlo.binary main_arg1 main_v2 main_v3 (addi : (⟨S100000, .i32⟩ : BufTy).Contents (Elt F) → (⟨S100000, .i32⟩ : BufTy).Contents (Elt F) → (⟨S100000, .i32⟩ : BufTy).Contents (Elt F)),
    StableHlo.ternary main_v1 main_v3 main_arg1 main_v4 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.unary main_v4 main_v5 (broadcastInDim S100000x1 ![0] bcast_S100000_S100000x1_0 : (⟨S100000, .i32⟩ : BufTy).Contents (Elt F) → (⟨S100000x1, .i32⟩ : BufTy).Contents (Elt F)),
    StableHlo.binary main_arg7 main_v5 main_v6 ((fun x i => Host.gather gather_S8x16_S100000x1_S100000x16_1_0_n_n_0_1_116 x i) : (⟨S8x16, .f32⟩ : BufTy).Contents (Elt F) → (⟨S100000x1, .i32⟩ : BufTy).Contents (Elt F) → (⟨S100000x16, .f32⟩ : BufTy).Contents (Elt F)),
    StableHlo.nullary main_v7 (iotaInDim S100000 32 0),
    StableHlo.nullary main_c_1 (constantI S_ 32 1024#32),
    StableHlo.TRef.unary (.of main_c_1) main_call0.v0 id,
    StableHlo.TRef.nullary main_call0.c (constantI S_ 32 0#32),
    StableHlo.TRef.binary main_call0.v0 main_call0.c main_call0.v1 (cmpi .eq),
    StableHlo.TRef.nullary main_call0.c_0 (constantI S_ 32 1#32),
    StableHlo.TRef.ternary main_call0.v1 main_call0.c_0 main_call0.v0 main_call0.call0.v0 select,
    StableHlo.TRef.unary main_call0.call0.v0 main_call0.v3 (broadcastInDim S100000 ![] bcast_S_S100000),
    StableHlo.TRef.binary (.of main_v7) main_call0.v3 main_call0.v4 Host.remsi,
    StableHlo.TRef.nullary main_call0.c_1 (constantI S_ 32 0#32),
    StableHlo.TRef.unary main_call0.c_1 main_call0.v5 (broadcastInDim S100000 ![] bcast_S_S100000),
    StableHlo.TRef.binary main_call0.v4 main_call0.v5 main_call0.v6 (cmpi .ne),
    StableHlo.TRef.nullary main_call0.c_2 (constantI S_ 32 0#32),
    StableHlo.TRef.unary main_call0.c_2 main_call0.v7 (broadcastInDim S100000 ![] bcast_S_S100000),
    StableHlo.TRef.binary main_call0.v4 main_call0.v7 main_call0.v8 (cmpi .slt),
    StableHlo.TRef.nullary main_call0.c_3 (constantI S_ 32 0#32),
    StableHlo.TRef.binary main_call0.call0.v0 main_call0.c_3 main_call0.v9 (cmpi .slt),
    StableHlo.TRef.unary main_call0.v9 main_call0.v10 (broadcastInDim S100000 ![] bcast_S_S100000),
    StableHlo.TRef.binary main_call0.v8 main_call0.v10 main_call0.v11 (cmpi .ne),
    StableHlo.TRef.binary main_call0.v11 main_call0.v6 main_call0.v12 andi,
    StableHlo.TRef.unary main_call0.call0.v0 main_call0.v13 (broadcastInDim S100000 ![] bcast_S_S100000),
    StableHlo.TRef.binary main_call0.v4 main_call0.v13 main_call0.v14 addi,
    StableHlo.TRef.ternary main_call0.v12 main_call0.v14 main_call0.v4 main_call0.v15 select,
    StableHlo.nullary main_c_2 (constantI S_ 32 0#32),
    StableHlo.unary main_c_2 main_v9 (broadcastInDim S100000 ![] bcast_S_S100000 : (⟨S_, .i32⟩ : BufTy).Contents (Elt F) → (⟨S100000, .i32⟩ : BufTy).Contents (Elt F)),
    StableHlo.binary main_v8 main_v9 main_v10 (cmpi .slt : (⟨S100000, .i32⟩ : BufTy).Contents (Elt F) → (⟨S100000, .i32⟩ : BufTy).Contents (Elt F) → (⟨S100000, .i1⟩ : BufTy).Contents (Elt F)),
    StableHlo.nullary main_c_3 (constantI S_ 32 1024#32),
    StableHlo.unary main_c_3 main_v11 (broadcastInDim S100000 ![] bcast_S_S100000 : (⟨S_, .i32⟩ : BufTy).Contents (Elt F) → (⟨S100000, .i32⟩ : BufTy).Contents (Elt F)),
    StableHlo.binary main_v8 main_v11 main_v12 (addi : (⟨S100000, .i32⟩ : BufTy).Contents (Elt F) → (⟨S100000, .i32⟩ : BufTy).Contents (Elt F) → (⟨S100000, .i32⟩ : BufTy).Contents (Elt F)),
    StableHlo.ternary main_v10 main_v12 main_v8 main_v13 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.unary main_v13 main_v14 (broadcastInDim S100000x1 ![0] bcast_S100000_S100000x1_0 : (⟨S100000, .i32⟩ : BufTy).Contents (Elt F) → (⟨S100000x1, .i32⟩ : BufTy).Contents (Elt F)),
    StableHlo.binary main_arg8 main_v14 main_v15 ((fun x i => Host.gather gather_S1024x8_S100000x1_S100000x8_1_0_n_n_0_1_18 x i) : (⟨S1024x8, .f32⟩ : BufTy).Contents (Elt F) → (⟨S100000x1, .i32⟩ : BufTy).Contents (Elt F) → (⟨S100000x8, .f32⟩ : BufTy).Contents (Elt F)),
    StableHlo.nary ![main_arg0, main_v6, main_v15] main_v16 (fun u => concatenate S100000x38 1 [⟨S100000x14, u 0⟩, ⟨S100000x16, u 1⟩, ⟨S100000x8, u 2⟩] concatenates_S100000x14_S100000x16_S100000x8_S100000x38_d1),
    StableHlo.binary main_v16 main_arg9 main_v17 ((fun l r => Host.dotGeneral dot_S100000x38_S38x128_S100000x128_1_0_0_1_n_n none l r) : (⟨S100000x38, .f32⟩ : BufTy).Contents (Elt F) → (⟨S38x128, .f32⟩ : BufTy).Contents (Elt F) → (⟨S100000x128, .f32⟩ : BufTy).Contents (Elt F)),
    StableHlo.unary main_arg10 main_v18 (broadcastInDim S1x128 ![1] bcast_S128_S1x128_1 : (⟨S128, .f32⟩ : BufTy).Contents (Elt F) → (⟨S1x128, .f32⟩ : BufTy).Contents (Elt F)),
    StableHlo.unary main_v18 main_v19 (broadcastInDim S100000x128 ![0, 1] bcast_S1x128_S100000x128_0_1 : (⟨S1x128, .f32⟩ : BufTy).Contents (Elt F) → (⟨S100000x128, .f32⟩ : BufTy).Contents (Elt F)),
    StableHlo.binary main_v17 main_v19 main_v20 (addf : (⟨S100000x128, .f32⟩ : BufTy).Contents (Elt F) → (⟨S100000x128, .f32⟩ : BufTy).Contents (Elt F) → (⟨S100000x128, .f32⟩ : BufTy).Contents (Elt F)),
    StableHlo.TRef.nullary main_call1.cst (constant S_ .f32 0x00000000#32),
    StableHlo.TRef.unary main_call1.cst main_call1.v0 (broadcastInDim S100000x128 ![] bcast_S_S100000x128),
    StableHlo.TRef.binary (.of main_v20) main_call1.v0 main_call1.v1 maximumf,
    StableHlo.binary main_v21 main_arg11 main_v22 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg12 main_v23 (broadcastInDim S1x128 ![1] bcast_S128_S1x128_1 : (⟨S128, .f32⟩ : BufTy).Contents (Elt F) → (⟨S1x128, .f32⟩ : BufTy).Contents (Elt F)),
    StableHlo.unary main_v23 main_v24 (broadcastInDim S100000x128 ![0, 1] bcast_S1x128_S100000x128_0_1 : (⟨S1x128, .f32⟩ : BufTy).Contents (Elt F) → (⟨S100000x128, .f32⟩ : BufTy).Contents (Elt F)),
    StableHlo.binary main_v22 main_v24 main_v25 (addf : (⟨S100000x128, .f32⟩ : BufTy).Contents (Elt F) → (⟨S100000x128, .f32⟩ : BufTy).Contents (Elt F) → (⟨S100000x128, .f32⟩ : BufTy).Contents (Elt F)),
    StableHlo.TRef.nullary main_call2.cst (constant S_ .f32 0x00000000#32),
    StableHlo.TRef.unary main_call2.cst main_call2.v0 (broadcastInDim S100000x128 ![] bcast_S_S100000x128),
    StableHlo.TRef.binary (.of main_v25) main_call2.v0 main_call2.v1 maximumf ]

/-- 55 operations: the two scatter-added edge aggregations over the embedding and the scatter-added node weight. -/
abbrev ops_agg : List (HloOp τ sig (Elt F)) :=
  [ StableHlo.nullary main_cst (constant S_ .f32 0x00000000#32),
    StableHlo.unary main_cst main_v27 (broadcastInDim S100000x128 ![] bcast_S_S100000x128 : (⟨S_, .f32⟩ : BufTy).Contents (Elt F) → (⟨S100000x128, .f32⟩ : BufTy).Contents (Elt F)),
    StableHlo.nullary main_c_4 (constantI S_ 32 0#32),
    StableHlo.unary main_c_4 main_v28 (broadcastInDim S1000000 ![] bcast_S_S1000000 : (⟨S_, .i32⟩ : BufTy).Contents (Elt F) → (⟨S1000000, .i32⟩ : BufTy).Contents (Elt F)),
    StableHlo.binary main_arg3 main_v28 main_v29 (cmpi .slt : (⟨S1000000, .i32⟩ : BufTy).Contents (Elt F) → (⟨S1000000, .i32⟩ : BufTy).Contents (Elt F) → (⟨S1000000, .i1⟩ : BufTy).Contents (Elt F)),
    StableHlo.nullary main_c_5 (constantI S_ 32 100000#32),
    StableHlo.unary main_c_5 main_v30 (broadcastInDim S1000000 ![] bcast_S_S1000000 : (⟨S_, .i32⟩ : BufTy).Contents (Elt F) → (⟨S1000000, .i32⟩ : BufTy).Contents (Elt F)),
    StableHlo.binary main_arg3 main_v30 main_v31 (addi : (⟨S1000000, .i32⟩ : BufTy).Contents (Elt F) → (⟨S1000000, .i32⟩ : BufTy).Contents (Elt F) → (⟨S1000000, .i32⟩ : BufTy).Contents (Elt F)),
    StableHlo.ternary main_v29 main_v31 main_arg3 main_v32 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v32 main_v33 (broadcastInDim S1000000x1 ![0] bcast_S1000000_S1000000x1_0 : (⟨S1000000, .i32⟩ : BufTy).Contents (Elt F) → (⟨S1000000x1, .i32⟩ : BufTy).Contents (Elt F)),
    StableHlo.binary main_v26 main_v33 main_v34 ((fun x i => Host.gather gather_S100000x128_S1000000x1_S1000000x128_1_0_n_n_0_1_1128 x i) : (⟨S100000x128, .f32⟩ : BufTy).Contents (Elt F) → (⟨S1000000x1, .i32⟩ : BufTy).Contents (Elt F) → (⟨S1000000x128, .f32⟩ : BufTy).Contents (Elt F)),
    StableHlo.unary main_arg4 main_v35 (broadcastInDim S1000000x1 ![0] bcast_S1000000_S1000000x1_0 : (⟨S1000000, .f32⟩ : BufTy).Contents (Elt F) → (⟨S1000000x1, .f32⟩ : BufTy).Contents (Elt F)),
    StableHlo.unary main_v35 main_v36 (broadcastInDim S1000000x128 ![0, 1] bcast_S1000000x1_S1000000x128_0_1 : (⟨S1000000x1, .f32⟩ : BufTy).Contents (Elt F) → (⟨S1000000x128, .f32⟩ : BufTy).Contents (Elt F)),
    StableHlo.binary main_v34 main_v36 main_v37 (mulf : (⟨S1000000x128, .f32⟩ : BufTy).Contents (Elt F) → (⟨S1000000x128, .f32⟩ : BufTy).Contents (Elt F) → (⟨S1000000x128, .f32⟩ : BufTy).Contents (Elt F)),
    StableHlo.nullary main_c_6 (constantI S_ 32 0#32),
    StableHlo.unary main_c_6 main_v38 (broadcastInDim S1000000 ![] bcast_S_S1000000 : (⟨S_, .i32⟩ : BufTy).Contents (Elt F) → (⟨S1000000, .i32⟩ : BufTy).Contents (Elt F)),
    StableHlo.binary main_arg2 main_v38 main_v39 (cmpi .slt : (⟨S1000000, .i32⟩ : BufTy).Contents (Elt F) → (⟨S1000000, .i32⟩ : BufTy).Contents (Elt F) → (⟨S1000000, .i1⟩ : BufTy).Contents (Elt F)),
    StableHlo.nullary main_c_7 (constantI S_ 32 100000#32),
    StableHlo.unary main_c_7 main_v40 (broadcastInDim S1000000 ![] bcast_S_S1000000 : (⟨S_, .i32⟩ : BufTy).Contents (Elt F) → (⟨S1000000, .i32⟩ : BufTy).Contents (Elt F)),
    StableHlo.binary main_arg2 main_v40 main_v41 (addi : (⟨S1000000, .i32⟩ : BufTy).Contents (Elt F) → (⟨S1000000, .i32⟩ : BufTy).Contents (Elt F) → (⟨S1000000, .i32⟩ : BufTy).Contents (Elt F)),
    StableHlo.ternary main_v39 main_v41 main_arg2 main_v42 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v42 main_v43 (broadcastInDim S1000000x1 ![0] bcast_S1000000_S1000000x1_0 : (⟨S1000000, .i32⟩ : BufTy).Contents (Elt F) → (⟨S1000000x1, .i32⟩ : BufTy).Contents (Elt F)),
    StableHlo.ternary main_v27 main_v43 main_v37 main_v44 ((fun x i u => Host.scatterAdd scatter_S100000x128_S1000000x1_S1000000x128_1_0_0_1 x i u) : (⟨S100000x128, .f32⟩ : BufTy).Contents (Elt F) → (⟨S1000000x1, .i32⟩ : BufTy).Contents (Elt F) → (⟨S1000000x128, .f32⟩ : BufTy).Contents (Elt F) → (⟨S100000x128, .f32⟩ : BufTy).Contents (Elt F)),
    StableHlo.nullary main_c_8 (constantI S_ 32 0#32),
    StableHlo.unary main_c_8 main_v45 (broadcastInDim S1000000 ![] bcast_S_S1000000 : (⟨S_, .i32⟩ : BufTy).Contents (Elt F) → (⟨S1000000, .i32⟩ : BufTy).Contents (Elt F)),
    StableHlo.binary main_arg2 main_v45 main_v46 (cmpi .slt : (⟨S1000000, .i32⟩ : BufTy).Contents (Elt F) → (⟨S1000000, .i32⟩ : BufTy).Contents (Elt F) → (⟨S1000000, .i1⟩ : BufTy).Contents (Elt F)),
    StableHlo.nullary main_c_9 (constantI S_ 32 100000#32),
    StableHlo.unary main_c_9 main_v47 (broadcastInDim S1000000 ![] bcast_S_S1000000 : (⟨S_, .i32⟩ : BufTy).Contents (Elt F) → (⟨S1000000, .i32⟩ : BufTy).Contents (Elt F)),
    StableHlo.binary main_arg2 main_v47 main_v48 (addi : (⟨S1000000, .i32⟩ : BufTy).Contents (Elt F) → (⟨S1000000, .i32⟩ : BufTy).Contents (Elt F) → (⟨S1000000, .i32⟩ : BufTy).Contents (Elt F)),
    StableHlo.ternary main_v46 main_v48 main_arg2 main_v49 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v49 main_v50 (broadcastInDim S1000000x1 ![0] bcast_S1000000_S1000000x1_0 : (⟨S1000000, .i32⟩ : BufTy).Contents (Elt F) → (⟨S1000000x1, .i32⟩ : BufTy).Contents (Elt F)),
    StableHlo.binary main_v26 main_v50 main_v51 ((fun x i => Host.gather gather_S100000x128_S1000000x1_S1000000x128_1_0_n_n_0_1_1128 x i) : (⟨S100000x128, .f32⟩ : BufTy).Contents (Elt F) → (⟨S1000000x1, .i32⟩ : BufTy).Contents (Elt F) → (⟨S1000000x128, .f32⟩ : BufTy).Contents (Elt F)),
    StableHlo.unary main_arg4 main_v52 (broadcastInDim S1000000x1 ![0] bcast_S1000000_S1000000x1_0 : (⟨S1000000, .f32⟩ : BufTy).Contents (Elt F) → (⟨S1000000x1, .f32⟩ : BufTy).Contents (Elt F)),
    StableHlo.unary main_v52 main_v53 (broadcastInDim S1000000x128 ![0, 1] bcast_S1000000x1_S1000000x128_0_1 : (⟨S1000000x1, .f32⟩ : BufTy).Contents (Elt F) → (⟨S1000000x128, .f32⟩ : BufTy).Contents (Elt F)),
    StableHlo.binary main_v51 main_v53 main_v54 (mulf : (⟨S1000000x128, .f32⟩ : BufTy).Contents (Elt F) → (⟨S1000000x128, .f32⟩ : BufTy).Contents (Elt F) → (⟨S1000000x128, .f32⟩ : BufTy).Contents (Elt F)),
    StableHlo.nullary main_c_10 (constantI S_ 32 0#32),
    StableHlo.unary main_c_10 main_v55 (broadcastInDim S1000000 ![] bcast_S_S1000000 : (⟨S_, .i32⟩ : BufTy).Contents (Elt F) → (⟨S1000000, .i32⟩ : BufTy).Contents (Elt F)),
    StableHlo.binary main_arg3 main_v55 main_v56 (cmpi .slt : (⟨S1000000, .i32⟩ : BufTy).Contents (Elt F) → (⟨S1000000, .i32⟩ : BufTy).Contents (Elt F) → (⟨S1000000, .i1⟩ : BufTy).Contents (Elt F)),
    StableHlo.nullary main_c_11 (constantI S_ 32 100000#32),
    StableHlo.unary main_c_11 main_v57 (broadcastInDim S1000000 ![] bcast_S_S1000000 : (⟨S_, .i32⟩ : BufTy).Contents (Elt F) → (⟨S1000000, .i32⟩ : BufTy).Contents (Elt F)),
    StableHlo.binary main_arg3 main_v57 main_v58 (addi : (⟨S1000000, .i32⟩ : BufTy).Contents (Elt F) → (⟨S1000000, .i32⟩ : BufTy).Contents (Elt F) → (⟨S1000000, .i32⟩ : BufTy).Contents (Elt F)),
    StableHlo.ternary main_v56 main_v58 main_arg3 main_v59 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v59 main_v60 (broadcastInDim S1000000x1 ![0] bcast_S1000000_S1000000x1_0 : (⟨S1000000, .i32⟩ : BufTy).Contents (Elt F) → (⟨S1000000x1, .i32⟩ : BufTy).Contents (Elt F)),
    StableHlo.ternary main_v44 main_v60 main_v54 main_v61 ((fun x i u => Host.scatterAdd scatter_S100000x128_S1000000x1_S1000000x128_1_0_0_1 x i u) : (⟨S100000x128, .f32⟩ : BufTy).Contents (Elt F) → (⟨S1000000x1, .i32⟩ : BufTy).Contents (Elt F) → (⟨S1000000x128, .f32⟩ : BufTy).Contents (Elt F) → (⟨S100000x128, .f32⟩ : BufTy).Contents (Elt F)),
    StableHlo.nullary main_cst_12 (constant S_ .f32 0x00000000#32),
    StableHlo.unary main_cst_12 main_v62 (broadcastInDim S100000 ![] bcast_S_S100000 : (⟨S_, .f32⟩ : BufTy).Contents (Elt F) → (⟨S100000, .f32⟩ : BufTy).Contents (Elt F)),
    StableHlo.nullary main_c_13 (constantI S_ 32 0#32),
    StableHlo.unary main_c_13 main_v63 (broadcastInDim S1000000 ![] bcast_S_S1000000 : (⟨S_, .i32⟩ : BufTy).Contents (Elt F) → (⟨S1000000, .i32⟩ : BufTy).Contents (Elt F)),
    StableHlo.binary main_arg5 main_v63 main_v64 (cmpi .slt : (⟨S1000000, .i32⟩ : BufTy).Contents (Elt F) → (⟨S1000000, .i32⟩ : BufTy).Contents (Elt F) → (⟨S1000000, .i1⟩ : BufTy).Contents (Elt F)),
    StableHlo.nullary main_c_14 (constantI S_ 32 100000#32),
    StableHlo.unary main_c_14 main_v65 (broadcastInDim S1000000 ![] bcast_S_S1000000 : (⟨S_, .i32⟩ : BufTy).Contents (Elt F) → (⟨S1000000, .i32⟩ : BufTy).Contents (Elt F)),
    StableHlo.binary main_arg5 main_v65 main_v66 (addi : (⟨S1000000, .i32⟩ : BufTy).Contents (Elt F) → (⟨S1000000, .i32⟩ : BufTy).Contents (Elt F) → (⟨S1000000, .i32⟩ : BufTy).Contents (Elt F)),
    StableHlo.ternary main_v64 main_v66 main_arg5 main_v67 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v67 main_v68 (broadcastInDim S1000000x1 ![0] bcast_S1000000_S1000000x1_0 : (⟨S1000000, .i32⟩ : BufTy).Contents (Elt F) → (⟨S1000000x1, .i32⟩ : BufTy).Contents (Elt F)),
    StableHlo.ternary main_v62 main_v68 main_arg6 main_v69 ((fun x i u => Host.scatterAdd scatter_S100000_S1000000x1_S1000000_n_0_0_1 x i u) : (⟨S100000, .f32⟩ : BufTy).Contents (Elt F) → (⟨S1000000x1, .i32⟩ : BufTy).Contents (Elt F) → (⟨S1000000, .f32⟩ : BufTy).Contents (Elt F) → (⟨S100000, .f32⟩ : BufTy).Contents (Elt F)) ]

/-- 45 operations: the weighted self term, the two dense layers of the update, the residual and the layer normalisation with its scale and shift. -/
abbrev ops_out : List (HloOp τ sig (Elt F)) :=
  [ StableHlo.unary main_v69 main_v70 (broadcastInDim S100000x1 ![0] bcast_S100000_S100000x1_0 : (⟨S100000, .f32⟩ : BufTy).Contents (Elt F) → (⟨S100000x1, .f32⟩ : BufTy).Contents (Elt F)),
    StableHlo.unary main_v70 main_v71 (broadcastInDim S100000x128 ![0, 1] bcast_S100000x1_S100000x128_0_1 : (⟨S100000x1, .f32⟩ : BufTy).Contents (Elt F) → (⟨S100000x128, .f32⟩ : BufTy).Contents (Elt F)),
    StableHlo.binary main_v26 main_v71 main_v72 (mulf : (⟨S100000x128, .f32⟩ : BufTy).Contents (Elt F) → (⟨S100000x128, .f32⟩ : BufTy).Contents (Elt F) → (⟨S100000x128, .f32⟩ : BufTy).Contents (Elt F)),
    StableHlo.binary main_v61 main_v72 main_v73 (addf : (⟨S100000x128, .f32⟩ : BufTy).Contents (Elt F) → (⟨S100000x128, .f32⟩ : BufTy).Contents (Elt F) → (⟨S100000x128, .f32⟩ : BufTy).Contents (Elt F)),
    StableHlo.binary main_v73 main_arg13 main_v74 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg14 main_v75 (broadcastInDim S1x128 ![1] bcast_S128_S1x128_1 : (⟨S128, .f32⟩ : BufTy).Contents (Elt F) → (⟨S1x128, .f32⟩ : BufTy).Contents (Elt F)),
    StableHlo.unary main_v75 main_v76 (broadcastInDim S100000x128 ![0, 1] bcast_S1x128_S100000x128_0_1 : (⟨S1x128, .f32⟩ : BufTy).Contents (Elt F) → (⟨S100000x128, .f32⟩ : BufTy).Contents (Elt F)),
    StableHlo.binary main_v74 main_v76 main_v77 (addf : (⟨S100000x128, .f32⟩ : BufTy).Contents (Elt F) → (⟨S100000x128, .f32⟩ : BufTy).Contents (Elt F) → (⟨S100000x128, .f32⟩ : BufTy).Contents (Elt F)),
    StableHlo.TRef.nullary main_call3.cst (constant S_ .f32 0x00000000#32),
    StableHlo.TRef.unary main_call3.cst main_call3.v0 (broadcastInDim S100000x128 ![] bcast_S_S100000x128),
    StableHlo.TRef.binary (.of main_v77) main_call3.v0 main_call3.v1 maximumf,
    StableHlo.binary main_v78 main_arg15 main_v79 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg16 main_v80 (broadcastInDim S1x128 ![1] bcast_S128_S1x128_1 : (⟨S128, .f32⟩ : BufTy).Contents (Elt F) → (⟨S1x128, .f32⟩ : BufTy).Contents (Elt F)),
    StableHlo.unary main_v80 main_v81 (broadcastInDim S100000x128 ![0, 1] bcast_S1x128_S100000x128_0_1 : (⟨S1x128, .f32⟩ : BufTy).Contents (Elt F) → (⟨S100000x128, .f32⟩ : BufTy).Contents (Elt F)),
    StableHlo.binary main_v79 main_v81 main_v82 (addf : (⟨S100000x128, .f32⟩ : BufTy).Contents (Elt F) → (⟨S100000x128, .f32⟩ : BufTy).Contents (Elt F) → (⟨S100000x128, .f32⟩ : BufTy).Contents (Elt F)),
    StableHlo.binary main_v26 main_v82 main_v83 (addf : (⟨S100000x128, .f32⟩ : BufTy).Contents (Elt F) → (⟨S100000x128, .f32⟩ : BufTy).Contents (Elt F) → (⟨S100000x128, .f32⟩ : BufTy).Contents (Elt F)),
    StableHlo.nullary main_cst_15 (constant S_ .f32 0x00000000#32),
    StableHlo.binary main_v83 main_cst_15 main_v84 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    StableHlo.unary main_v84 main_v85 (broadcastInDim S100000x1 ![0] bcast_S100000_S100000x1_0 : (⟨S100000, .f32⟩ : BufTy).Contents (Elt F) → (⟨S100000x1, .f32⟩ : BufTy).Contents (Elt F)),
    StableHlo.nullary main_cst_16 (constant S_ .f32 0x43000000#32),
    StableHlo.unary main_cst_16 main_v86 (broadcastInDim S100000x1 ![] bcast_S_S100000x1 : (⟨S_, .f32⟩ : BufTy).Contents (Elt F) → (⟨S100000x1, .f32⟩ : BufTy).Contents (Elt F)),
    StableHlo.binary main_v85 main_v86 main_v87 (Host.divf : (⟨S100000x1, .f32⟩ : BufTy).Contents (Elt F) → (⟨S100000x1, .f32⟩ : BufTy).Contents (Elt F) → (⟨S100000x1, .f32⟩ : BufTy).Contents (Elt F)),
    StableHlo.unary main_v87 main_v88 (broadcastInDim S100000x128 ![0, 1] bcast_S100000x1_S100000x128_0_1 : (⟨S100000x1, .f32⟩ : BufTy).Contents (Elt F) → (⟨S100000x128, .f32⟩ : BufTy).Contents (Elt F)),
    StableHlo.binary main_v83 main_v88 main_v89 (subf : (⟨S100000x128, .f32⟩ : BufTy).Contents (Elt F) → (⟨S100000x128, .f32⟩ : BufTy).Contents (Elt F) → (⟨S100000x128, .f32⟩ : BufTy).Contents (Elt F)),
    StableHlo.binary main_v89 main_v89 main_v90 (mulf : (⟨S100000x128, .f32⟩ : BufTy).Contents (Elt F) → (⟨S100000x128, .f32⟩ : BufTy).Contents (Elt F) → (⟨S100000x128, .f32⟩ : BufTy).Contents (Elt F)),
    StableHlo.nullary main_cst_17 (constant S_ .f32 0x00000000#32),
    StableHlo.binary main_v90 main_cst_17 main_v91 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    StableHlo.unary main_v91 main_v92 (broadcastInDim S100000x1 ![0] bcast_S100000_S100000x1_0 : (⟨S100000, .f32⟩ : BufTy).Contents (Elt F) → (⟨S100000x1, .f32⟩ : BufTy).Contents (Elt F)),
    StableHlo.nullary main_cst_18 (constant S_ .f32 0x43000000#32),
    StableHlo.unary main_cst_18 main_v93 (broadcastInDim S100000x1 ![] bcast_S_S100000x1 : (⟨S_, .f32⟩ : BufTy).Contents (Elt F) → (⟨S100000x1, .f32⟩ : BufTy).Contents (Elt F)),
    StableHlo.binary main_v92 main_v93 main_v94 (Host.divf : (⟨S100000x1, .f32⟩ : BufTy).Contents (Elt F) → (⟨S100000x1, .f32⟩ : BufTy).Contents (Elt F) → (⟨S100000x1, .f32⟩ : BufTy).Contents (Elt F)),
    StableHlo.unary main_v87 main_v95 (broadcastInDim S100000x128 ![0, 1] bcast_S100000x1_S100000x128_0_1 : (⟨S100000x1, .f32⟩ : BufTy).Contents (Elt F) → (⟨S100000x128, .f32⟩ : BufTy).Contents (Elt F)),
    StableHlo.binary main_v83 main_v95 main_v96 (subf : (⟨S100000x128, .f32⟩ : BufTy).Contents (Elt F) → (⟨S100000x128, .f32⟩ : BufTy).Contents (Elt F) → (⟨S100000x128, .f32⟩ : BufTy).Contents (Elt F)),
    StableHlo.nullary main_cst_19 (constant S_ .f32 0x3727C5AC#32),
    StableHlo.unary main_cst_19 main_v97 (broadcastInDim S100000x1 ![] bcast_S_S100000x1 : (⟨S_, .f32⟩ : BufTy).Contents (Elt F) → (⟨S100000x1, .f32⟩ : BufTy).Contents (Elt F)),
    StableHlo.binary main_v94 main_v97 main_v98 (addf : (⟨S100000x1, .f32⟩ : BufTy).Contents (Elt F) → (⟨S100000x1, .f32⟩ : BufTy).Contents (Elt F) → (⟨S100000x1, .f32⟩ : BufTy).Contents (Elt F)),
    StableHlo.unary main_v98 main_v99 (Host.rsqrt : (⟨S100000x1, .f32⟩ : BufTy).Contents (Elt F) → (⟨S100000x1, .f32⟩ : BufTy).Contents (Elt F)),
    StableHlo.unary main_v99 main_v100 (broadcastInDim S100000x128 ![0, 1] bcast_S100000x1_S100000x128_0_1 : (⟨S100000x1, .f32⟩ : BufTy).Contents (Elt F) → (⟨S100000x128, .f32⟩ : BufTy).Contents (Elt F)),
    StableHlo.binary main_v96 main_v100 main_v101 (mulf : (⟨S100000x128, .f32⟩ : BufTy).Contents (Elt F) → (⟨S100000x128, .f32⟩ : BufTy).Contents (Elt F) → (⟨S100000x128, .f32⟩ : BufTy).Contents (Elt F)),
    StableHlo.unary main_arg17 main_v102 (broadcastInDim S1x128 ![1] bcast_S128_S1x128_1 : (⟨S128, .f32⟩ : BufTy).Contents (Elt F) → (⟨S1x128, .f32⟩ : BufTy).Contents (Elt F)),
    StableHlo.unary main_v102 main_v103 (broadcastInDim S100000x128 ![0, 1] bcast_S1x128_S100000x128_0_1 : (⟨S1x128, .f32⟩ : BufTy).Contents (Elt F) → (⟨S100000x128, .f32⟩ : BufTy).Contents (Elt F)),
    StableHlo.binary main_v101 main_v103 main_v104 (mulf : (⟨S100000x128, .f32⟩ : BufTy).Contents (Elt F) → (⟨S100000x128, .f32⟩ : BufTy).Contents (Elt F) → (⟨S100000x128, .f32⟩ : BufTy).Contents (Elt F)),
    StableHlo.unary main_arg18 main_v105 (broadcastInDim S1x128 ![1] bcast_S128_S1x128_1 : (⟨S128, .f32⟩ : BufTy).Contents (Elt F) → (⟨S1x128, .f32⟩ : BufTy).Contents (Elt F)),
    StableHlo.unary main_v105 main_v106 (broadcastInDim S100000x128 ![0, 1] bcast_S1x128_S100000x128_0_1 : (⟨S1x128, .f32⟩ : BufTy).Contents (Elt F) → (⟨S100000x128, .f32⟩ : BufTy).Contents (Elt F)),
    StableHlo.binary main_v104 main_v106 main_v107 (addf : (⟨S100000x128, .f32⟩ : BufTy).Contents (Elt F) → (⟨S100000x128, .f32⟩ : BufTy).Contents (Elt F) → (⟨S100000x128, .f32⟩ : BufTy).Contents (Elt F)) ]

/-- 5 operations: the mean of the result over the nodes. -/
abbrev ops_mean : List (HloOp τ sig (Elt F)) :=
  [ StableHlo.nullary main_cst_20 (constant S_ .f32 0x00000000#32),
    StableHlo.binary main_v107 main_cst_20 main_v108 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_21 (constant S_ .f32 0x47C35000#32),
    StableHlo.unary main_cst_21 main_v109 (broadcastInDim S128 ![] bcast_S_S128 : (⟨S_, .f32⟩ : BufTy).Contents (Elt F) → (⟨S128, .f32⟩ : BufTy).Contents (Elt F)),
    StableHlo.binary main_v108 main_v109 main_v110 (Host.divf : (⟨S128, .f32⟩ : BufTy).Contents (Elt F) → (⟨S128, .f32⟩ : BufTy).Contents (Elt F) → (⟨S128, .f32⟩ : BufTy).Contents (Elt F)) ]

theorem ops_emb_sub : (ops_emb : List (HloOp τ sig (Elt F))).Forall fun op => op.bufs ⊆ StableHlo.tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., nullary_bufs_sub .., unary_bufs_sub ..,
    nullary_bufs_sub .., binary_bufs_sub .., nullary_bufs_sub .., ternary_bufs_sub .., unary_bufs_sub .., binary_bufs_sub ..,
    nullary_bufs_sub .., unary_bufs_sub .., binary_bufs_sub .., nullary_bufs_sub .., unary_bufs_sub .., binary_bufs_sub ..,
    nullary_bufs_sub .., binary_bufs_sub .., unary_bufs_sub .., binary_bufs_sub .., binary_bufs_sub .., unary_bufs_sub ..,
    binary_bufs_sub .., ternary_bufs_sub .., nullary_bufs_sub .., unary_bufs_sub .., binary_bufs_sub .., nullary_bufs_sub ..,
    unary_bufs_sub .., binary_bufs_sub .., ternary_bufs_sub .., unary_bufs_sub .., binary_bufs_sub .., nary_bufs_sub ..,
    binary_bufs_sub .., unary_bufs_sub .., unary_bufs_sub .., binary_bufs_sub .., nullary_bufs_sub .., unary_bufs_sub ..,
    binary_bufs_sub .., binary_bufs_sub .., unary_bufs_sub .., unary_bufs_sub .., binary_bufs_sub .., nullary_bufs_sub ..,
    unary_bufs_sub .., binary_bufs_sub ..⟩

theorem ops_agg_sub : (ops_agg : List (HloOp τ sig (Elt F))).Forall fun op => op.bufs ⊆ StableHlo.tcRefs τ sig :=
  ⟨nullary_bufs_sub .., unary_bufs_sub .., nullary_bufs_sub .., unary_bufs_sub .., binary_bufs_sub .., nullary_bufs_sub ..,
    unary_bufs_sub .., binary_bufs_sub .., ternary_bufs_sub .., unary_bufs_sub .., binary_bufs_sub .., unary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., ternary_bufs_sub .., nullary_bufs_sub ..,
    unary_bufs_sub .., binary_bufs_sub .., nullary_bufs_sub .., unary_bufs_sub .., binary_bufs_sub .., ternary_bufs_sub ..,
    unary_bufs_sub .., binary_bufs_sub .., unary_bufs_sub .., unary_bufs_sub .., binary_bufs_sub .., nullary_bufs_sub ..,
    unary_bufs_sub .., binary_bufs_sub .., nullary_bufs_sub .., unary_bufs_sub .., binary_bufs_sub .., ternary_bufs_sub ..,
    unary_bufs_sub .., ternary_bufs_sub .., nullary_bufs_sub .., unary_bufs_sub .., nullary_bufs_sub .., unary_bufs_sub ..,
    binary_bufs_sub .., nullary_bufs_sub .., unary_bufs_sub .., binary_bufs_sub .., ternary_bufs_sub .., unary_bufs_sub ..,
    ternary_bufs_sub ..⟩

theorem ops_out_sub : (ops_out : List (HloOp τ sig (Elt F))).Forall fun op => op.bufs ⊆ StableHlo.tcRefs τ sig :=
  ⟨unary_bufs_sub .., unary_bufs_sub .., binary_bufs_sub .., binary_bufs_sub .., binary_bufs_sub .., unary_bufs_sub ..,
    unary_bufs_sub .., binary_bufs_sub .., nullary_bufs_sub .., unary_bufs_sub .., binary_bufs_sub .., binary_bufs_sub ..,
    unary_bufs_sub .., unary_bufs_sub .., binary_bufs_sub .., binary_bufs_sub .., nullary_bufs_sub .., binary_bufs_sub ..,
    unary_bufs_sub .., nullary_bufs_sub .., unary_bufs_sub .., binary_bufs_sub .., unary_bufs_sub .., binary_bufs_sub ..,
    binary_bufs_sub .., nullary_bufs_sub .., binary_bufs_sub .., unary_bufs_sub .., nullary_bufs_sub .., unary_bufs_sub ..,
    binary_bufs_sub .., unary_bufs_sub .., binary_bufs_sub .., nullary_bufs_sub .., unary_bufs_sub .., binary_bufs_sub ..,
    unary_bufs_sub .., unary_bufs_sub .., binary_bufs_sub .., unary_bufs_sub .., unary_bufs_sub .., binary_bufs_sub ..,
    unary_bufs_sub .., unary_bufs_sub .., binary_bufs_sub ..⟩

theorem ops_mean_sub : (ops_mean : List (HloOp τ sig (Elt F))).Forall fun op => op.bufs ⊆ StableHlo.tcRefs τ sig :=
  ⟨nullary_bufs_sub .., binary_bufs_sub .., nullary_bufs_sub .., unary_bufs_sub .., binary_bufs_sub ..⟩

end Cert.ReferenceIdeal.RefRun

end
-- ==== Proof.RefRun.lean ====
import proofs.«414917_j51823075393574_1_alg».proof.Proof.RefOps

/-! The reference program's run. Its @main is printed as three windows; each window is a straight line of host operations
    once the functions it calls are unfolded at their calls, so each is Lib/StableHlo/Run.lean's seq of a slice of the four lists of
    RefOps.lean, and the three in a row are seq of the four lists' concatenation. run_seq then gives: every weakly fair
    execution terminates with each TensorCore buffer at the fold of the operations over the launch contents, and the fold
    over the concatenation is the four folds one after the other. -/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The windows as slices

The first window holds statements 1 … 60: all of ops_emb and the first 28 operations of ops_agg; the second statements
61 … 120: the other 27 of ops_agg and the first 35 of ops_out; the third the last 10 of ops_out and ops_mean. -/

set_option maxRecDepth 4096 in
theorem main_part0_eq (c : Dev nD) : main_part0 (F := F) c = seq (ops_emb ++ ops_agg.take 28) := by
  simp only [main_part0, fn_remainder.body, fn_where.body, fn_relu.body, bind_assoc, pure_bind]
  rfl

set_option maxRecDepth 4096 in
theorem main_part1_eq (c : Dev nD) : main_part1 (F := F) c = seq (ops_agg.drop 28 ++ ops_out.take 35) := by
  simp only [main_part1, fn_relu.body, bind_assoc, pure_bind]
  rfl

set_option maxRecDepth 4096 in
theorem main_part2_eq (c : Dev nD) : main_part2 (F := F) c = seq (ops_out.drop 35 ++ ops_mean) := by
  simp only [main_part2, bind_assoc, pure_bind]
  rfl

/-- The three slices in a row are the four lists in a row: a list is its first n elements followed by the rest. -/
theorem slices_eq : (ops_emb ++ ops_agg.take 28) ++ ((ops_agg.drop 28 ++ ops_out.take 35) ++ (ops_out.drop 35 ++ ops_mean))
    = (ops_emb ++ ops_agg ++ ops_out ++ ops_mean : List (HloOp τ sig (Elt F))) := by
  have h (n : Nat) (l r : List (HloOp τ sig (Elt F))) : l.take n ++ (l.drop n ++ r) = l ++ r := by
    rw [← List.append_assoc, List.take_append_drop]
  rw [List.append_assoc, List.append_assoc, h, h]
  simp only [List.append_assoc]

/-- @main is the straight line of the four lists' operations. -/
theorem main_eq (c : Dev nD) : main (F := F) c = seq (ops_emb ++ ops_agg ++ ops_out ++ ops_mean) := by
  rw [← slices_eq, seq_append (ops_emb ++ ops_agg.take 28), seq_append (ops_agg.drop 28 ++ ops_out.take 35),
    ← main_part0_eq c, ← main_part1_eq c, ← main_part2_eq c]
  rfl

/-! ## The run -/

theorem scopedRefs_eq : (Finset.univ.filter fun b : Ref sig .tc => b.isScoped) = ∅ := by decide
theorem scopedSems_eq : (Finset.univ.filter fun sm : SemLoc sig => sm.isScoped .tc) = ∅ := by decide

theorem ops_sub : (ops_emb ++ ops_agg ++ ops_out ++ ops_mean : List (HloOp τ sig (Elt F))).Forall fun op => op.bufs ⊆ tcRefs τ sig :=
  List.forall_append.mpr ⟨List.forall_append.mpr ⟨List.forall_append.mpr ⟨ops_emb_sub, ops_agg_sub⟩, ops_out_sub⟩, ops_mean_sub⟩

/-- Every operation of a list determines its results: by computation, operation by operation. -/
theorem ops_emb_fresh : ∀ op ∈ (ops_emb : List (HloOp τ sig (Elt F))), op.fresh = ∅ := by
  intro _ h; (repeat (cases h with | head => rfl | tail _ h => ?_)); exact nomatch h
theorem ops_agg_fresh : ∀ op ∈ (ops_agg : List (HloOp τ sig (Elt F))), op.fresh = ∅ := by
  intro _ h; (repeat (cases h with | head => rfl | tail _ h => ?_)); exact nomatch h
theorem ops_out_fresh : ∀ op ∈ (ops_out : List (HloOp τ sig (Elt F))), op.fresh = ∅ := by
  intro _ h; (repeat (cases h with | head => rfl | tail _ h => ?_)); exact nomatch h
theorem ops_mean_fresh : ∀ op ∈ (ops_mean : List (HloOp τ sig (Elt F))), op.fresh = ∅ := by
  intro _ h; (repeat (cases h with | head => rfl | tail _ h => ?_)); exact nomatch h

theorem ops_fresh : ∀ op ∈ (ops_emb ++ ops_agg ++ ops_out ++ ops_mean : List (HloOp τ sig (Elt F))), op.fresh = ∅ := by
  intro op h
  rcases List.mem_append.mp h with h | h
  · rcases List.mem_append.mp h with h | h
    · rcases List.mem_append.mp h with h | h
      · exact ops_emb_fresh op h
      · exact ops_agg_fresh op h
    · exact ops_out_fresh op h
  · exact ops_mean_fresh op h

/-- On the compiled mesh, for any float values, from any memory with zero counters: every weakly fair execution of @main
    on the TensorCore terminates, and every final state has each TensorCore buffer at the fold of the four lists'
    operations, in order, over the launch contents. -/
theorem run (m : (ℓ : Loc nD τ sig) → Buf (Elt F) ℓ) (ρ : Dev nD → PrngReg) :
    θ_run defs (onTc (τ := τ) (main (F := F))) ⟨m, fun _ => 0, ρ⟩ fun r => ∀ (d : Dev nD) (b : Ref sig .tc),
      r.2.mem ((d.tc : Thread nD τ).loc b)
        = after (ops_emb ++ ops_agg ++ ops_out ++ ops_mean) (launchContents m d) (Proc.devRef .tc b) :=
  run_seq scopedRefs_eq scopedSems_eq defs main (fun _ => ops_emb ++ ops_agg ++ ops_out ++ ops_mean) main_eq
    (fun _ => ops_sub) m ρ (fun _ => ops_fresh)

/-! ## The fold, stage by stage -/

/-- The fold over two lines in a row is the second line's fold of the first's. -/
theorem after_append (l₁ l₂ : List (HloOp τ sig (Elt F))) (V : Valuation τ sig (Elt F)) :
    after (l₁ ++ l₂) V = after l₂ (after l₁ V) := by
  induction l₁ generalizing V with
  | nil => rfl
  | cons op l ih => rw [List.cons_append, after_cons, after_cons, ih]

theorem after_split (W : Valuation τ sig (Elt F)) :
    after (ops_emb ++ ops_agg ++ ops_out ++ ops_mean) W
      = after ops_mean (after ops_out (after ops_agg (after ops_emb W))) := by
  rw [after_append, after_append, after_append]

end Cert.ReferenceIdeal.RefRun

end
-- ==== Proof.RefChains.lean ====
/-
  The reference program's three chains of host operations that the other program also runs — the two rounds of edge
  aggregation, the per-node sum of pin weights, the mean over the nodes — each as one composed term of the arrays its
  list of operations reads; and, for each of the four lists of RefOps.lean, the buffers its operations do not write.
  Every statement is about ONE list applied to arbitrary contents.
-/
import proofs.«414917_j51823075393574_1_alg».proof.Proof.RefOps
import proofs.«414917_j51823075393574_1_alg».proof.Proof.Spec

set_option maxRecDepth 16384
set_option Elab.async false

noncomputable section

namespace Cert.ReferenceIdeal.RefChains

open Cert.ReferenceIdeal Cert.ReferenceIdeal.Gen Cert.ReferenceIdeal.RefRun Idealize.ShloMosaic Idealize.ShloMosaic.TcCoe Idealize.SL.Sem Idealize.ShloMosaic.StableHlo

variable {F : FTy → Type} [FloatOps F]

/-! ## The three chains shared with the other program

Each is the composition of the printed host operations, in the order and the spelling the fold over the list leaves
them, over the arrays the list reads. Nothing is simplified: the same operations composed from another program's list
are to be recognised as the same term. -/

/-- The two rounds of edge aggregation: from the zero array, the rows of the embedding gathered at the edges'
    destinations, each scaled by its edge weight, are added in at the edges' sources; then the rows gathered at the
    sources, scaled the same way, are added in at the destinations. -/
def aggR (emb : FVec F S100000x128 .f32) (src dst : IVec S1000000 32) (w : FVec F S1000000 .f32) : FVec F S100000x128 .f32 :=
  Host.scatterAdd scatter_S100000x128_S1000000x1_S1000000x128_1_0_0_1
    (Host.scatterAdd scatter_S100000x128_S1000000x1_S1000000x128_1_0_0_1
      (broadcastInDim S100000x128 ![] bcast_S_S100000x128 (constant S_ .f32 0x00000000#32))
      (broadcastInDim S1000000x1 ![0] bcast_S1000000_S1000000x1_0
        (select (cmpi .slt src (broadcastInDim S1000000 ![] bcast_S_S1000000 (constantI S_ 32 0#32)))
          (addi src (broadcastInDim S1000000 ![] bcast_S_S1000000 (constantI S_ 32 100000#32))) src))
      (mulf
        (Host.gather gather_S100000x128_S1000000x1_S1000000x128_1_0_n_n_0_1_1128 emb
          (broadcastInDim S1000000x1 ![0] bcast_S1000000_S1000000x1_0
        (select (cmpi .slt dst (broadcastInDim S1000000 ![] bcast_S_S1000000 (constantI S_ 32 0#32)))
          (addi dst (broadcastInDim S1000000 ![] bcast_S_S1000000 (constantI S_ 32 100000#32))) dst)))
        (broadcastInDim S1000000x128 ![0, 1] bcast_S1000000x1_S1000000x128_0_1
          (broadcastInDim S1000000x1 ![0] bcast_S1000000_S1000000x1_0 w))))
    (broadcastInDim S1000000x1 ![0] bcast_S1000000_S1000000x1_0
        (select (cmpi .slt dst (broadcastInDim S1000000 ![] bcast_S_S1000000 (constantI S_ 32 0#32)))
          (addi dst (broadcastInDim S1000000 ![] bcast_S_S1000000 (constantI S_ 32 100000#32))) dst))
    (mulf
      (Host.gather gather_S100000x128_S1000000x1_S1000000x128_1_0_n_n_0_1_1128 emb
        (broadcastInDim S1000000x1 ![0] bcast_S1000000_S1000000x1_0
        (select (cmpi .slt src (broadcastInDim S1000000 ![] bcast_S_S1000000 (constantI S_ 32 0#32)))
          (addi src (broadcastInDim S1000000 ![] bcast_S_S1000000 (constantI S_ 32 100000#32))) src)))
      (broadcastInDim S1000000x128 ![0, 1] bcast_S1000000x1_S1000000x128_0_1
        (broadcastInDim S1000000x1 ![0] bcast_S1000000_S1000000x1_0 w)))

/-- The pin weights added up per node: from the zero vector, each pin's weight is added in at its block. -/
def pwR (blk : IVec S1000000 32) (w : FVec F S1000000 .f32) : FVec F S100000 .f32 :=
  Host.scatterAdd scatter_S100000_S1000000x1_S1000000_n_0_0_1
    (broadcastInDim S100000 ![] bcast_S_S100000 (constant S_ .f32 0x00000000#32))
    (broadcastInDim S1000000x1 ![0] bcast_S1000000_S1000000x1_0
        (select (cmpi .slt blk (broadcastInDim S1000000 ![] bcast_S_S1000000 (constantI S_ 32 0#32)))
          (addi blk (broadcastInDim S1000000 ![] bcast_S_S1000000 (constantI S_ 32 100000#32))) blk))
    w

/-- The mean over the nodes: the rows summed from zero, divided by the row count 100000 broadcast along the columns. -/
def meanR (x : FVec F S100000x128 .f32) : FVec F S128 .f32 :=
  Host.divf (Host.reduceAdd x (constant S_ .f32 0x00000000#32) reducesTo_S100000x128_S128_d0 h_S_)
    (broadcastInDim S128 ![] bcast_S_S128 (constant S_ .f32 0x47C35000#32))

/-- The aggregated array after the list ops_agg, from any contents: the two rounds over the embedding, the edges'
    ends and the edge weights that the list finds. -/
theorem agg_val (W : Valuation τ sig (Elt F)) :
    StableHlo.after ops_agg W (Proc.devRef .tc main_v61)
      = aggR (W (Proc.devRef .tc main_v26)) (W (Proc.devRef .tc main_arg2)) (W (Proc.devRef .tc main_arg3))
          (W (Proc.devRef .tc main_arg4)) := by
  unfold aggR
  after_results_simp

/-- The per-node pin weight after the list ops_agg, from any contents. -/
theorem pw_val (W : Valuation τ sig (Elt F)) :
    StableHlo.after ops_agg W (Proc.devRef .tc main_v69)
      = pwR (W (Proc.devRef .tc main_arg5)) (W (Proc.devRef .tc main_arg6)) := by
  unfold pwR
  after_results_simp

/-- The mean after the list ops_mean, from any contents: of the array the list finds at the message stage's result. -/
theorem mean_val (W : Valuation τ sig (Elt F)) :
    StableHlo.after ops_mean W (Proc.devRef .tc main_v110) = meanR (W (Proc.devRef .tc main_v107)) := by
  unfold meanR
  after_results

/-! ## The buffers each list leaves alone

A reference keeps its contents through a list when no operation of the list writes it; what the operations write is
the list of their results. -/

/-- The program's nineteen arguments. -/
abbrev args : List (Ref sig .tc) :=
  [ main_arg0, main_arg1, main_arg2, main_arg3, main_arg4, main_arg5, main_arg6, main_arg7, main_arg8, main_arg9,
    main_arg10, main_arg11, main_arg12, main_arg13, main_arg14, main_arg15, main_arg16, main_arg17, main_arg18 ]

/-- The references the operations of ops_emb write: each operation's result, in order. -/
abbrev ops_emb_W : List (Ref sig .tc) :=
  [ main_c, main_v0, main_v1, main_c_0, main_v2, main_v3, main_v4, main_v5, main_v6, main_v7, main_c_1,
    main_call0.v0.ref, main_call0.c.ref, main_call0.v1.ref, main_call0.c_0.ref, main_call0.call0.v0.ref,
    main_call0.v3.ref, main_call0.v4.ref, main_call0.c_1.ref, main_call0.v5.ref, main_call0.v6.ref,
    main_call0.c_2.ref, main_call0.v7.ref, main_call0.v8.ref, main_call0.c_3.ref, main_call0.v9.ref,
    main_call0.v10.ref, main_call0.v11.ref, main_call0.v12.ref, main_call0.v13.ref, main_call0.v14.ref,
    main_call0.v15.ref, main_c_2, main_v9, main_v10, main_c_3, main_v11, main_v12, main_v13, main_v14, main_v15,
    main_v16, main_v17, main_v18, main_v19, main_v20, main_call1.cst.ref, main_call1.v0.ref, main_call1.v1.ref,
    main_v22, main_v23, main_v24, main_v25, main_call2.cst.ref, main_call2.v0.ref, main_call2.v1.ref ]

/-- Each operation of ops_emb writes only its result, which is on that list. -/
theorem ops_emb_writes : (ops_emb : List (HloOp τ sig (Elt F))).Forall fun op =>
    op.writes ⊆ (ops_emb_W.map (Proc.devRef (τ := τ) .tc)).toFinset := by
  have one {y : Ref sig .tc} (h : y ∈ ops_emb_W) :
      ({Proc.devRef (τ := τ) .tc y} : Finset (DevRef τ sig)) ⊆ (ops_emb_W.map (Proc.devRef (τ := τ) .tc)).toFinset :=
    Finset.singleton_subset_iff.mpr (List.mem_toFinset.mpr (List.mem_map_of_mem h))
  simp only [List.Forall, StableHlo.nullary_writes, StableHlo.unary_writes, StableHlo.binary_writes,
    StableHlo.ternary_writes, StableHlo.nary_writes]
  exact ⟨one (by decide), one (by decide), one (by decide), one (by decide), one (by decide), one (by decide),
    one (by decide), one (by decide), one (by decide), one (by decide), one (by decide), one (by decide),
    one (by decide), one (by decide), one (by decide), one (by decide), one (by decide), one (by decide),
    one (by decide), one (by decide), one (by decide), one (by decide), one (by decide), one (by decide),
    one (by decide), one (by decide), one (by decide), one (by decide), one (by decide), one (by decide),
    one (by decide), one (by decide), one (by decide), one (by decide), one (by decide), one (by decide),
    one (by decide), one (by decide), one (by decide), one (by decide), one (by decide), one (by decide),
    one (by decide), one (by decide), one (by decide), one (by decide), one (by decide), one (by decide),
    one (by decide), one (by decide), one (by decide), one (by decide), one (by decide), one (by decide),
    one (by decide), one (by decide)⟩

/-- A reference that no operation of ops_emb writes holds after them what it held before. -/
theorem emb_keeps_of (W : Valuation τ sig (Elt F)) {r : Ref sig .tc} (h : r ∉ ops_emb_W) :
    StableHlo.after ops_emb W (Proc.devRef .tc r) = W (Proc.devRef .tc r) :=
  after_of_writes_sub ops_emb W ops_emb_writes h

/-- No operation of ops_emb writes an argument of the program: the nineteen arguments come out of the embedding as they went in. -/
theorem emb_keeps (W : Valuation τ sig (Elt F)) :
    ∀ b ∈ args, StableHlo.after ops_emb W (Proc.devRef .tc b) = W (Proc.devRef .tc b) :=
  fun b hb => emb_keeps_of W ((by decide : ∀ b ∈ args, b ∉ ops_emb_W) b hb)

/-- The references the operations of ops_agg write: each operation's result, in order. -/
abbrev ops_agg_W : List (Ref sig .tc) :=
  [ main_cst, main_v27, main_c_4, main_v28, main_v29, main_c_5, main_v30, main_v31, main_v32, main_v33, main_v34,
    main_v35, main_v36, main_v37, main_c_6, main_v38, main_v39, main_c_7, main_v40, main_v41, main_v42, main_v43,
    main_v44, main_c_8, main_v45, main_v46, main_c_9, main_v47, main_v48, main_v49, main_v50, main_v51, main_v52,
    main_v53, main_v54, main_c_10, main_v55, main_v56, main_c_11, main_v57, main_v58, main_v59, main_v60, main_v61,
    main_cst_12, main_v62, main_c_13, main_v63, main_v64, main_c_14, main_v65, main_v66, main_v67, main_v68, main_v69 ]

/-- Each operation of ops_agg writes only its result, which is on that list. -/
theorem ops_agg_writes : (ops_agg : List (HloOp τ sig (Elt F))).Forall fun op =>
    op.writes ⊆ (ops_agg_W.map (Proc.devRef (τ := τ) .tc)).toFinset := by
  have one {y : Ref sig .tc} (h : y ∈ ops_agg_W) :
      ({Proc.devRef (τ := τ) .tc y} : Finset (DevRef τ sig)) ⊆ (ops_agg_W.map (Proc.devRef (τ := τ) .tc)).toFinset :=
    Finset.singleton_subset_iff.mpr (List.mem_toFinset.mpr (List.mem_map_of_mem h))
  simp only [List.Forall, StableHlo.nullary_writes, StableHlo.unary_writes, StableHlo.binary_writes,
    StableHlo.ternary_writes, StableHlo.nary_writes]
  exact ⟨one (by decide), one (by decide), one (by decide), one (by decide), one (by decide), one (by decide),
    one (by decide), one (by decide), one (by decide), one (by decide), one (by decide), one (by decide),
    one (by decide), one (by decide), one (by decide), one (by decide), one (by decide), one (by decide),
    one (by decide), one (by decide), one (by decide), one (by decide), one (by decide), one (by decide),
    one (by decide), one (by decide), one (by decide), one (by decide), one (by decide), one (by decide),
    one (by decide), one (by decide), one (by decide), one (by decide), one (by decide), one (by decide),
    one (by decide), one (by decide), one (by decide), one (by decide), one (by decide), one (by decide),
    one (by decide), one (by decide), one (by decide), one (by decide), one (by decide), one (by decide),
    one (by decide), one (by decide), one (by decide), one (by decide), one (by decide), one (by decide),
    one (by decide)⟩

/-- A reference that no operation of ops_agg writes holds after them what it held before. -/
theorem agg_keeps_of (W : Valuation τ sig (Elt F)) {r : Ref sig .tc} (h : r ∉ ops_agg_W) :
    StableHlo.after ops_agg W (Proc.devRef .tc r) = W (Proc.devRef .tc r) :=
  after_of_writes_sub ops_agg W ops_agg_writes h

/-- No operation of ops_agg writes an argument of the program: the nineteen arguments come out of the aggregation as they went in. -/
theorem agg_keeps (W : Valuation τ sig (Elt F)) :
    ∀ b ∈ args, StableHlo.after ops_agg W (Proc.devRef .tc b) = W (Proc.devRef .tc b) :=
  fun b hb => agg_keeps_of W ((by decide : ∀ b ∈ args, b ∉ ops_agg_W) b hb)

/-- The references the operations of ops_out write: each operation's result, in order. -/
abbrev ops_out_W : List (Ref sig .tc) :=
  [ main_v70, main_v71, main_v72, main_v73, main_v74, main_v75, main_v76, main_v77, main_call3.cst.ref,
    main_call3.v0.ref, main_call3.v1.ref, main_v79, main_v80, main_v81, main_v82, main_v83, main_cst_15, main_v84,
    main_v85, main_cst_16, main_v86, main_v87, main_v88, main_v89, main_v90, main_cst_17, main_v91, main_v92,
    main_cst_18, main_v93, main_v94, main_v95, main_v96, main_cst_19, main_v97, main_v98, main_v99, main_v100,
    main_v101, main_v102, main_v103, main_v104, main_v105, main_v106, main_v107 ]

/-- Each operation of ops_out writes only its result, which is on that list. -/
theorem ops_out_writes : (ops_out : List (HloOp τ sig (Elt F))).Forall fun op =>
    op.writes ⊆ (ops_out_W.map (Proc.devRef (τ := τ) .tc)).toFinset := by
  have one {y : Ref sig .tc} (h : y ∈ ops_out_W) :
      ({Proc.devRef (τ := τ) .tc y} : Finset (DevRef τ sig)) ⊆ (ops_out_W.map (Proc.devRef (τ := τ) .tc)).toFinset :=
    Finset.singleton_subset_iff.mpr (List.mem_toFinset.mpr (List.mem_map_of_mem h))
  simp only [List.Forall, StableHlo.nullary_writes, StableHlo.unary_writes, StableHlo.binary_writes,
    StableHlo.ternary_writes, StableHlo.nary_writes]
  exact ⟨one (by decide), one (by decide), one (by decide), one (by decide), one (by decide), one (by decide),
    one (by decide), one (by decide), one (by decide), one (by decide), one (by decide), one (by decide),
    one (by decide), one (by decide), one (by decide), one (by decide), one (by decide), one (by decide),
    one (by decide), one (by decide), one (by decide), one (by decide), one (by decide), one (by decide),
    one (by decide), one (by decide), one (by decide), one (by decide), one (by decide), one (by decide),
    one (by decide), one (by decide), one (by decide), one (by decide), one (by decide), one (by decide),
    one (by decide), one (by decide), one (by decide), one (by decide), one (by decide), one (by decide),
    one (by decide), one (by decide), one (by decide)⟩

/-- A reference that no operation of ops_out writes holds after them what it held before. -/
theorem out_keeps_of (W : Valuation τ sig (Elt F)) {r : Ref sig .tc} (h : r ∉ ops_out_W) :
    StableHlo.after ops_out W (Proc.devRef .tc r) = W (Proc.devRef .tc r) :=
  after_of_writes_sub ops_out W ops_out_writes h

/-- No operation of ops_out writes an argument of the program: the nineteen arguments come out of the message stage as they went in. -/
theorem out_keeps (W : Valuation τ sig (Elt F)) :
    ∀ b ∈ args, StableHlo.after ops_out W (Proc.devRef .tc b) = W (Proc.devRef .tc b) :=
  fun b hb => out_keeps_of W ((by decide : ∀ b ∈ args, b ∉ ops_out_W) b hb)

/-- The references the operations of ops_mean write: each operation's result, in order. -/
abbrev ops_mean_W : List (Ref sig .tc) :=
  [ main_cst_20, main_v108, main_cst_21, main_v109, main_v110 ]

/-- Each operation of ops_mean writes only its result, which is on that list. -/
theorem ops_mean_writes : (ops_mean : List (HloOp τ sig (Elt F))).Forall fun op =>
    op.writes ⊆ (ops_mean_W.map (Proc.devRef (τ := τ) .tc)).toFinset := by
  have one {y : Ref sig .tc} (h : y ∈ ops_mean_W) :
      ({Proc.devRef (τ := τ) .tc y} : Finset (DevRef τ sig)) ⊆ (ops_mean_W.map (Proc.devRef (τ := τ) .tc)).toFinset :=
    Finset.singleton_subset_iff.mpr (List.mem_toFinset.mpr (List.mem_map_of_mem h))
  simp only [List.Forall, StableHlo.nullary_writes, StableHlo.unary_writes, StableHlo.binary_writes,
    StableHlo.ternary_writes, StableHlo.nary_writes]
  exact ⟨one (by decide), one (by decide), one (by decide), one (by decide), one (by decide)⟩

/-- A reference that no operation of ops_mean writes holds after them what it held before. -/
theorem mean_keeps_of (W : Valuation τ sig (Elt F)) {r : Ref sig .tc} (h : r ∉ ops_mean_W) :
    StableHlo.after ops_mean W (Proc.devRef .tc r) = W (Proc.devRef .tc r) :=
  after_of_writes_sub ops_mean W ops_mean_writes h

/-- No operation of ops_mean writes an argument of the program: the nineteen arguments come out of the mean as they went in. -/
theorem mean_keeps (W : Valuation τ sig (Elt F)) :
    ∀ b ∈ args, StableHlo.after ops_mean W (Proc.devRef .tc b) = W (Proc.devRef .tc b) :=
  fun b hb => mean_keeps_of W ((by decide : ∀ b ∈ args, b ∉ ops_mean_W) b hb)

/-- The embedding is not written by the aggregation's operations. -/
theorem agg_keeps_v26 (W : Valuation τ sig (Elt F)) :
    StableHlo.after ops_agg W (Proc.devRef .tc main_v26) = W (Proc.devRef .tc main_v26) :=
  agg_keeps_of W (by decide)

/-- The message stage's result is not written by the mean's operations. -/
theorem mean_keeps_v107 (W : Valuation τ sig (Elt F)) :
    StableHlo.after ops_mean W (Proc.devRef .tc main_v107) = W (Proc.devRef .tc main_v107) :=
  mean_keeps_of W (by decide)

end Cert.ReferenceIdeal.RefChains

end
-- ==== Proof.RefOut.lean ====
import proofs.«414917_j51823075393574_1_alg».proof.Proof.RefOps
import proofs.«414917_j51823075393574_1_alg».proof.Proof.Spec
import Idealize.ShloMosaic.Lib.ValueIdx
import Idealize.ShloMosaic.Lib.IdealHost
import Idealize.ShloMosaic.Lib.Pipeline.Value
import Idealize.ShloMosaic.PureOps.Ideal.Laws

/-! The reference's message stage, as one term and read at one entry. The 45 operations of RefOps.lean's ops_out, run
    from any contents W, leave at main_v107 the layer norm of the residual array: the residual
    y = e + (max (x·M1 + mb1) 0 · M2 + mb2) with x = a + e·p is computed once and read three times (by the row mean, by the
    deviations, and by the deviations again for the result), so the term is stated over named arrays: resT the residual,
    meanT the column of row means, devT the deviations, varT the column of row variances, lnT the normalised, scaled and
    shifted result. Then each operation is read at an index (r, j): the broadcasts read their operand at the
    coordinates they keep, the two products with the weights are sums over the contracted coordinate, the two row sums are
    sums over the row's 128 entries from an initial value that is zero, and the rest is entrywise. The entry is then
    Spec.lean's msg of row r of the embedding and of the aggregate, the node's pin weight and the parameters. -/

noncomputable section

open scoped BigOperators

namespace Cert.ReferenceIdeal.RefOut

open Cert.ReferenceIdeal Cert.ReferenceIdeal.Gen Idealize.ShloMosaic Idealize.ShloMosaic.TcCoe Idealize.SL.Sem Idealize.ShloMosaic.StableHlo Idealize.ShloMosaic.ValueIdx

/-! ## The term -/

/-- The residual array: e + ((max ((a + e·p)·M1 + mb1) 0)·M2 + mb2), the pin weight p laid along each row and the two
    biases along each column. -/
def resT (e a : FVec Ideal S100000x128 .f32) (p : FVec Ideal S100000 .f32) (a13 : FVec Ideal S128x128 .f32)
    (a14 : FVec Ideal S128 .f32) (a15 : FVec Ideal S128x128 .f32) (a16 : FVec Ideal S128 .f32) : FVec Ideal S100000x128 .f32 :=
  addf e (addf
    (Host.dotGeneral dot_S100000x128_S128x128_S100000x128_1_0_0_1_n_n none
      (maximumf
        (addf
          (Host.dotGeneral dot_S100000x128_S128x128_S100000x128_1_0_0_1_n_n none
            (addf a (mulf e (broadcastInDim S100000x128 ![0, 1] bcast_S100000x1_S100000x128_0_1
              (broadcastInDim S100000x1 ![0] bcast_S100000_S100000x1_0 p))))
            a13)
          (broadcastInDim S100000x128 ![0, 1] bcast_S1x128_S100000x128_0_1 (broadcastInDim S1x128 ![1] bcast_S128_S1x128_1 a14)))
        (broadcastInDim S100000x128 ![] bcast_S_S100000x128 (constant (F := Ideal) S_ .f32 0x00000000#32)))
      a15)
    (broadcastInDim S100000x128 ![0, 1] bcast_S1x128_S100000x128_0_1 (broadcastInDim S1x128 ![1] bcast_S128_S1x128_1 a16)))

/-- The column of row means: each row's sum (from the zero word) divided by the splat of the word 0x43000000. -/
def meanT (y : FVec Ideal S100000x128 .f32) : FVec Ideal S100000x1 .f32 :=
  Host.divf
    (broadcastInDim S100000x1 ![0] bcast_S100000_S100000x1_0
      (Host.reduceAdd y (constant (F := Ideal) S_ .f32 0x00000000#32) reducesTo_S100000x128_S100000_d1 h_S_))
    (broadcastInDim S100000x1 ![] bcast_S_S100000x1 (constant (F := Ideal) S_ .f32 0x43000000#32))

/-- The deviations from the row mean. -/
def devT (y : FVec Ideal S100000x128 .f32) : FVec Ideal S100000x128 .f32 :=
  subf y (broadcastInDim S100000x128 ![0, 1] bcast_S100000x1_S100000x128_0_1 (meanT y))

/-- The column of row variances: each row's sum of squared deviations divided by the same splat. -/
def varT (y : FVec Ideal S100000x128 .f32) : FVec Ideal S100000x1 .f32 :=
  Host.divf
    (broadcastInDim S100000x1 ![0] bcast_S100000_S100000x1_0
      (Host.reduceAdd (mulf (devT y) (devT y)) (constant (F := Ideal) S_ .f32 0x00000000#32) reducesTo_S100000x128_S100000_d1 h_S_))
    (broadcastInDim S100000x1 ![] bcast_S_S100000x1 (constant (F := Ideal) S_ .f32 0x43000000#32))

/-- The layer norm of y: deviations times rsqrt (variance + the word 0x3727C5AC), times the gain, plus the bias. -/
def lnT (y : FVec Ideal S100000x128 .f32) (a17 a18 : FVec Ideal S128 .f32) : FVec Ideal S100000x128 .f32 :=
  addf
    (mulf
      (mulf (devT y)
        (broadcastInDim S100000x128 ![0, 1] bcast_S100000x1_S100000x128_0_1
          (Host.rsqrt (addf (varT y) (broadcastInDim S100000x1 ![] bcast_S_S100000x1 (constant (F := Ideal) S_ .f32 0x3727C5AC#32))))))
      (broadcastInDim S100000x128 ![0, 1] bcast_S1x128_S100000x128_0_1 (broadcastInDim S1x128 ![1] bcast_S128_S1x128_1 a17)))
    (broadcastInDim S100000x128 ![0, 1] bcast_S1x128_S100000x128_0_1 (broadcastInDim S1x128 ![1] bcast_S128_S1x128_1 a18))

/-- What the message stage leaves at main_v107, from any contents whose embedding, aggregate, pin weights and
    parameters are the named arrays: the layer norm of the residual array. -/
theorem out_term (W : Valuation τ sig (Elt Ideal)) (e a : FVec Ideal S100000x128 .f32) (p : FVec Ideal S100000 .f32)
    (a13 : FVec Ideal S128x128 .f32) (a14 : FVec Ideal S128 .f32) (a15 : FVec Ideal S128x128 .f32) (a16 a17 a18 : FVec Ideal S128 .f32)
    (he : W (Proc.devRef .tc main_v26) = e) (ha : W (Proc.devRef .tc main_v61) = a) (hp : W (Proc.devRef .tc main_v69) = p)
    (h13 : W (Proc.devRef .tc main_arg13) = a13) (h14 : W (Proc.devRef .tc main_arg14) = a14)
    (h15 : W (Proc.devRef .tc main_arg15) = a15) (h16 : W (Proc.devRef .tc main_arg16) = a16)
    (h17 : W (Proc.devRef .tc main_arg17) = a17) (h18 : W (Proc.devRef .tc main_arg18) = a18) :
    StableHlo.after (RefRun.ops_out (F := Ideal)) W (Proc.devRef .tc main_v107)
      = lnT (resT e a p a13 a14 a15 a16) a17 a18 := by
  subst he ha hp h13 h14 h15 h16 h17 h18
  after_results_simp
  rfl

/-! ## The broadcasts at an index -/

section Layout
variable {α : Type}

/-- A vector over the rows laid out as a column: entry (r, c) is the vector's entry r. -/
theorem col_apply (x : S100000.Idx → α) (r : Fin 100000) (c : Fin 1) :
    broadcastInDim S100000x1 ![0] bcast_S100000_S100000x1_0 x (ix2 r c) = x (ix1 r) :=
  broadcastInDim_apply _ bcast_S100000_S100000x1_0 x (ix2 r c) (ix1 r) (fun a => match a with
    | ⟨0, _⟩ => by show r.val = if (100000 : Nat) = 1 then 0 else r.val; rw [if_neg (by decide)])

/-- A column repeated across the 128 lanes: entry (r, j) is the column's entry (r, 0). -/
theorem lanes_apply (x : S100000x1.Idx → α) (r : Fin 100000) (j : Fin 128) :
    broadcastInDim S100000x128 ![0, 1] bcast_S100000x1_S100000x128_0_1 x (ix2 r j) = x (ix2 r 0) :=
  broadcastInDim_apply _ bcast_S100000x1_S100000x128_0_1 x (ix2 r j) (ix2 r 0) (fun a => match a with
    | ⟨0, _⟩ => by show r.val = if (100000 : Nat) = 1 then 0 else r.val; rw [if_neg (by decide)]
    | ⟨1, _⟩ => by show (0 : Nat) = if (1 : Nat) = 1 then 0 else j.val; rw [if_pos rfl])

/-- A vector over the lanes laid out as one row: entry (c, j) is the vector's entry j. -/
theorem row1_apply (x : S128.Idx → α) (c : Fin 1) (j : Fin 128) :
    broadcastInDim S1x128 ![1] bcast_S128_S1x128_1 x (ix2 c j) = x (ix1 j) :=
  broadcastInDim_apply _ bcast_S128_S1x128_1 x (ix2 c j) (ix1 j) (fun a => match a with
    | ⟨0, _⟩ => by show j.val = if (128 : Nat) = 1 then 0 else j.val; rw [if_neg (by decide)])

/-- One row repeated down the 100000 rows: entry (r, j) is the row's entry (0, j). -/
theorem rows_apply (x : S1x128.Idx → α) (r : Fin 100000) (j : Fin 128) :
    broadcastInDim S100000x128 ![0, 1] bcast_S1x128_S100000x128_0_1 x (ix2 r j) = x (ix2 0 j) :=
  broadcastInDim_apply _ bcast_S1x128_S100000x128_0_1 x (ix2 r j) (ix2 0 j) (fun a => match a with
    | ⟨0, _⟩ => by show (0 : Nat) = if (1 : Nat) = 1 then 0 else r.val; rw [if_pos rfl]
    | ⟨1, _⟩ => by show j.val = if (128 : Nat) = 1 then 0 else j.val; rw [if_neg (by decide)])

end Layout

/-! ## The product with a weight matrix at an index -/

theorem lhs_dot_0 (i : S100000x128.Idx) (q : dot_S100000x128_S128x128_S100000x128_1_0_0_1_n_n.contr.Idx) :
    (dot_S100000x128_S128x128_S100000x128_1_0_0_1_n_n.lhsIdx i q 0).val = (i 0).val := by
  unfold DotDims.lhsIdx
  rw [dif_neg (show ¬(0 : Fin S100000x128.rank) ∈ dot_S100000x128_S128x128_S100000x128_1_0_0_1_n_n.lhsBatch by decide), dif_pos (show (0 : Fin S100000x128.rank) ∈ dot_S100000x128_S128x128_S100000x128_1_0_0_1_n_n.lhsNonContracting by decide)]
  rfl
theorem lhs_dot_1 (i : S100000x128.Idx) (q : dot_S100000x128_S128x128_S100000x128_1_0_0_1_n_n.contr.Idx) :
    (dot_S100000x128_S128x128_S100000x128_1_0_0_1_n_n.lhsIdx i q 1).val = (q ⟨0, by decide⟩).val :=
  dot_S100000x128_S128x128_S100000x128_1_0_0_1_n_n.lhsIdx_val_of_single rfl i q
theorem rhs_dot_0 (i : S100000x128.Idx) (q : dot_S100000x128_S128x128_S100000x128_1_0_0_1_n_n.contr.Idx) :
    (dot_S100000x128_S128x128_S100000x128_1_0_0_1_n_n.rhsIdx i q 0).val = (q ⟨0, by decide⟩).val :=
  dot_S100000x128_S128x128_S100000x128_1_0_0_1_n_n.rhsIdx_val_of_single rfl i q
theorem rhs_dot_1 (i : S100000x128.Idx) (q : dot_S100000x128_S128x128_S100000x128_1_0_0_1_n_n.contr.Idx) :
    (dot_S100000x128_S128x128_S100000x128_1_0_0_1_n_n.rhsIdx i q 1).val = (i 1).val := by
  unfold DotDims.rhsIdx
  rw [dif_neg (show ¬(1 : Fin S128x128.rank) ∈ dot_S100000x128_S128x128_S100000x128_1_0_0_1_n_n.rhsBatch by decide), dif_pos (show (1 : Fin S128x128.rank) ∈ dot_S100000x128_S128x128_S100000x128_1_0_0_1_n_n.rhsNonContracting by decide)]
  rfl

/-- The host's product of a [100000, 128] array with a [128, 128] matrix, at (r, j): the sum over the contracted
    coordinate k of the array's (r, k) times the matrix's (k, j). -/
theorem dot_apply (A : FVec Ideal S100000x128 .f32) (B : FVec Ideal S128x128 .f32) (r : Fin 100000) (j : Fin 128) :
    Host.dotGeneral dot_S100000x128_S128x128_S100000x128_1_0_0_1_n_n none A B (ix2 r j) = ∑ k : Fin 128, A (ix2 r k) * B (ix2 k j) := by
  simp only [Host.dotGeneral]
  rw [Ideal.dotGeneral_apply, ← Equiv.sum_comp (ValueIdx.contrEquiv1 dot_S100000x128_S128x128_S100000x128_1_0_0_1_n_n 128 rfl rfl).symm]
  refine Finset.sum_congr rfl fun k _ => ?_
  have hk := ValueIdx.contrEquiv1_symm_val dot_S100000x128_S128x128_S100000x128_1_0_0_1_n_n 128 rfl rfl k
  have el : dot_S100000x128_S128x128_S100000x128_1_0_0_1_n_n.lhsIdx (ix2 r j) ((ValueIdx.contrEquiv1 dot_S100000x128_S128x128_S100000x128_1_0_0_1_n_n 128 rfl rfl).symm k) = ix2 r k := funext fun a => Fin.ext (by
    match a with
    | ⟨0, _⟩ => exact lhs_dot_0 _ _
    | ⟨1, _⟩ => exact (lhs_dot_1 _ _).trans hk)
  have er : dot_S100000x128_S128x128_S100000x128_1_0_0_1_n_n.rhsIdx (ix2 r j) ((ValueIdx.contrEquiv1 dot_S100000x128_S128x128_S100000x128_1_0_0_1_n_n 128 rfl rfl).symm k) = ix2 k j := funext fun a => Fin.ext (by
    match a with
    | ⟨0, _⟩ => exact (rhs_dot_0 _ _).trans hk
    | ⟨1, _⟩ => exact rhs_dot_1 _ _)
  rw [el, er]

/-! ## A row sum at an index -/

/-- The host's sum over axis 1 from the zero word, at row r: the sum of the row's 128 entries. -/
theorem rowsum_apply (x : FVec Ideal S100000x128 .f32) (r : Fin 100000) :
    Host.reduceAdd x (constant (F := Ideal) S_ .f32 0x00000000#32) reducesTo_S100000x128_S100000_d1 h_S_ (ix1 r)
      = ∑ k : Fin 128, x (ix2 r k) := by
  simp only [Host.reduceAdd, Ideal.hostReduceAdd_def]
  rw [Ideal.hostReduceAdd_single reducesTo_S100000x128_S100000_d1 (by decide)]
  show Ideal.ofBits .f32 0x00000000#32 + _ = _
  rw [Ideal.ofBits_zero_f32, zero_add]
  refine Finset.sum_congr rfl fun k _ => ?_
  exact congrArg x (funext fun a => Fin.ext (by match a with | ⟨0, _⟩ => rfl | ⟨1, _⟩ => rfl))

/-- The host's reciprocal square root at an index is the extended reals'. -/
theorem hostRsqrt_apply {s : Shape} {φ : FTy} (x : FVec Ideal s φ) (i : s.Idx) : Host.rsqrt x i = Ideal.rsqrt (x i) := rfl

/-! ## The residual row -/

/-- The residual array at (r, j) is Spec.lean's resid of row r of the embedding and of the aggregate, the node's pin
    weight, the two weight matrices and the two biases. -/
theorem resT_at (e a : FVec Ideal S100000x128 .f32) (p : FVec Ideal S100000 .f32) (a13 : FVec Ideal S128x128 .f32)
    (a14 : FVec Ideal S128 .f32) (a15 : FVec Ideal S128x128 .f32) (a16 : FVec Ideal S128 .f32) (r : Fin 100000) (j : Fin 128) :
    resT e a p a13 a14 a15 a16 (ix2 r j)
      = Cert.Spec.resid (fun q => e (ix2 r q)) (fun q => a (ix2 r q)) (p (ix1 r)) (fun q k => a13 (ix2 q k)) (fun k => a14 (ix1 k))
          (fun q k => a15 (ix2 q k)) (fun k => a16 (ix1 k)) j := by
  unfold resT Cert.Spec.resid
  rw [addf_apply, addf_apply, dot_apply, rows_apply, row1_apply]
  refine congrArg (e (ix2 r j) + ·) (congrArg (· + a16 (ix1 j)) (Finset.sum_congr rfl fun k _ => ?_))
  rw [maximumf_apply, addf_apply, dot_apply, rows_apply, row1_apply, broadcastInDim_scalar_apply, constant_apply, Ideal.ofBits_zero_f32]
  refine congrArg (fun t => max (t + a14 (ix1 k)) 0 * a15 (ix2 k j)) (Finset.sum_congr rfl fun q _ => ?_)
  rw [addf_apply, mulf_apply, lanes_apply, col_apply]

/-! ## Mean, variance, normalisation -/

/-- The mean column at row r: the row's sum divided by the count's word. -/
theorem meanT_at (y : FVec Ideal S100000x128 .f32) (r : Fin 100000) (c : Fin 1) :
    meanT y (ix2 r c) = Ideal.div (∑ k : Fin 128, y (ix2 r k)) (Ideal.ofBits .f32 0x43000000#32) := by
  unfold meanT
  rw [hostDivf_apply, col_apply, rowsum_apply, broadcastInDim_scalar_apply, constant_apply]

/-- A deviation: the entry less its row's mean. -/
theorem devT_at (y : FVec Ideal S100000x128 .f32) (r : Fin 100000) (j : Fin 128) :
    devT y (ix2 r j) = y (ix2 r j) - Ideal.div (∑ k : Fin 128, y (ix2 r k)) (Ideal.ofBits .f32 0x43000000#32) := by
  unfold devT
  rw [subf_apply, lanes_apply, meanT_at]

/-- The variance column at row r: the row's sum of squared deviations divided by the count's word. -/
theorem varT_at (y : FVec Ideal S100000x128 .f32) (r : Fin 100000) (c : Fin 1) :
    varT y (ix2 r c)
      = Ideal.div (∑ k : Fin 128, (y (ix2 r k) - Ideal.div (∑ l : Fin 128, y (ix2 r l)) (Ideal.ofBits .f32 0x43000000#32))
            * (y (ix2 r k) - Ideal.div (∑ l : Fin 128, y (ix2 r l)) (Ideal.ofBits .f32 0x43000000#32)))
          (Ideal.ofBits .f32 0x43000000#32) := by
  unfold varT
  rw [hostDivf_apply, col_apply, rowsum_apply, broadcastInDim_scalar_apply, constant_apply]
  refine congrArg (Ideal.div · _) (Finset.sum_congr rfl fun k _ => ?_)
  rw [mulf_apply, devT_at]

/-- The layer norm array at (r, j) is Spec.lean's lnorm of row r. -/
theorem lnT_at (y : FVec Ideal S100000x128 .f32) (a17 a18 : FVec Ideal S128 .f32) (r : Fin 100000) (j : Fin 128) :
    lnT y a17 a18 (ix2 r j)
      = Cert.Spec.lnorm (fun q => y (ix2 r q)) (Ideal.ofBits .f32 0x43000000#32) (Ideal.ofBits .f32 0x3727C5AC#32)
          (fun k => a17 (ix1 k)) (fun k => a18 (ix1 k)) j := by
  unfold lnT Cert.Spec.lnorm
  rw [addf_apply, mulf_apply, mulf_apply, devT_at, lanes_apply, hostRsqrt_apply, addf_apply, varT_at,
    broadcastInDim_scalar_apply, constant_apply, rows_apply, row1_apply, rows_apply, row1_apply]

/-! ## The message stage at an entry -/

/-- What the message stage leaves at main_v107, read at (r, j): Spec.lean's msg of row r of the embedding and of the
    aggregate, the node's pin weight, and the parameters; the count and the epsilon as their words. -/
theorem out_at (W : Valuation τ sig (Elt Ideal)) (e a : FVec Ideal S100000x128 .f32) (p : FVec Ideal S100000 .f32)
    (a13 : FVec Ideal S128x128 .f32) (a14 : FVec Ideal S128 .f32) (a15 : FVec Ideal S128x128 .f32) (a16 a17 a18 : FVec Ideal S128 .f32)
    (he : W (Proc.devRef .tc main_v26) = e) (ha : W (Proc.devRef .tc main_v61) = a) (hp : W (Proc.devRef .tc main_v69) = p)
    (h13 : W (Proc.devRef .tc main_arg13) = a13) (h14 : W (Proc.devRef .tc main_arg14) = a14)
    (h15 : W (Proc.devRef .tc main_arg15) = a15) (h16 : W (Proc.devRef .tc main_arg16) = a16)
    (h17 : W (Proc.devRef .tc main_arg17) = a17) (h18 : W (Proc.devRef .tc main_arg18) = a18)
    (r : Fin 100000) (j : Fin 128) :
    (StableHlo.after (RefRun.ops_out (F := Ideal)) W (Proc.devRef .tc main_v107) : S100000x128.Idx → EReal) (ix2 r j)
      = Cert.Spec.msg (fun q => e (ix2 r q)) (fun q => a (ix2 r q)) (p (ix1 r)) (fun q k => a13 (ix2 q k)) (fun k => a14 (ix1 k))
          (fun q k => a15 (ix2 q k)) (fun k => a16 (ix1 k)) (Ideal.ofBits .f32 0x43000000#32) (Ideal.ofBits .f32 0x3727C5AC#32)
          (fun k => a17 (ix1 k)) (fun k => a18 (ix1 k)) j := by
  have h := out_term W e a p a13 a14 a15 a16 a17 a18 he ha hp h13 h14 h15 h16 h17 h18
  rw [h]
  unfold Cert.Spec.msg
  rw [lnT_at]
  exact congrArg (fun y => Cert.Spec.lnorm y (Ideal.ofBits .f32 0x43000000#32) (Ideal.ofBits .f32 0x3727C5AC#32)
    (fun k => a17 (ix1 k)) (fun k => a18 (ix1 k)) j) (funext fun q => resT_at e a p a13 a14 a15 a16 r q)

end Cert.ReferenceIdeal.RefOut

end
-- ==== Proof.RefFinal.lean ====
/-
  The reference's final memory, read through its four consecutive lists of operations.

  The run ends with every buffer at the fold of all operations over the launch contents `W`.  The fold over the
  concatenated list is the folds of the four lists one after the other; the arguments pass through all four untouched,
  the output array is what the third list leaves (the last list does not write it), and the mean is the last list's
  function of that array.  The output array at entry (r, j) is then the message stage's row function of row r of the
  embedding (what the first list leaves), of row r of the aggregate and of the node's pin weight — the aggregate and the
  pin weights being the shared host chains applied to the embedding and to the launch contents of the edge arguments.
-/
import proofs.«414917_j51823075393574_1_alg».proof.Proof.RefRun
import proofs.«414917_j51823075393574_1_alg».proof.Proof.RefChains
import proofs.«414917_j51823075393574_1_alg».proof.Proof.RefOut

noncomputable section

namespace Cert.ReferenceIdeal.RefFinal

open Cert.ReferenceIdeal Cert.ReferenceIdeal.Gen Idealize.ShloMosaic Idealize.ShloMosaic.TcCoe Idealize.SL.Sem Idealize.ShloMosaic.StableHlo Idealize.ShloMosaic.ValueIdx
open Cert.ReferenceIdeal.RefRun Cert.ReferenceIdeal.RefChains

variable (W : Valuation τ sig (Elt Ideal))

/-- Every operation of @main, in order. -/
abbrev all : List (HloOp τ sig (Elt Ideal)) := ops_emb ++ ops_agg ++ ops_out ++ ops_mean

/-- The node embedding: what the first list leaves at its last result. -/
abbrev embArr : FVec Ideal S100000x128 .f32 := after (ops_emb (F := Ideal)) W (Proc.devRef .tc main_v26)

/-- No operation writes an argument. -/
theorem all_arg (b : Ref sig .tc) (hb : b ∈ args) : after all W (Proc.devRef .tc b) = W (Proc.devRef .tc b) := by
  rw [after_split, mean_keeps _ b hb, out_keeps _ b hb, agg_keeps _ b hb, emb_keeps _ b hb]

/-- The output array is what the third list leaves. -/
theorem all_v107 : after all W (Proc.devRef .tc main_v107)
    = after ops_out (after ops_agg (after ops_emb W)) (Proc.devRef .tc main_v107) := by
  rw [after_split, mean_keeps_v107]

/-- The second result is the mean of the first. -/
theorem all_v110 : after all W (Proc.devRef .tc main_v110) = meanR (F := Ideal) (after all W (Proc.devRef .tc main_v107)) := by
  rw [all_v107, after_split, mean_val]

/-- The output array at entry (r, j). -/
theorem v107_at (r : Fin 100000) (j : Fin 128) :
    (after all W (Proc.devRef .tc main_v107) : S100000x128.Idx → EReal) (ix2 r j)
      = Cert.Spec.msg (fun q => embArr W (ix2 r q))
          (fun q => aggR (F := Ideal) (embArr W) (W (Proc.devRef .tc main_arg2)) (W (Proc.devRef .tc main_arg3)) (W (Proc.devRef .tc main_arg4)) (ix2 r q))
          (pwR (F := Ideal) (W (Proc.devRef .tc main_arg5)) (W (Proc.devRef .tc main_arg6)) (ix1 r))
          (fun q k => (W (Proc.devRef .tc main_arg13) : S128x128.Idx → EReal) (ix2 q k))
          (fun k => (W (Proc.devRef .tc main_arg14) : S128.Idx → EReal) (ix1 k))
          (fun q k => (W (Proc.devRef .tc main_arg15) : S128x128.Idx → EReal) (ix2 q k))
          (fun k => (W (Proc.devRef .tc main_arg16) : S128.Idx → EReal) (ix1 k))
          (Ideal.ofBits .f32 0x43000000#32) (Ideal.ofBits .f32 0x3727C5AC#32)
          (fun k => (W (Proc.devRef .tc main_arg17) : S128.Idx → EReal) (ix1 k))
          (fun k => (W (Proc.devRef .tc main_arg18) : S128.Idx → EReal) (ix1 k)) j := by
  rw [all_v107]
  refine RefOut.out_at (after ops_agg (after ops_emb W)) _ _ _ _ _ _ _ _ _
    (agg_keeps_v26 _) ?_ ?_ ?_ ?_ ?_ ?_ ?_ ?_ r j
  · rw [agg_val, emb_keeps W main_arg2 (by decide), emb_keeps W main_arg3 (by decide), emb_keeps W main_arg4 (by decide)]
  · rw [pw_val, emb_keeps W main_arg5 (by decide), emb_keeps W main_arg6 (by decide)]
  · rw [agg_keeps _ main_arg13 (by decide), emb_keeps W main_arg13 (by decide)]
  · rw [agg_keeps _ main_arg14 (by decide), emb_keeps W main_arg14 (by decide)]
  · rw [agg_keeps _ main_arg15 (by decide), emb_keeps W main_arg15 (by decide)]
  · rw [agg_keeps _ main_arg16 (by decide), emb_keeps W main_arg16 (by decide)]
  · rw [agg_keeps _ main_arg17 (by decide), emb_keeps W main_arg17 (by decide)]
  · rw [agg_keeps _ main_arg18 (by decide), emb_keeps W main_arg18 (by decide)]

end Cert.ReferenceIdeal.RefFinal

end
-- ==== Proof.RefEmbDefs.lean ====
import proofs.«414917_j51823075393574_1_alg».proof.Proof.RefOps
import Idealize.ShloMosaic.PureOps.Ideal

/-! The stages of the reference's node embedding, each a term of the arguments.

    From the block features, the role ids and the weight arrays: the role index (a negative id moved up by eight), the
    role table's rows at it, the position index (the node's number modulo 1024, by the truncated remainder and its sign
    correction, then a negative value moved up by 1024), the index table's rows at it, the three pieces side by side, and
    two dense layers each followed by a maximum with zero. -/

noncomputable section

namespace Cert.ReferenceIdeal.RefEmb

open Cert.ReferenceIdeal Cert.ReferenceIdeal.Gen Idealize.ShloMosaic Idealize.ShloMosaic.TcCoe Idealize.SL.Sem Idealize.ShloMosaic.StableHlo

/-- The role index: the role id, moved up by eight where it is negative. -/
def roleIx (a1 : IVec S100000 32) : IVec S100000 32 :=
  select (cmpi .slt a1 (broadcastInDim S100000 ![] bcast_S_S100000 (constantI S_ 32 0#32)))
    (addi a1 (broadcastInDim S100000 ![] bcast_S_S100000 (constantI S_ 32 8#32))) a1

/-- The role table's rows at the role indices. -/
def roleRows (a7 : FVec Ideal S8x16 .f32) (a1 : IVec S100000 32) : FVec Ideal S100000x16 .f32 :=
  Host.gather gather_S8x16_S100000x1_S100000x16_1_0_n_n_0_1_116 a7
    (broadcastInDim S100000x1 ![0] bcast_S100000_S100000x1_0 (roleIx a1))

/-- The divisor of the remainder: 1024, or one were it zero. -/
def modulus : IVec S_ 32 :=
  select (cmpi .eq (constantI S_ 32 1024#32) (constantI S_ 32 0#32)) (constantI S_ 32 1#32) (constantI S_ 32 1024#32)

/-- The truncated remainder of each node's number by the divisor. -/
def remRaw : IVec S100000 32 :=
  Host.remsi (iotaInDim S100000 32 0) (broadcastInDim S100000 ![] bcast_S_S100000 modulus)

/-- The remainder with the divisor's sign: the divisor added where the truncated remainder is not zero and its sign is not the divisor's. -/
def remFix : IVec S100000 32 :=
  select
    (andi
      (cmpi .ne (cmpi .slt remRaw (broadcastInDim S100000 ![] bcast_S_S100000 (constantI S_ 32 0#32)))
        (broadcastInDim S100000 ![] bcast_S_S100000 (cmpi .slt modulus (constantI S_ 32 0#32))))
      (cmpi .ne remRaw (broadcastInDim S100000 ![] bcast_S_S100000 (constantI S_ 32 0#32))))
    (addi remRaw (broadcastInDim S100000 ![] bcast_S_S100000 modulus)) remRaw

/-- The position index: that remainder, moved up by 1024 where it is negative. -/
def posIx : IVec S100000 32 :=
  select (cmpi .slt remFix (broadcastInDim S100000 ![] bcast_S_S100000 (constantI S_ 32 0#32)))
    (addi remFix (broadcastInDim S100000 ![] bcast_S_S100000 (constantI S_ 32 1024#32))) remFix

/-- The index table's rows at the position indices. -/
def posRows (a8 : FVec Ideal S1024x8 .f32) : FVec Ideal S100000x8 .f32 :=
  Host.gather gather_S1024x8_S100000x1_S100000x8_1_0_n_n_0_1_18 a8
    (broadcastInDim S100000x1 ![0] bcast_S100000_S100000x1_0 posIx)

/-- The 38 input features of every node: block features, role rows and position rows side by side. -/
def feat (a0 : FVec Ideal S100000x14 .f32) (a1 : IVec S100000 32) (a7 : FVec Ideal S8x16 .f32) (a8 : FVec Ideal S1024x8 .f32) :
    FVec Ideal S100000x38 .f32 :=
  concatenate S100000x38 1 [⟨S100000x14, a0⟩, ⟨S100000x16, roleRows a7 a1⟩, ⟨S100000x8, posRows a8⟩]
    concatenates_S100000x14_S100000x16_S100000x8_S100000x38_d1

/-- A dense layer followed by the maximum with zero: the product with the weight, the bias added along the rows. -/
def dense1 (x : FVec Ideal S100000x38 .f32) (a9 : FVec Ideal S38x128 .f32) (a10 : FVec Ideal S128 .f32) : FVec Ideal S100000x128 .f32 :=
  maximumf
    (addf (Host.dotGeneral dot_S100000x38_S38x128_S100000x128_1_0_0_1_n_n none x a9)
      (broadcastInDim S100000x128 ![0, 1] bcast_S1x128_S100000x128_0_1 (broadcastInDim S1x128 ![1] bcast_S128_S1x128_1 a10)))
    (broadcastInDim S100000x128 ![] bcast_S_S100000x128 (constant (F := Ideal) S_ .f32 0x00000000#32))

/-- The second dense layer, likewise. -/
def dense2 (x : FVec Ideal S100000x128 .f32) (a11 : FVec Ideal S128x128 .f32) (a12 : FVec Ideal S128 .f32) : FVec Ideal S100000x128 .f32 :=
  maximumf
    (addf (Host.dotGeneral dot_S100000x128_S128x128_S100000x128_1_0_0_1_n_n none x a11)
      (broadcastInDim S100000x128 ![0, 1] bcast_S1x128_S100000x128_0_1 (broadcastInDim S1x128 ![1] bcast_S128_S1x128_1 a12)))
    (broadcastInDim S100000x128 ![] bcast_S_S100000x128 (constant (F := Ideal) S_ .f32 0x00000000#32))

/-- The node embedding as a term of the arguments. -/
def emb (a0 : FVec Ideal S100000x14 .f32) (a1 : IVec S100000 32) (a7 : FVec Ideal S8x16 .f32) (a8 : FVec Ideal S1024x8 .f32)
    (a9 : FVec Ideal S38x128 .f32) (a10 : FVec Ideal S128 .f32) (a11 : FVec Ideal S128x128 .f32) (a12 : FVec Ideal S128 .f32) :
    FVec Ideal S100000x128 .f32 :=
  dense2 (dense1 (feat a0 a1 a7 a8) a9 a10) a11 a12

end Cert.ReferenceIdeal.RefEmb

end
-- ==== Proof.RefEmbTerm.lean ====
import proofs.«414917_j51823075393574_1_alg».proof.Proof.RefEmbDefs
import Idealize.ShloMosaic.Lib.StableHlo.Run

/-! The node embedding of the reference program as one term of the arguments: the fold of the first list of the
    reference's operations over any buffer contents holds, at the embedding's buffer, the last stage of the contents of
    the eight argument buffers the list reads. -/

noncomputable section

namespace Cert.ReferenceIdeal.RefEmb

open Cert.ReferenceIdeal Cert.ReferenceIdeal.Gen Idealize.ShloMosaic Idealize.ShloMosaic.TcCoe Idealize.SL.Sem Idealize.ShloMosaic.StableHlo

set_option maxRecDepth 8192 in
set_option maxHeartbeats 4000000 in
/-- After the first list of operations, whatever the buffers held, the embedding's buffer holds that term of what the
    eight argument buffers held. -/
theorem emb_term (W : Valuation τ sig (Elt Ideal))
    (a0 : FVec Ideal S100000x14 .f32) (a1 : IVec S100000 32) (a7 : FVec Ideal S8x16 .f32) (a8 : FVec Ideal S1024x8 .f32)
    (a9 : FVec Ideal S38x128 .f32) (a10 : FVec Ideal S128 .f32) (a11 : FVec Ideal S128x128 .f32) (a12 : FVec Ideal S128 .f32)
    (h0 : W (Proc.devRef .tc main_arg0) = a0) (h1 : W (Proc.devRef .tc main_arg1) = a1)
    (h7 : W (Proc.devRef .tc main_arg7) = a7) (h8 : W (Proc.devRef .tc main_arg8) = a8)
    (h9 : W (Proc.devRef .tc main_arg9) = a9) (h10 : W (Proc.devRef .tc main_arg10) = a10)
    (h11 : W (Proc.devRef .tc main_arg11) = a11) (h12 : W (Proc.devRef .tc main_arg12) = a12) :
    StableHlo.after (RefRun.ops_emb (F := Ideal)) W (Proc.devRef .tc main_v26) = emb a0 a1 a7 a8 a9 a10 a11 a12 := by
  subst h0 h1 h7 h8 h9 h10 h11 h12
  after_results
  rfl

end Cert.ReferenceIdeal.RefEmb

end
-- ==== Proof.RefEmbDense.lean ====
import proofs.«414917_j51823075393574_1_alg».proof.Proof.RefEmbDefs
import proofs.«414917_j51823075393574_1_alg».proof.Proof.RefOut

/-! The two dense layers of the reference's node embedding read at one entry: the product with a weight matrix is the sum
    over the contracted coordinate, the bias is laid along the rows, and the maximum is with the zero word's value, zero. -/

noncomputable section

open scoped BigOperators

namespace Cert.ReferenceIdeal.RefEmb

open Cert.ReferenceIdeal Cert.ReferenceIdeal.Gen Idealize.ShloMosaic Idealize.ShloMosaic.TcCoe Idealize.SL.Sem Idealize.ShloMosaic.StableHlo Idealize.ShloMosaic.ValueIdx Cert.ReferenceIdeal.RefOut

/-! ## The product of the feature array with the first weight at an index -/

theorem lhs_dot38_0 (i : S100000x128.Idx) (q : dot_S100000x38_S38x128_S100000x128_1_0_0_1_n_n.contr.Idx) :
    (dot_S100000x38_S38x128_S100000x128_1_0_0_1_n_n.lhsIdx i q 0).val = (i 0).val := by
  unfold DotDims.lhsIdx
  rw [dif_neg (show ¬(0 : Fin S100000x38.rank) ∈ dot_S100000x38_S38x128_S100000x128_1_0_0_1_n_n.lhsBatch by decide), dif_pos (show (0 : Fin S100000x38.rank) ∈ dot_S100000x38_S38x128_S100000x128_1_0_0_1_n_n.lhsNonContracting by decide)]
  rfl
theorem lhs_dot38_1 (i : S100000x128.Idx) (q : dot_S100000x38_S38x128_S100000x128_1_0_0_1_n_n.contr.Idx) :
    (dot_S100000x38_S38x128_S100000x128_1_0_0_1_n_n.lhsIdx i q 1).val = (q ⟨0, by decide⟩).val :=
  dot_S100000x38_S38x128_S100000x128_1_0_0_1_n_n.lhsIdx_val_of_single rfl i q
theorem rhs_dot38_0 (i : S100000x128.Idx) (q : dot_S100000x38_S38x128_S100000x128_1_0_0_1_n_n.contr.Idx) :
    (dot_S100000x38_S38x128_S100000x128_1_0_0_1_n_n.rhsIdx i q 0).val = (q ⟨0, by decide⟩).val :=
  dot_S100000x38_S38x128_S100000x128_1_0_0_1_n_n.rhsIdx_val_of_single rfl i q
theorem rhs_dot38_1 (i : S100000x128.Idx) (q : dot_S100000x38_S38x128_S100000x128_1_0_0_1_n_n.contr.Idx) :
    (dot_S100000x38_S38x128_S100000x128_1_0_0_1_n_n.rhsIdx i q 1).val = (i 1).val := by
  unfold DotDims.rhsIdx
  rw [dif_neg (show ¬(1 : Fin S38x128.rank) ∈ dot_S100000x38_S38x128_S100000x128_1_0_0_1_n_n.rhsBatch by decide), dif_pos (show (1 : Fin S38x128.rank) ∈ dot_S100000x38_S38x128_S100000x128_1_0_0_1_n_n.rhsNonContracting by decide)]
  rfl

/-- The host's product of a [100000, 38] array with a [38, 128] matrix, at (r, j): the sum over the contracted
    coordinate q of the array's (r, q) times the matrix's (q, j). -/
theorem dot38_apply (A : FVec Ideal S100000x38 .f32) (B : FVec Ideal S38x128 .f32) (r : Fin 100000) (j : Fin 128) :
    Host.dotGeneral dot_S100000x38_S38x128_S100000x128_1_0_0_1_n_n none A B (ix2 r j) = ∑ q : Fin 38, A (ix2 r q) * B (ix2 q j) := by
  simp only [Host.dotGeneral]
  rw [Ideal.dotGeneral_apply, ← Equiv.sum_comp (ValueIdx.contrEquiv1 dot_S100000x38_S38x128_S100000x128_1_0_0_1_n_n 38 rfl rfl).symm]
  refine Finset.sum_congr rfl fun k _ => ?_
  have hk := ValueIdx.contrEquiv1_symm_val dot_S100000x38_S38x128_S100000x128_1_0_0_1_n_n 38 rfl rfl k
  have el : dot_S100000x38_S38x128_S100000x128_1_0_0_1_n_n.lhsIdx (ix2 r j) ((ValueIdx.contrEquiv1 dot_S100000x38_S38x128_S100000x128_1_0_0_1_n_n 38 rfl rfl).symm k) = ix2 r k := funext fun a => Fin.ext (by
    match a with
    | ⟨0, _⟩ => exact lhs_dot38_0 _ _
    | ⟨1, _⟩ => exact (lhs_dot38_1 _ _).trans hk)
  have er : dot_S100000x38_S38x128_S100000x128_1_0_0_1_n_n.rhsIdx (ix2 r j) ((ValueIdx.contrEquiv1 dot_S100000x38_S38x128_S100000x128_1_0_0_1_n_n 38 rfl rfl).symm k) = ix2 k j := funext fun a => Fin.ext (by
    match a with
    | ⟨0, _⟩ => exact (rhs_dot38_0 _ _).trans hk
    | ⟨1, _⟩ => exact rhs_dot38_1 _ _)
  rw [el, er]

/-! ## The two dense layers at an index -/

/-- The first layer at (r, j): the maximum with zero of row r of the features times column j of the weight, plus the bias's entry j. -/
theorem dense1_at (x : FVec Ideal S100000x38 .f32) (a9 : FVec Ideal S38x128 .f32) (a10 : FVec Ideal S128 .f32)
    (r : Fin 100000) (j : Fin 128) :
    dense1 x a9 a10 (ix2 r j) = max ((∑ q : Fin 38, x (ix2 r q) * a9 (ix2 q j)) + a10 (ix1 j)) 0 := by
  unfold dense1
  rw [maximumf_apply, addf_apply, dot38_apply, rows_apply, row1_apply, broadcastInDim_scalar_apply, constant_apply,
    Ideal.ofBits_zero_f32]

/-- The second layer at (r, j), likewise over the 128 hidden entries. -/
theorem dense2_at (x : FVec Ideal S100000x128 .f32) (a11 : FVec Ideal S128x128 .f32) (a12 : FVec Ideal S128 .f32)
    (r : Fin 100000) (j : Fin 128) :
    dense2 x a11 a12 (ix2 r j) = max ((∑ k : Fin 128, x (ix2 r k) * a11 (ix2 k j)) + a12 (ix1 j)) 0 := by
  unfold dense2
  rw [maximumf_apply, addf_apply, dot_apply, rows_apply, row1_apply, broadcastInDim_scalar_apply, constant_apply,
    Ideal.ofBits_zero_f32]

end Cert.ReferenceIdeal.RefEmb

end
-- ==== Proof.RefRoleRow.lean ====
import proofs.«414917_j51823075393574_1_alg».proof.Proof.RefEmbDefs
import Idealize.ShloMosaic.Lib.ValueIdx
import Idealize.ShloMosaic.Lib.StableHlo.Predicate

/-! A reading of the role table's rows: at a node whose role id lies in 0..7 the gathered row is the table's row of
    that id. -/

noncomputable section

namespace Cert.ReferenceIdeal.RefEmb

open Cert.ReferenceIdeal Cert.ReferenceIdeal.Gen Idealize.ShloMosaic Idealize.ShloMosaic.TcCoe Idealize.SL.Sem Idealize.ShloMosaic.StableHlo
open Idealize.ShloMosaic.ValueIdx

/-- Where the role id is not negative the role index is the role id itself: the signed comparison with zero fails, so the
    selection keeps the id. -/
theorem roleIx_at (a1 : IVec S100000 32) (r : Fin 100000) (h0 : 0 ≤ (a1 (ix1 r)).toInt) :
    roleIx a1 (ix1 r) = a1 (ix1 r) := by
  unfold roleIx
  rw [select_apply]
  have hc : cmpi .slt a1 (broadcastInDim S100000 ![] bcast_S_S100000 (constantI S_ 32 0#32)) (ix1 r) = 0#1 := by
    show IntOp.cmpi .slt (a1 (ix1 r)) (0#32) = 0#1
    have : (a1 (ix1 r)).slt 0#32 = false := by
      rw [BitVec.slt]
      simp only [BitVec.toInt_zero, decide_eq_false_iff_not, not_lt]
      exact h0
    simp only [IntOp.cmpi, this]
    rfl
  rw [hc, select_zero]

/-- THE ROW READ. At node `r` with role id `w` in 0..7 the gathered row is the role table's row `w`: the start on the
    table's row axis is `w` read signed and clamped into 0..7, which is `w`; the column is the result's own. -/
theorem roleRows_at (a7 : FVec Ideal S8x16 .f32) (a1 : IVec S100000 32) (r : Fin 100000) (q : Fin 16)
    (h0 : 0 ≤ (a1 (ix1 r)).toInt) (h8 : (a1 (ix1 r)).toInt < 8) :
    roleRows a7 a1 (ix2 r q) = a7 (ix2 (⟨(a1 (ix1 r)).toNat % 8, Nat.mod_lt _ (by decide)⟩ : Fin 8) q) := by
  unfold roleRows Host.gather
  congr 1
  funext a
  refine Fin.ext ?_
  match a with
  | ⟨0, _⟩ =>
    -- the row axis: collapsed, not batching, and the one start-indexed axis
    show GatherDims.start _ (ix2 r q) _ 0 + GatherDims.batchCoord _ (ix2 r q) 0 + GatherDims.offCoord _ (ix2 r q) 0 = (a1 (ix1 r)).toNat % 8
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S8x16_S100000x1_S100000x16_1_0_n_n_0_1_116.startIndexMap from List.mem_singleton.mpr rfl)]
    -- the start index is read at (r, 0) of the column of role indices
    have hsi : GatherDims.siIdx gather_S8x16_S100000x1_S100000x16_1_0_n_n_0_1_116 (ix2 r q)
        ⟨List.idxOf (0 : Fin 2) gather_S8x16_S100000x1_S100000x16_1_0_n_n_0_1_116.startIndexMap,
          List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    have hb : broadcastInDim S100000x1 ![0] bcast_S100000_S100000x1_0 (roleIx a1) (ix2 r (0 : Fin 1)) = a1 (ix1 r) := by
      rw [← roleIx_at a1 r h0]
      simp only [broadcastInDim]
      congr 1
      funext c
      obtain rfl : c = 0 := Subsingleton.elim _ _
      refine Fin.ext ?_
      split
      · next h1 => exact absurd h1 (by decide)
      · rfl
    rw [hb]
    show min (a1 (ix1 r)).toInt.toNat (8 - 1) = (a1 (ix1 r)).toNat % 8
    have hw : (a1 (ix1 r)).toInt = ((a1 (ix1 r)).toNat : Int) := by
      by_cases hc : 2 * (a1 (ix1 r)).toNat < 2 ^ 32
      · rw [BitVec.toInt_eq_toNat_cond, if_pos hc]
      · rw [BitVec.toInt_eq_toNat_cond, if_neg hc] at h0
        have := (a1 (ix1 r)).isLt
        omega
    omega
  | ⟨1, _⟩ =>
    -- the column axis: kept, so it takes the result's column as its offset, and starts at zero
    show GatherDims.start _ (ix2 r q) _ 1 + GatherDims.batchCoord _ (ix2 r q) 1 + GatherDims.offCoord _ (ix2 r q) 1 = q.val
    rw [GatherDims.batchCoord_eq_zero _ _ _ List.not_mem_nil]
    unfold GatherDims.start
    rw [dif_neg (show (1 : Fin 2) ∉ gather_S8x16_S100000x1_S100000x16_1_0_n_n_0_1_116.startIndexMap by decide)]
    unfold GatherDims.offCoord
    rw [dif_pos (show (1 : Fin 2) ∈ gather_S8x16_S100000x1_S100000x16_1_0_n_n_0_1_116.sKept by decide)]
    simp only [Nat.zero_add]
    rfl

end Cert.ReferenceIdeal.RefEmb
-- ==== Proof.RefPosRow.lean ====
import proofs.«414917_j51823075393574_1_alg».proof.Proof.RefEmbDefs
import Idealize.ShloMosaic.Lib.ValueIdx
import Idealize.ShloMosaic.Lib.StableHlo.Predicate

/-! The index table's rows read by the reference: row `r mod 1024` for node `r`.

    The node's number is a non-negative word, the divisor is the word 1024, so the truncated remainder is the word of
    `r mod 1024`: it is non-negative, neither sign correction applies, and the row gather reads the table at that row. -/

noncomputable section

namespace Cert.ReferenceIdeal.RefEmb

open Cert.ReferenceIdeal Cert.ReferenceIdeal.Gen Idealize.ShloMosaic Idealize.ShloMosaic.TcCoe Idealize.SL.Sem Idealize.ShloMosaic.StableHlo
open Idealize.ShloMosaic.ValueIdx

open Idealize.ShloMosaic.StableHlo.Predicate in
/-- The signed remainder of a non-negative word by 1024 is the word of the remainder of its value. -/
theorem srem_1024 (n : Nat) (hn : n < 2 ^ 31) :
    (BitVec.ofNat 32 n).srem 1024#32 = BitVec.ofNat 32 (n % 1024) := by
  apply BitVec.eq_of_toInt_eq
  have h1 : (1024#32 : BitVec 32).toInt = ((1024 : Nat) : Int) := by decide
  have hm : n % 1024 < 2 ^ 31 := by omega
  rw [BitVec.toInt_srem, toInt_ofNat_small n hn, toInt_ofNat_small _ hm, h1, Int.ofNat_tmod]

/-- The divisor is the word 1024. -/
theorem modulus_eq : modulus = constantI S_ 32 1024#32 := by
  funext i
  rfl

open Idealize.ShloMosaic.StableHlo.Predicate in
/-- A non-negative word is not below zero. -/
theorem slt_zero_small (m : Nat) (hm : m < 2 ^ 31) : IntOp.cmpi .slt (BitVec.ofNat 32 m) 0#32 = 0#1 := by
  refine eq_zero_of_ne_one fun h => ?_
  have hlt : (BitVec.ofNat 32 m).toNat < 2 ^ 31 := by rw [BitVec.toNat_ofNat]; omega
  exact Nat.not_lt_zero _ ((slt_iff_toNat hlt (by decide)).mp h)

/-- The position index of node `r` is the word of `r mod 1024`. -/
theorem posIx_at (r : Fin 100000) : posIx (ix1 r) = BitVec.ofNat 32 (r.val % 1024) := by
  have hr : r.val < 2 ^ 31 := by have := r.isLt; omega
  have hm : r.val % 1024 < 2 ^ 31 := by omega
  have hraw : remRaw (ix1 r) = BitVec.ofNat 32 (r.val % 1024) := by
    show IntOp.remsi .host (BitVec.ofNat 32 r.val) 1024#32 = _
    unfold IntOp.remsi
    rw [if_neg (by rintro (h | ⟨_, h⟩) <;> exact absurd h (by decide)), srem_1024 _ hr]
  have hfix : remFix (ix1 r) = BitVec.ofNat 32 (r.val % 1024) := by
    show Scalar.select (IntOp.andi (IntOp.cmpi .ne (IntOp.cmpi .slt (remRaw (ix1 r)) 0#32) (IntOp.cmpi .slt 1024#32 0#32))
      (IntOp.cmpi .ne (remRaw (ix1 r)) 0#32)) (IntOp.addi (remRaw (ix1 r)) 1024#32) (remRaw (ix1 r)) = _
    rw [hraw, slt_zero_small _ hm]
    have h0 : ∀ b : BitVec 1, IntOp.andi (IntOp.cmpi .ne (0#1) (IntOp.cmpi .slt 1024#32 0#32)) b = 0#1 := by decide
    rw [h0, select_zero]
  show Scalar.select (IntOp.cmpi .slt (remFix (ix1 r)) 0#32) (IntOp.addi (remFix (ix1 r)) 1024#32) (remFix (ix1 r)) = _
  rw [hfix, slt_zero_small _ hm, select_zero]

section Rows
variable {α : Type}

/-- The dimension numbers of a row look-up: operand `[N, C]`, start indices `[R, 1]`, result `[R, C]`; the result's axis 1
    runs along the operand's row, the operand's axis 0 is collapsed and is the one the start index names. -/
abbrev rowDims (N C R : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The row look-up at `(p, q)`: the operand at column `q` of the row named by the start index `idx[p, 0]`, read signed and
    clamped into `[0, N − 1]`. -/
theorem gather_rows_apply {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (p : Fin R) (q : Fin C) :
    Host.gather (rowDims N C R wf) x idx (ix2 p q)
      = x (ix2 (⟨min (idx (ix2 p (0 : Fin 1))).toInt.toNat (N - 1), by omega⟩ : Fin N) q) := by
  unfold Host.gather
  congr 1
  funext a
  refine Fin.ext ?_
  match a with
  | ⟨0, _⟩ =>
    show (rowDims N C R wf).start (ix2 p q) idx 0 + (rowDims N C R wf).batchCoord (ix2 p q) 0
      + (rowDims N C R wf).offCoord (ix2 p q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C R wf).startIndexMap from List.mem_singleton.mpr rfl)]
    have hsi : (rowDims N C R wf).siIdx (ix2 p q) ⟨List.idxOf (0 : Fin 2) (rowDims N C R wf).startIndexMap,
        List.idxOf_lt_length_iff.2 (List.mem_singleton.mpr rfl)⟩ = ix2 p (0 : Fin 1) := by
      funext b; refine Fin.ext ?_
      match b with
      | ⟨0, _⟩ => rfl
      | ⟨1, _⟩ => rfl
    rw [hsi]
    rfl
  | ⟨1, _⟩ =>
    show (rowDims N C R wf).start (ix2 p q) idx 1 + (rowDims N C R wf).batchCoord (ix2 p q) 1
      + (rowDims N C R wf).offCoord (ix2 p q) 1 = _
    rw [GatherDims.batchCoord_eq_zero _ _ _ List.not_mem_nil]
    unfold GatherDims.start
    rw [dif_neg (show (1 : Fin 2) ∉ ([0] : List (Fin 2)) by decide)]
    simp only [Nat.add_zero, Nat.zero_add]
    unfold GatherDims.offCoord
    rw [dif_pos ((GatherDims.mem_sKept _ _).mpr ⟨show (1 : Fin 2) ∉ ([0] : List (Fin 2)) by decide, List.not_mem_nil⟩)]
    rfl

end Rows

/-- THE ROW READ. At node `r` the gathered row is the index table's row `r mod 1024`: the start on the table's row axis is
    the position index read signed and clamped into 0..1023, which is `r mod 1024`; the column is the result's own. -/
theorem posRows_at (a8 : FVec Ideal S1024x8 .f32) (r : Fin 100000) (q : Fin 8) :
    posRows a8 (ix2 r q) = a8 (ix2 (⟨r.val % 1024, Nat.mod_lt _ (by decide)⟩ : Fin 1024) q) := by
  have hm : r.val % 1024 < 1024 := Nat.mod_lt _ (by decide)
  have hb : broadcastInDim S100000x1 ![0] bcast_S100000_S100000x1_0 posIx (ix2 r (0 : Fin 1)) = BitVec.ofNat 32 (r.val % 1024) := by
    rw [← posIx_at r]
    simp only [broadcastInDim]
    congr 1
    funext c
    obtain rfl : c = 0 := Subsingleton.elim _ _
    refine Fin.ext ?_
    split
    · next h1 => exact absurd h1 (by decide)
    · rfl
  refine (gather_rows_apply (N := 1024) (C := 8) (R := 100000) (by decide)
    gather_S1024x8_S100000x1_S100000x8_1_0_n_n_0_1_18_wf a8 _ r q).trans ?_
  congr 1
  funext a
  refine Fin.ext ?_
  match a with
  | ⟨0, _⟩ =>
    show min (broadcastInDim S100000x1 ![0] bcast_S100000_S100000x1_0 posIx (ix2 r (0 : Fin 1))).toInt.toNat (1024 - 1) = r.val % 1024
    rw [hb, Idealize.ShloMosaic.StableHlo.Predicate.toInt_ofNat_small _ (by omega)]
    omega
  | ⟨1, _⟩ => rfl

end Cert.ReferenceIdeal.RefEmb

end
-- ==== Proof.RefFeatRow.lean ====
import proofs.«414917_j51823075393574_1_alg».proof.Proof.RefEmbDefs
import proofs.«414917_j51823075393574_1_alg».proof.Proof.Spec
import Idealize.ShloMosaic.Lib.ValueIdx
import Idealize.ShloMosaic.Lib.Pipeline.Value

/-! The reference's 38 input features of a node, read one entry at a time.

    The three pieces — 14 block features, 16 role-table entries, 8 index-table entries — lie side by side along the
    columns, so column `q` of row `r` is the entry of the piece whose span of columns holds `q`, at `q` less the
    widths of the pieces before it: the row of the specification's concatenated feature row. -/

noncomputable section

namespace Cert.ReferenceIdeal.RefEmb

open Cert.ReferenceIdeal Cert.ReferenceIdeal.Gen Idealize.ShloMosaic Idealize.ShloMosaic.TcCoe Idealize.SL.Sem Idealize.ShloMosaic.StableHlo
open Idealize.ShloMosaic.ValueIdx

/-- Three arrays side by side along the columns, read at row `r` and column `q`: the first piece's entry where
    `q < 14`, the second piece's entry at `q - 14` where `q < 30`, and the third piece's entry at `q - 30` otherwise. -/
theorem concat3_at (x : FVec Ideal S100000x14 .f32) (y : FVec Ideal S100000x16 .f32) (z : FVec Ideal S100000x8 .f32)
    (r : Fin 100000) (q : Fin 38) :
    concatenate S100000x38 1 [⟨S100000x14, x⟩, ⟨S100000x16, y⟩, ⟨S100000x8, z⟩]
        concatenates_S100000x14_S100000x16_S100000x8_S100000x38_d1 (ix2 r q)
      = Cert.Spec.xrow (fun k => x (ix2 r k)) (fun k => y (ix2 r k)) (fun k => z (ix2 r k)) q := by
  unfold Cert.Spec.xrow
  by_cases h1 : q.val < 14
  · rw [dif_pos h1]
    refine concatenate_apply_piece (t := S100000x38) (1 : Fin 2)
      [⟨S100000x14, x⟩, ⟨S100000x16, y⟩, ⟨S100000x8, z⟩]
      concatenates_S100000x14_S100000x16_S100000x8_S100000x38_d1 (ix2 r q) 0 (by simp) S100000x14 x rfl rfl 0 rfl
      (ix2 r ⟨q.val, h1⟩) ?_ ?_
    · intro b hb
      match b, hb with
      | ⟨0, _⟩, _ => rfl
      | ⟨1, _⟩, hb => exact absurd rfl hb
    · show 0 + q.val = q.val
      omega
  · rw [dif_neg h1]
    by_cases h2 : q.val < 30
    · rw [dif_pos h2]
      refine concatenate_apply_piece (t := S100000x38) (1 : Fin 2)
        [⟨S100000x14, x⟩, ⟨S100000x16, y⟩, ⟨S100000x8, z⟩]
        concatenates_S100000x14_S100000x16_S100000x8_S100000x38_d1 (ix2 r q) 1 (by simp) S100000x16 y rfl rfl 14 rfl
        (ix2 r ⟨q.val - 14, by omega⟩) ?_ ?_
      · intro b hb
        match b, hb with
        | ⟨0, _⟩, _ => rfl
        | ⟨1, _⟩, hb => exact absurd rfl hb
      · show 14 + (q.val - 14) = q.val
        omega
    · rw [dif_neg h2]
      refine concatenate_apply_piece (t := S100000x38) (1 : Fin 2)
        [⟨S100000x14, x⟩, ⟨S100000x16, y⟩, ⟨S100000x8, z⟩]
        concatenates_S100000x14_S100000x16_S100000x8_S100000x38_d1 (ix2 r q) 2 (by simp) S100000x8 z rfl rfl 30 rfl
        (ix2 r ⟨q.val - 30, by have := q.isLt; omega⟩) ?_ ?_
      · intro b hb
        match b, hb with
        | ⟨0, _⟩, _ => rfl
        | ⟨1, _⟩, hb => exact absurd rfl hb
      · show 30 + (q.val - 30) = q.val
        omega

/-- The reference's feature array at row `r` and column `q`: the concatenated feature row of the block features,
    the role rows and the position rows of that node. -/
theorem feat_at (a0 : FVec Ideal S100000x14 .f32) (a1 : IVec S100000 32) (a7 : FVec Ideal S8x16 .f32)
    (a8 : FVec Ideal S1024x8 .f32) (r : Fin 100000) (q : Fin 38) :
    feat a0 a1 a7 a8 (ix2 r q)
      = Cert.Spec.xrow (fun k => a0 (ix2 r k)) (fun k => roleRows a7 a1 (ix2 r k)) (fun k => posRows a8 (ix2 r k)) q :=
  concat3_at a0 (roleRows a7 a1) (posRows a8) r q

end Cert.ReferenceIdeal.RefEmb
-- ==== Proof.RefEmb.lean ====
import proofs.«414917_j51823075393574_1_alg».proof.Proof.RefEmbTerm
import proofs.«414917_j51823075393574_1_alg».proof.Proof.RefEmbDense
import proofs.«414917_j51823075393574_1_alg».proof.Proof.RefRoleRow
import proofs.«414917_j51823075393574_1_alg».proof.Proof.RefPosRow
import proofs.«414917_j51823075393574_1_alg».proof.Proof.RefFeatRow
import proofs.«414917_j51823075393574_1_alg».proof.Proof.Spec

/-! The reference's node embedding read at one entry. After the first list of the reference's operations, entry (r, j) of
    the embedding's buffer is Spec.lean's encR of node r's concatenated feature row — its 14 block features, the role
    table's row at its role id, the index table's row at its number modulo 1024 — and of the two weights and biases:
    the second dense layer's sum over the 128 hidden entries of the first layer's, each the maximum with zero of the
    features' product with a weight column plus the bias. The role ids are assumed to lie in [0, 8), as the launch's
    precondition gives them. -/

noncomputable section

open scoped BigOperators

namespace Cert.ReferenceIdeal.RefEmb

open Cert.ReferenceIdeal Cert.ReferenceIdeal.Gen Idealize.ShloMosaic Idealize.ShloMosaic.TcCoe Idealize.SL.Sem Idealize.ShloMosaic.StableHlo Idealize.ShloMosaic.ValueIdx

/-- Entry (r, j) of the node embedding, from any buffer contents whose eight argument buffers hold the named arrays. -/
theorem emb_at (W : Valuation τ sig (Elt Ideal))
    (a0 : FVec Ideal S100000x14 .f32) (a1 : IVec S100000 32) (a7 : FVec Ideal S8x16 .f32) (a8 : FVec Ideal S1024x8 .f32)
    (a9 : FVec Ideal S38x128 .f32) (a10 : FVec Ideal S128 .f32) (a11 : FVec Ideal S128x128 .f32) (a12 : FVec Ideal S128 .f32)
    (h0 : W (Proc.devRef .tc main_arg0) = a0) (h1 : W (Proc.devRef .tc main_arg1) = a1)
    (h7 : W (Proc.devRef .tc main_arg7) = a7) (h8 : W (Proc.devRef .tc main_arg8) = a8)
    (h9 : W (Proc.devRef .tc main_arg9) = a9) (h10 : W (Proc.devRef .tc main_arg10) = a10)
    (h11 : W (Proc.devRef .tc main_arg11) = a11) (h12 : W (Proc.devRef .tc main_arg12) = a12)
    (hr : ∀ r : Fin 100000, 0 ≤ (a1 (ix1 r)).toInt ∧ (a1 (ix1 r)).toInt < 8) (r : Fin 100000) (j : Fin 128) :
    (StableHlo.after (RefRun.ops_emb (F := Ideal)) W (Proc.devRef .tc main_v26) : S100000x128.Idx → EReal) (ix2 r j)
      = Cert.Spec.encR
          (Cert.Spec.xrow (fun q => a0 (ix2 r q))
            (fun q => a7 (ix2 (⟨(a1 (ix1 r)).toNat % 8, Nat.mod_lt _ (by decide)⟩ : Fin 8) q))
            (fun q => a8 (ix2 (⟨r.val % 1024, Nat.mod_lt _ (by decide)⟩ : Fin 1024) q)))
          (fun q k => a9 (ix2 q k)) (fun k => a10 (ix1 k)) (fun k j => a11 (ix2 k j)) (fun k => a12 (ix1 k)) j := by
  rw [emb_term W a0 a1 a7 a8 a9 a10 a11 a12 h0 h1 h7 h8 h9 h10 h11 h12]
  unfold emb Cert.Spec.encR
  rw [dense2_at]
  refine congrArg (fun t => max (t + a12 (ix1 j)) 0) (Finset.sum_congr rfl fun k _ => ?_)
  rw [dense1_at]
  refine congrArg (fun t => max (t + a10 (ix1 k)) 0 * a11 (ix2 k j)) (Finset.sum_congr rfl fun q _ => ?_)
  rw [feat_at]
  simp only [roleRows_at a7 a1 r _ (hr r).1 (hr r).2, posRows_at]

end Cert.ReferenceIdeal.RefEmb

end
-- ==== Proof.Shared.lean ====
/-
  Between the two dense stages both programs apply the SAME host operations: two rounds of "gather the neighbour's
  embedding row, scale it by the edge weight, scatter-add it into the node's row", one scatter-add of the pin weights,
  and at the end the mean of the output rows.  The two programs print these operations over their own copies of the same
  dimension records, so the composed functions are equal by unfolding the records, and the proof never opens a gather
  or a scatter-add.
-/
import proofs.«414917_j51823075393574_1_alg».proof.Proof.KHost
import proofs.«414917_j51823075393574_1_alg».proof.Proof.RefChains

noncomputable section

namespace Cert.Proof.Shared

open Idealize.ShloMosaic

variable {F : FTy → Type} [FloatOps F]

theorem gather_eq : Cert.KernelIdeal.gather_S100000x128_S1000000x1_S1000000x128_1_0_n_n_0_1_1128
    = Cert.ReferenceIdeal.gather_S100000x128_S1000000x1_S1000000x128_1_0_n_n_0_1_1128 := rfl

theorem scatter2_eq : Cert.KernelIdeal.scatter_S100000x128_S1000000x1_S1000000x128_1_0_0_1
    = Cert.ReferenceIdeal.scatter_S100000x128_S1000000x1_S1000000x128_1_0_0_1 := rfl

theorem scatter1_eq : Cert.KernelIdeal.scatter_S100000_S1000000x1_S1000000_n_0_0_1
    = Cert.ReferenceIdeal.scatter_S100000_S1000000x1_S1000000_n_0_0_1 := rfl

/-- The aggregation chain is one function in both programs. -/
theorem agg_eq (emb : FVec F Cert.KernelIdeal.S100000x128 .f32) (src dst : IVec Cert.KernelIdeal.S1000000 32)
    (w : FVec F Cert.KernelIdeal.S1000000 .f32) :
    Cert.KernelIdeal.KHost.aggK emb src dst w = Cert.ReferenceIdeal.RefChains.aggR emb src dst w := by
  unfold Cert.KernelIdeal.KHost.aggK Cert.ReferenceIdeal.RefChains.aggR
  rw [gather_eq, scatter2_eq]

/-- The pin-weight sum is one function in both programs. -/
theorem pw_eq (blk : IVec Cert.KernelIdeal.S1000000 32) (w : FVec F Cert.KernelIdeal.S1000000 .f32) :
    Cert.KernelIdeal.KHost.pwK blk w = Cert.ReferenceIdeal.RefChains.pwR blk w := by
  unfold Cert.KernelIdeal.KHost.pwK Cert.ReferenceIdeal.RefChains.pwR
  rw [scatter1_eq]

/-- The mean over the rows is one function in both programs. -/
theorem mean_eq (x : FVec F Cert.KernelIdeal.S100000x128 .f32) :
    Cert.KernelIdeal.KHost.meanK x = Cert.ReferenceIdeal.RefChains.meanR x := rfl

end Cert.Proof.Shared

end
-- ==== Proof.PreRange.lean ====
/-
  The index range of the role table, read out of the precondition. The precondition `finite_inputs` is a
  conjunction of seventeen `jnp.all`s, and-ed left to right; its last two conjuncts are
  `jnp.all(role_ids >= 0)` and `jnp.all(role_ids < 8)` over the [100000] array of 32-bit words `main_arg1`.
  A conjunction of `i1` words that is 1 has every conjunct 1; a reduction by `and` into the one-index result
  that is 1 met a 1 at every operand index; and a signed comparison word that is 1 says the integer
  inequality of the words compared. So every word of `main_arg1`, read signed, lies in [0, 8).
-/
import proofs.«414917_j51823075393574_1_alg».proof.Defs
import proofs.«414917_j51823075393574_1_alg».proof.Proof.Gen.Pre_finite_inputs
import Idealize.ShloMosaic.Lib.ReduceAll
import Idealize.ShloMosaic.Lib.StableHlo.Predicate
import Idealize.ShloMosaic.Lib.ValueIdx

set_option maxRecDepth 16384

noncomputable section

namespace Cert.Proof.PreRange

open Idealize.ShloMosaic Idealize.SL.Sem
open Cert.Pre_finite_inputs

/-- The rank-0 shape has one index. -/
instance : Subsingleton S_.Idx := ⟨fun a b => funext fun d => d.elim0⟩

/-- The last part of the conjunction: if it is 1, every word of the role table is in [0, 8) signed.
    The two outermost conjuncts are the two `jnp.all`s over the table; the rest is not needed. -/
theorem part4_range [Cert.Pre_finite_inputs.Facts] {F : FTy → Type} [FloatOps F] (a1 : IVec S100000 32) (a18 : FVec F S128 .f32)
    (v63 v67 : IVec S_ 1) (e : fn_part4 (F := F) a1 a18 v63 v67 ValueIdx.ix0 = 1#1) (i : S100000.Idx) :
    0 ≤ (a1 i).toInt ∧ (a1 i).toInt < 8 := by
  dsimp only [fn_part4] at e
  simp only [andi] at e
  rw [IntOp.andi_eq_one, IntOp.andi_eq_one] at e
  obtain ⟨⟨-, h0⟩, h8⟩ := e
  have g0 := Host.reduce_andi_all _ _ _ _ _ h0 i
  have g8 := Host.reduce_andi_all _ _ _ _ _ h8 i
  simp only [cmpi, broadcastInDim, constantI] at g0 g8
  rw [IntOp.cmpi_sge] at g0
  rw [IntOp.cmpi_slt] at g8
  have z0 : (0#32 : BitVec 32).toInt = 0 := by decide
  have z8 : (8#32 : BitVec 32).toInt = 8 := by decide
  rw [z0] at g0
  rw [z8] at g8
  exact ⟨g0, g8⟩

/-- The precondition ends in the last part of the conjunction, at the role table. -/
theorem role_range [hPre_finite_inputs : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) (r : Fin 100000) :
    0 ≤ (m ((c.tc : Thread Cert.KernelIdeal.nD Cert.KernelIdeal.τ).loc Cert.KernelIdeal.main_arg1) (ValueIdx.ix1 r)).toInt
      ∧ (m ((c.tc : Thread Cert.KernelIdeal.nD Cert.KernelIdeal.τ).loc Cert.KernelIdeal.main_arg1) (ValueIdx.ix1 r)).toInt < 8 := by
  have e := congrFun (h c) ValueIdx.ix0
  unfold Cert.Pre_finite_inputs.fn fn_part1 fn_part2 fn_part3 at e
  exact part4_range _ _ _ _ e (ValueIdx.ix1 r)

end Cert.Proof.PreRange

end
-- ==== Proof.Final.lean ====
/-
  The two idealized programs end with equal results.

  From memories that agree on the nineteen arguments, with every role id in [0, 8):
  * the node embeddings agree entry by entry — both are the encode row function of the concatenated features against
    the whole first weight (the kernel's three-band grouping was joined to it before);
  * the aggregate and the pin weights are the same host functions of equal embeddings and equal edge arguments;
  * so the output arrays agree entry by entry — both are the message row function of equal rows;
  * and the second result is the same mean of equal arrays.
  The kernel program's run ends with its two result buffers at the last boundary contents, which are its second dense
  stage's output array and that array's mean; the reference's run ends with every buffer at the fold of its operations.
-/
import proofs.«414917_j51823075393574_1_alg».proof.Defs
import proofs.«414917_j51823075393574_1_alg».proof.Proof.KRun
import proofs.«414917_j51823075393574_1_alg».proof.Proof.KHost
import proofs.«414917_j51823075393574_1_alg».proof.Proof.OutK
import proofs.«414917_j51823075393574_1_alg».proof.Proof.EmbK
import proofs.«414917_j51823075393574_1_alg».proof.Proof.RefRun
import proofs.«414917_j51823075393574_1_alg».proof.Proof.RefFinal
import proofs.«414917_j51823075393574_1_alg».proof.Proof.RefEmb
import proofs.«414917_j51823075393574_1_alg».proof.Proof.Shared
import proofs.«414917_j51823075393574_1_alg».proof.Proof.PreRange

set_option maxRecDepth 16384

noncomputable section

namespace Cert.Proof.Final

open Idealize.ShloMosaic Idealize.ShloMosaic.TcCoe Idealize.SL.Sem Idealize.ShloMosaic.ValueIdx Idealize.ShloMosaic.StableHlo

abbrev KMem := (ℓ : Loc Cert.KernelIdeal.nD Cert.KernelIdeal.τ Cert.KernelIdeal.sig) → Buf (Elt Ideal) ℓ
abbrev RMem := (ℓ : Loc Cert.ReferenceIdeal.nD Cert.ReferenceIdeal.τ Cert.ReferenceIdeal.sig) → Buf (Elt Ideal) ℓ

/-- The two memories agree on the nineteen arguments (the claim's hypothesis, at one device). -/
abbrev Agree (m : KMem) (m' : RMem) (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧   m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧   m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧   m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧   m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧   m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧   m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  ∧   m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
  ∧   m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
  ∧   m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
  ∧   m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
  ∧   m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
  ∧   m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
  ∧   m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
  ∧   m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
  ∧   m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
  ∧   m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
  ∧   m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
  ∧   m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)

section
variable (m : KMem) (g : Dev Cert.KernelIdeal.nD → PrngReg) (m' : RMem) (c : Dev Cert.KernelIdeal.nD)

/-- The node embeddings of the two programs are one array. -/
theorem emb_eq (ha : Agree m m' c)
    (hr : ∀ r : Fin 100000, 0 ≤ (m ((c.tc : Thread Cert.KernelIdeal.nD Cert.KernelIdeal.τ).loc Cert.KernelIdeal.main_arg1) (ix1 r)).toInt ∧ (m ((c.tc : Thread Cert.KernelIdeal.nD Cert.KernelIdeal.τ).loc Cert.KernelIdeal.main_arg1) (ix1 r)).toInt < 8) :
    Cert.ReferenceIdeal.RefFinal.embArr (launchContents m' c) = Cert.KernelIdeal.OutK.embArr m g c := by
  obtain ⟨a0, a1, a2, a3, a4, a5, a6, a7, a8, a9, a10, a11, a12, a13, a14, a15, a16, a17, a18⟩ := ha
  funext i
  obtain ⟨r, j, rfl⟩ : ∃ (r : Fin 100000) (j : Fin 128), i = ix2 r j := ⟨i 0, i 1, eq_ix2 i⟩
  exact (Cert.ReferenceIdeal.RefEmb.emb_at (launchContents m' c) _ _ _ _ _ _ _ _ a0 a1 a7 a8 a9 a10 a11 a12 hr r j).trans
    (Cert.KernelIdeal.EmbK.emb_eq m g c hr r j).symm

/-- The output arrays of the two programs are one array. -/
theorem out_eq (ha : Agree m m' c)
    (hr : ∀ r : Fin 100000, 0 ≤ (m ((c.tc : Thread Cert.KernelIdeal.nD Cert.KernelIdeal.τ).loc Cert.KernelIdeal.main_arg1) (ix1 r)).toInt ∧ (m ((c.tc : Thread Cert.KernelIdeal.nD Cert.KernelIdeal.τ).loc Cert.KernelIdeal.main_arg1) (ix1 r)).toInt < 8) :
    after Cert.ReferenceIdeal.RefFinal.all (launchContents m' c) (Proc.devRef .tc Cert.ReferenceIdeal.main_v107)
      = (Cert.KernelIdeal.Gen.dat1 (F := Ideal) (Cert.KernelIdeal.Gen.V3 m g) c).arrAt 9 Cert.KernelIdeal.cfg1.N := by
  have he := emb_eq m g m' c ha hr
  obtain ⟨a0, a1, a2, a3, a4, a5, a6, a7, a8, a9, a10, a11, a12, a13, a14, a15, a16, a17, a18⟩ := ha
  funext i
  obtain ⟨r, j, rfl⟩ : ∃ (r : Fin 100000) (j : Fin 128), i = ix2 r j := ⟨i 0, i 1, eq_ix2 i⟩
  refine (Cert.ReferenceIdeal.RefFinal.v107_at (launchContents m' c) r j).trans ?_
  refine Eq.trans ?_ (Cert.KernelIdeal.OutK.out_eq m g c r j).symm
  rw [he, Cert.Proof.Shared.agg_eq, Cert.Proof.Shared.pw_eq]
  rw [show launchContents m' c (Proc.devRef .tc Cert.ReferenceIdeal.main_arg2) = m ((c.tc : Thread Cert.KernelIdeal.nD Cert.KernelIdeal.τ).loc Cert.KernelIdeal.main_arg2) from a2,
    show launchContents m' c (Proc.devRef .tc Cert.ReferenceIdeal.main_arg3) = m ((c.tc : Thread Cert.KernelIdeal.nD Cert.KernelIdeal.τ).loc Cert.KernelIdeal.main_arg3) from a3,
    show launchContents m' c (Proc.devRef .tc Cert.ReferenceIdeal.main_arg4) = m ((c.tc : Thread Cert.KernelIdeal.nD Cert.KernelIdeal.τ).loc Cert.KernelIdeal.main_arg4) from a4,
    show launchContents m' c (Proc.devRef .tc Cert.ReferenceIdeal.main_arg5) = m ((c.tc : Thread Cert.KernelIdeal.nD Cert.KernelIdeal.τ).loc Cert.KernelIdeal.main_arg5) from a5,
    show launchContents m' c (Proc.devRef .tc Cert.ReferenceIdeal.main_arg6) = m ((c.tc : Thread Cert.KernelIdeal.nD Cert.KernelIdeal.τ).loc Cert.KernelIdeal.main_arg6) from a6,
    show launchContents m' c (Proc.devRef .tc Cert.ReferenceIdeal.main_arg13) = m ((c.tc : Thread Cert.KernelIdeal.nD Cert.KernelIdeal.τ).loc Cert.KernelIdeal.main_arg13) from a13,
    show launchContents m' c (Proc.devRef .tc Cert.ReferenceIdeal.main_arg14) = m ((c.tc : Thread Cert.KernelIdeal.nD Cert.KernelIdeal.τ).loc Cert.KernelIdeal.main_arg14) from a14,
    show launchContents m' c (Proc.devRef .tc Cert.ReferenceIdeal.main_arg15) = m ((c.tc : Thread Cert.KernelIdeal.nD Cert.KernelIdeal.τ).loc Cert.KernelIdeal.main_arg15) from a15,
    show launchContents m' c (Proc.devRef .tc Cert.ReferenceIdeal.main_arg16) = m ((c.tc : Thread Cert.KernelIdeal.nD Cert.KernelIdeal.τ).loc Cert.KernelIdeal.main_arg16) from a16,
    show launchContents m' c (Proc.devRef .tc Cert.ReferenceIdeal.main_arg17) = m ((c.tc : Thread Cert.KernelIdeal.nD Cert.KernelIdeal.τ).loc Cert.KernelIdeal.main_arg17) from a17,
    show launchContents m' c (Proc.devRef .tc Cert.ReferenceIdeal.main_arg18) = m ((c.tc : Thread Cert.KernelIdeal.nD Cert.KernelIdeal.τ).loc Cert.KernelIdeal.main_arg18) from a18]

end

theorem algebraic : Cert.algebraic_KernelIdeal_ReferenceIdeal := by
  intro m g m' g' hpre hagree
  have hr : ∀ (c : Dev Cert.KernelIdeal.nD) (r : Fin 100000),
      0 ≤ (m ((c.tc : Thread Cert.KernelIdeal.nD Cert.KernelIdeal.τ).loc Cert.KernelIdeal.main_arg1) (ix1 r)).toInt ∧ (m ((c.tc : Thread Cert.KernelIdeal.nD Cert.KernelIdeal.τ).loc Cert.KernelIdeal.main_arg1) (ix1 r)).toInt < 8 :=
    fun c r => Cert.Proof.PreRange.role_range m hpre c r
  refine ⟨fun c => (Cert.KernelIdeal.Gen.dat1 (F := Ideal) (Cert.KernelIdeal.Gen.V3 m g) c).arrAt 9 Cert.KernelIdeal.cfg1.N,
    fun c => Cert.KernelIdeal.KHost.meanK (F := Ideal) ((Cert.KernelIdeal.Gen.dat1 (F := Ideal) (Cert.KernelIdeal.Gen.V3 m g) c).arrAt 9 Cert.KernelIdeal.cfg1.N), ?_, ?_⟩
  · refine (θ_run _ _ _).mono (fun r h c => ?_) (Cert.KernelIdeal.KRun.run_values (F := Ideal) m g)
    obtain ⟨h60, h63, hargs⟩ := h c
    exact ⟨h60.trans (Cert.KernelIdeal.KHost.W5_out m g c), h63.trans (Cert.KernelIdeal.KHost.W5_mean m g c), hargs⟩
  · refine (θ_run _ _ _).mono (fun r h c => ?_) (Cert.ReferenceIdeal.RefRun.run (F := Ideal) m' g')
    have key := out_eq m g m' c (hagree c) (hr c)
    refine ⟨(h c Cert.ReferenceIdeal.main_v107).trans key, (h c Cert.ReferenceIdeal.main_v110).trans ?_,
      (h c Cert.ReferenceIdeal.main_arg0).trans (Cert.ReferenceIdeal.RefFinal.all_arg _ Cert.ReferenceIdeal.main_arg0 (by decide)),
      (h c Cert.ReferenceIdeal.main_arg1).trans (Cert.ReferenceIdeal.RefFinal.all_arg _ Cert.ReferenceIdeal.main_arg1 (by decide)),
      (h c Cert.ReferenceIdeal.main_arg2).trans (Cert.ReferenceIdeal.RefFinal.all_arg _ Cert.ReferenceIdeal.main_arg2 (by decide)),
      (h c Cert.ReferenceIdeal.main_arg3).trans (Cert.ReferenceIdeal.RefFinal.all_arg _ Cert.ReferenceIdeal.main_arg3 (by decide)),
      (h c Cert.ReferenceIdeal.main_arg4).trans (Cert.ReferenceIdeal.RefFinal.all_arg _ Cert.ReferenceIdeal.main_arg4 (by decide)),
      (h c Cert.ReferenceIdeal.main_arg5).trans (Cert.ReferenceIdeal.RefFinal.all_arg _ Cert.ReferenceIdeal.main_arg5 (by decide)),
      (h c Cert.ReferenceIdeal.main_arg6).trans (Cert.ReferenceIdeal.RefFinal.all_arg _ Cert.ReferenceIdeal.main_arg6 (by decide)),
      (h c Cert.ReferenceIdeal.main_arg7).trans (Cert.ReferenceIdeal.RefFinal.all_arg _ Cert.ReferenceIdeal.main_arg7 (by decide)),
      (h c Cert.ReferenceIdeal.main_arg8).trans (Cert.ReferenceIdeal.RefFinal.all_arg _ Cert.ReferenceIdeal.main_arg8 (by decide)),
      (h c Cert.ReferenceIdeal.main_arg9).trans (Cert.ReferenceIdeal.RefFinal.all_arg _ Cert.ReferenceIdeal.main_arg9 (by decide)),
      (h c Cert.ReferenceIdeal.main_arg10).trans (Cert.ReferenceIdeal.RefFinal.all_arg _ Cert.ReferenceIdeal.main_arg10 (by decide)),
      (h c Cert.ReferenceIdeal.main_arg11).trans (Cert.ReferenceIdeal.RefFinal.all_arg _ Cert.ReferenceIdeal.main_arg11 (by decide)),
      (h c Cert.ReferenceIdeal.main_arg12).trans (Cert.ReferenceIdeal.RefFinal.all_arg _ Cert.ReferenceIdeal.main_arg12 (by decide)),
      (h c Cert.ReferenceIdeal.main_arg13).trans (Cert.ReferenceIdeal.RefFinal.all_arg _ Cert.ReferenceIdeal.main_arg13 (by decide)),
      (h c Cert.ReferenceIdeal.main_arg14).trans (Cert.ReferenceIdeal.RefFinal.all_arg _ Cert.ReferenceIdeal.main_arg14 (by decide)),
      (h c Cert.ReferenceIdeal.main_arg15).trans (Cert.ReferenceIdeal.RefFinal.all_arg _ Cert.ReferenceIdeal.main_arg15 (by decide)),
      (h c Cert.ReferenceIdeal.main_arg16).trans (Cert.ReferenceIdeal.RefFinal.all_arg _ Cert.ReferenceIdeal.main_arg16 (by decide)),
      (h c Cert.ReferenceIdeal.main_arg17).trans (Cert.ReferenceIdeal.RefFinal.all_arg _ Cert.ReferenceIdeal.main_arg17 (by decide)),
      (h c Cert.ReferenceIdeal.main_arg18).trans (Cert.ReferenceIdeal.RefFinal.all_arg _ Cert.ReferenceIdeal.main_arg18 (by decide))⟩
    rw [Cert.ReferenceIdeal.RefFinal.all_v110, key]
    exact (Cert.Proof.Shared.mean_eq _).symm

/-- The reference's frame: its run, keeping only that the arguments end as launched. -/
theorem frame_ri : Cert.frame_ReferenceIdeal := fun m g _ =>
  (θ_run _ _ _).mono (fun r h c =>
    ⟨(h c Cert.ReferenceIdeal.main_arg0).trans (Cert.ReferenceIdeal.RefFinal.all_arg _ Cert.ReferenceIdeal.main_arg0 (by decide)),
     (h c Cert.ReferenceIdeal.main_arg1).trans (Cert.ReferenceIdeal.RefFinal.all_arg _ Cert.ReferenceIdeal.main_arg1 (by decide)),
     (h c Cert.ReferenceIdeal.main_arg2).trans (Cert.ReferenceIdeal.RefFinal.all_arg _ Cert.ReferenceIdeal.main_arg2 (by decide)),
     (h c Cert.ReferenceIdeal.main_arg3).trans (Cert.ReferenceIdeal.RefFinal.all_arg _ Cert.ReferenceIdeal.main_arg3 (by decide)),
     (h c Cert.ReferenceIdeal.main_arg4).trans (Cert.ReferenceIdeal.RefFinal.all_arg _ Cert.ReferenceIdeal.main_arg4 (by decide)),
     (h c Cert.ReferenceIdeal.main_arg5).trans (Cert.ReferenceIdeal.RefFinal.all_arg _ Cert.ReferenceIdeal.main_arg5 (by decide)),
     (h c Cert.ReferenceIdeal.main_arg6).trans (Cert.ReferenceIdeal.RefFinal.all_arg _ Cert.ReferenceIdeal.main_arg6 (by decide)),
     (h c Cert.ReferenceIdeal.main_arg7).trans (Cert.ReferenceIdeal.RefFinal.all_arg _ Cert.ReferenceIdeal.main_arg7 (by decide)),
     (h c Cert.ReferenceIdeal.main_arg8).trans (Cert.ReferenceIdeal.RefFinal.all_arg _ Cert.ReferenceIdeal.main_arg8 (by decide)),
     (h c Cert.ReferenceIdeal.main_arg9).trans (Cert.ReferenceIdeal.RefFinal.all_arg _ Cert.ReferenceIdeal.main_arg9 (by decide)),
     (h c Cert.ReferenceIdeal.main_arg10).trans (Cert.ReferenceIdeal.RefFinal.all_arg _ Cert.ReferenceIdeal.main_arg10 (by decide)),
     (h c Cert.ReferenceIdeal.main_arg11).trans (Cert.ReferenceIdeal.RefFinal.all_arg _ Cert.ReferenceIdeal.main_arg11 (by decide)),
     (h c Cert.ReferenceIdeal.main_arg12).trans (Cert.ReferenceIdeal.RefFinal.all_arg _ Cert.ReferenceIdeal.main_arg12 (by decide)),
     (h c Cert.ReferenceIdeal.main_arg13).trans (Cert.ReferenceIdeal.RefFinal.all_arg _ Cert.ReferenceIdeal.main_arg13 (by decide)),
     (h c Cert.ReferenceIdeal.main_arg14).trans (Cert.ReferenceIdeal.RefFinal.all_arg _ Cert.ReferenceIdeal.main_arg14 (by decide)),
     (h c Cert.ReferenceIdeal.main_arg15).trans (Cert.ReferenceIdeal.RefFinal.all_arg _ Cert.ReferenceIdeal.main_arg15 (by decide)),
     (h c Cert.ReferenceIdeal.main_arg16).trans (Cert.ReferenceIdeal.RefFinal.all_arg _ Cert.ReferenceIdeal.main_arg16 (by decide)),
     (h c Cert.ReferenceIdeal.main_arg17).trans (Cert.ReferenceIdeal.RefFinal.all_arg _ Cert.ReferenceIdeal.main_arg17 (by decide)),
     (h c Cert.ReferenceIdeal.main_arg18).trans (Cert.ReferenceIdeal.RefFinal.all_arg _ Cert.ReferenceIdeal.main_arg18 (by decide))⟩)
    (Cert.ReferenceIdeal.RefRun.run (F := Ideal) m g)

end Cert.Proof.Final

end
-- ==== Proof.lean ====
/-
  A graph block encoder: per-node encode perceptron, weighted neighbour aggregation, message perceptron with a
  residual and a layer norm, and the mean of the node outputs — a Pallas program of two row-tiled kernels with the
  irregular aggregation on the host between them, against its plain jnp reference.

  Over the extended reals the two programs compute the same two results whenever every role id lies in [0, 8), the
  range of the role table's rows (outside it the reference's table look-up clamps or wraps while the kernel's one-hot row
  is empty, and the results differ):

  * ENCODE.  The reference concatenates block features, the role embedding row and the index embedding row
    `r mod 1024` and multiplies by the 38 × 128 first weight; the kernel multiplies the three pieces by the matching row
    bands, the role piece as a one-hot row times `role_emb · W1[14:30]`.  A sum over 38 indices splits into the sums over its
    first 14, next 16 and last 8, and `∑ v, [v = ρ] · t v = t ρ`; nothing else is used, so no finiteness.  The tiled copy of
    the index table (reshape, broadcast, reshape, slice) holds table row `r mod 1024` in row r, as does the reference's
    look-up at the remainder of the node number.
  * AGGREGATE.  Both programs apply the same gathers, products and scatter-adds to the embedding and the edge
    arguments: equal inputs, one function.
  * MESSAGE.  Row by row the same perceptron, residual and layer norm, statement for statement; the kernel's lane sums
    are the reference's row sums from an initial zero, a matmul into a zero accumulator is the reference's contraction.
  * MEAN.  The same host operations on equal arrays.

  Each kernel's output array is read off its frame run block by block (20 blocks of 5000 rows cover the array); the
  kernel program's run is the generated frame's launch called with a post that names the two results; the reference's
  run is the fold of its 161 host operations, read in four consecutive stretches.  The three frames are the generated
  ones, the reference's being its run with the results dropped; the ideal pass rewrote nothing, so `preserves` is trivial.
-/
import proofs.«414917_j51823075393574_1_alg».proof.Defs
import proofs.«414917_j51823075393574_1_alg».proof.Proof.Gen.Kernel
import proofs.«414917_j51823075393574_1_alg».proof.Proof.Gen.Kernel.Skeleton
import proofs.«414917_j51823075393574_1_alg».proof.Proof.Gen.Kernel.Launch
import proofs.«414917_j51823075393574_1_alg».proof.Proof.Gen.Kernel.Points
import proofs.«414917_j51823075393574_1_alg».proof.Proof.Gen.Kernel.Frame
import proofs.«414917_j51823075393574_1_alg».proof.Proof.Gen.KernelIdeal
import proofs.«414917_j51823075393574_1_alg».proof.Proof.Gen.KernelIdeal.Skeleton
import proofs.«414917_j51823075393574_1_alg».proof.Proof.Gen.KernelIdeal.Launch
import proofs.«414917_j51823075393574_1_alg».proof.Proof.Gen.KernelIdeal.Points
import proofs.«414917_j51823075393574_1_alg».proof.Proof.Gen.KernelIdeal.Frame
import proofs.«414917_j51823075393574_1_alg».proof.Proof.Gen.ReferenceIdeal
import proofs.«414917_j51823075393574_1_alg».proof.Proof.Gen.Pre_finite_inputs
import proofs.«414917_j51823075393574_1_alg».proof.Proof.Final
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  Cert.Proof.Final.frame_ri,
  trivial,
  Cert.Proof.Final.algebraic⟩

end Cert.Proof

end
